-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Pre_finite_inputs_ReferenceIdeal.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S4096x1024 : Shape := ⟨2, ![4096, 1024]⟩
abbrev S1024 : Shape := ⟨1, ![1024]⟩
abbrev S8x4096 : Shape := ⟨2, ![8, 4096]⟩
abbrev S7 : Shape := ⟨1, ![7]⟩
abbrev S4 : Shape := ⟨1, ![4]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1 : Shape := ⟨1, ![1]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .bf16⟩
  | .local _ .vmem, ⟨0, _⟩ => ⟨S4096x1024, .f32⟩
  | .local _ .vmem, ⟨1, _⟩ => ⟨S1024, .f32⟩
  | .local _ .vmem, ⟨2, _⟩ => ⟨S4096x1024, .bf16⟩
  | .local _ .vmem, ⟨3, _⟩ => ⟨S8x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : Index := Scalar.indexCast v2
  let c0_29 : Index := 0#32
  ![v38.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_37 : BitVec 32 := 0#32
  ![v2.toNat, 0]
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v42 : BitVec 32 := Scalar.addi v2 c1_i32_31
  let c8_i32_32 : BitVec 32 := 8#32
  let v43 : BitVec 32 := Scalar.remsi v42 c8_i32_32
  let c1_i32_35 : BitVec 32 := 1#32
  let v44 : BitVec 32 := Scalar.muli v43 c1_i32_35
  let v45 : BitVec 32 := Scalar.addi c0_i32_36 v44
  v45.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v52 : BitVec 32 := Scalar.addi v2 c2_i32_39
  let c8_i32_40 : BitVec 32 := 8#32
  let v53 : BitVec 32 := Scalar.remsi v52 c8_i32_40
  let c1_i32_43 : BitVec 32 := 1#32
  let v54 : BitVec 32 := Scalar.muli v53 c1_i32_43
  let v55 : BitVec 32 := Scalar.addi c0_i32_44 v54
  v55.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v62 : BitVec 32 := Scalar.addi v2 c3_i32_47
  let c8_i32_48 : BitVec 32 := 8#32
  let v63 : BitVec 32 := Scalar.remsi v62 c8_i32_48
  let c1_i32_51 : BitVec 32 := 1#32
  let v64 : BitVec 32 := Scalar.muli v63 c1_i32_51
  let v65 : BitVec 32 := Scalar.addi c0_i32_52 v64
  v65.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_55 : BitVec 32 := 4#32
  let v72 : BitVec 32 := Scalar.addi v2 c4_i32_55
  let c8_i32_56 : BitVec 32 := 8#32
  let v73 : BitVec 32 := Scalar.remsi v72 c8_i32_56
  let c1_i32_59 : BitVec 32 := 1#32
  let v74 : BitVec 32 := Scalar.muli v73 c1_i32_59
  let v75 : BitVec 32 := Scalar.addi c0_i32_60 v74
  v75.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v82 : BitVec 32 := Scalar.addi v2 c5_i32_63
  let c8_i32_64 : BitVec 32 := 8#32
  let v83 : BitVec 32 := Scalar.remsi v82 c8_i32_64
  let c1_i32_67 : BitVec 32 := 1#32
  let v84 : BitVec 32 := Scalar.muli v83 c1_i32_67
  let v85 : BitVec 32 := Scalar.addi c0_i32_68 v84
  v85.toNat
def k0_dev13 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_71 : BitVec 32 := 6#32
  let v92 : BitVec 32 := Scalar.addi v2 c6_i32_71
  let c8_i32_72 : BitVec 32 := 8#32
  let v93 : BitVec 32 := Scalar.remsi v92 c8_i32_72
  let c1_i32_75 : BitVec 32 := 1#32
  let v94 : BitVec 32 := Scalar.muli v93 c1_i32_75
  let v95 : BitVec 32 := Scalar.addi c0_i32_76 v94
  v95.toNat
def k0_dev14 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_79 : BitVec 32 := 7#32
  let v102 : BitVec 32 := Scalar.addi v2 c7_i32_79
  let c8_i32_80 : BitVec 32 := 8#32
  let v103 : BitVec 32 := Scalar.remsi v102 c8_i32_80
  let c1_i32_83 : BitVec 32 := 1#32
  let v104 : BitVec 32 := Scalar.muli v103 c1_i32_83
  let v105 : BitVec 32 := Scalar.addi c0_i32_84 v104
  v105.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S4096 : S4096x1024.Reduces [1] S4096
  shapeCasts_S4096_S4096x1 : S4096.ShapeCasts S4096x1
  transposes_S4096x1_p1_0_S1x4096 : S4096x1.Transposes [1, 0] S1x4096
  h_S1x4096 : 0 < S1x4096.numel
  shapeCasts_S1x4096_S1x4096 : S1x4096.ShapeCasts S1x4096
  hamt_7 : (7#32 : BitVec 32).msb = false
  inb_S7_S1_0 : ∀ a, (![0] : Fin 1 → Nat) a + S1.size a ≤ S7.size a
  squeezes_S1_S_ : S1.Squeezes S_
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S8x4096_S8x4096_0_0 : ∀ a, (![0, 0] : Fin 2 → Nat) a + S8x4096.size a ≤ S8x4096.size a
  h_S8x4096 : 0 < S8x4096.numel
  reduces_S8x4096_S4096 : S8x4096.Reduces [0] S4096
  shapeCasts_S4096_S1x4096 : S4096.ShapeCasts S1x4096
  transposes_S1x4096_p1_0_S4096x1 : S1x4096.Transposes [1, 0] S4096x1
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  slices_S4096x1024_o0_0_S1024x1024 : S4096x1024.Slices ![0, 0] S1024x1024
  slices_S4096x1_o0_0_S1024x1 : S4096x1.Slices ![0, 0] S1024x1
  broadcasts_S1024x1_S1024x1024 : S1024x1.Broadcasts S1024x1024
  broadcasts_S1x1024_S1024x1024 : S1x1024.Broadcasts S1024x1024
  bitsLt_bf16_f32 : FTy.bits .bf16 < FTy.bits .f32
  inb_S4096x1024_S1024x1024_0_0 : ∀ a, (![0, 0] : Fin 2 → Nat) a + S1024x1024.size a ≤ S4096x1024.size a
  h_S1024x1024 : 0 < S1024x1024.numel
  shapeCasts_S1024x1024_S1024x1024 : S1024x1024.ShapeCasts S1024x1024
  packedbf16_S4096x1024_S1024x1024_0_0 : (Rect.unit (s := S4096x1024) ![0, 0] S1024x1024.size inb_S4096x1024_S1024x1024_0_0).PackedRows (EltTy.packing .bf16)
  inb_S4_S1_0 : ∀ a, (![0] : Fin 1 → Nat) a + S1.size a ≤ S4.size a
  wordsbf16_S4096x1024_S1024x1024_0_0 : (Rect.unit (s := S4096x1024) ![0, 0] S1024x1024.size inb_S4096x1024_S1024x1024_0_0).WholeWords (EltTy.packing .bf16)
  slices_S4096x1024_o1024_0_S1024x1024 : S4096x1024.Slices ![1024, 0] S1024x1024
  slices_S4096x1_o1024_0_S1024x1 : S4096x1.Slices ![1024, 0] S1024x1
  inb_S4096x1024_S1024x1024_1024_0 : ∀ a, (![1024, 0] : Fin 2 → Nat) a + S1024x1024.size a ≤ S4096x1024.size a
  packedbf16_S4096x1024_S1024x1024_1024_0 : (Rect.unit (s := S4096x1024) ![1024, 0] S1024x1024.size inb_S4096x1024_S1024x1024_1024_0).PackedRows (EltTy.packing .bf16)
  inb_S4_S1_1 : ∀ a, (![1] : Fin 1 → Nat) a + S1.size a ≤ S4.size a
  wordsbf16_S4096x1024_S1024x1024_1024_0 : (Rect.unit (s := S4096x1024) ![1024, 0] S1024x1024.size inb_S4096x1024_S1024x1024_1024_0).WholeWords (EltTy.packing .bf16)
  slices_S4096x1024_o2048_0_S1024x1024 : S4096x1024.Slices ![2048, 0] S1024x1024
  slices_S4096x1_o2048_0_S1024x1 : S4096x1.Slices ![2048, 0] S1024x1
  inb_S4096x1024_S1024x1024_2048_0 : ∀ a, (![2048, 0] : Fin 2 → Nat) a + S1024x1024.size a ≤ S4096x1024.size a
  packedbf16_S4096x1024_S1024x1024_2048_0 : (Rect.unit (s := S4096x1024) ![2048, 0] S1024x1024.size inb_S4096x1024_S1024x1024_2048_0).PackedRows (EltTy.packing .bf16)
  inb_S4_S1_2 : ∀ a, (![2] : Fin 1 → Nat) a + S1.size a ≤ S4.size a
  wordsbf16_S4096x1024_S1024x1024_2048_0 : (Rect.unit (s := S4096x1024) ![2048, 0] S1024x1024.size inb_S4096x1024_S1024x1024_2048_0).WholeWords (EltTy.packing .bf16)
  slices_S4096x1024_o3072_0_S1024x1024 : S4096x1024.Slices ![3072, 0] S1024x1024
  slices_S4096x1_o3072_0_S1024x1 : S4096x1.Slices ![3072, 0] S1024x1
  inb_S4096x1024_S1024x1024_3072_0 : ∀ a, (![3072, 0] : Fin 2 → Nat) a + S1024x1024.size a ≤ S4096x1024.size a
  packedbf16_S4096x1024_S1024x1024_3072_0 : (Rect.unit (s := S4096x1024) ![3072, 0] S1024x1024.size inb_S4096x1024_S1024x1024_3072_0).PackedRows (EltTy.packing .bf16)
  inb_S4_S1_3 : ∀ a, (![3] : Fin 1 → Nat) a + S1.size a ≤ S4.size a
  wordsbf16_S4096x1024_S1024x1024_3072_0 : (Rect.unit (s := S4096x1024) ![3072, 0] S1024x1024.size inb_S4096x1024_S1024x1024_3072_0).WholeWords (EltTy.packing .bf16)
  hcc0_scratch2 : 2 + S7.numel ≤ 20
  hcc0_scratch3 : 9 + S7.numel ≤ 20
  hcc0_scratch4 : 16 + S4.numel ≤ 20
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x4096.size a ≤ S8x4096.size a
  k0_off2_inb : ∀ d0 : Dev nD, ∀ a, (k0_off2 d0) a + S1x4096.size a ≤ S8x4096.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S7 := SemArray.consecutive 2 S7 hcc0_scratch2
abbrev cc0_scratch3 : DmaSems sig S7 := SemArray.consecutive 9 S7 hcc0_scratch3
abbrev cc0_scratch4 : DmaSems sig S4 := SemArray.consecutive 16 S4 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192 : Shape := ⟨1, ![8192]⟩
abbrev S_ : Shape := ⟨0, ![]⟩
abbrev S4096 : Shape := ⟨1, ![4096]⟩
abbrev S4096x1 : Shape := ⟨2, ![4096, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S4096x8192, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bitsLt_bf16_f32 : FTy.bits .bf16 < FTy.bits .f32

variable [Facts₀]

class Facts : Prop extends Facts₀ where

variable [Facts]
-- ==== Proof.Proto.lean ====
/-
  The cross-device protocol of the column-sharded RMS norm on eight devices, as the rounds discipline sees it.

  Every device c computes, for each of its 4096 rows, the sum of squares of its own 1024 columns (one row vector of
  4096 partial sums), stores it in row c of an 8 x 4096 gather buffer, and sends that row to row c of every other
  device's gather buffer. Before it sends, it signals each of the seven other devices once on the barrier
  semaphore and waits for seven units: a unit from device p tells c that p is inside the kernel, and hands c
  row c of p's gather buffer to write into. Copy number k of device c (k = 0..6) goes to device c + k + 1 (mod 8),
  on send semaphore k of c and receive semaphore k of the target. After the seven receive waits and seven send waits the
  gather buffer holds all eight rows of partial sums, the same on every device; the row sums over all 8192 columns
  are its column sums. The normalised block is written in four chunks of 1024 rows, each copied to the result array
  on its own semaphore, and the four copies are waited for at the end.

  Cells: per device one barrier cell (seven duties of one unit, duty j paid by device c + j + 1), seven send cells and
  seven receive cells (one duty each, the row's credit), four copy cells (one duty each, a chunk's credit).
-/
import proofs.«901005_g7700000000001006_dist_rmsnorm_colshard_i_m4096_n1024_v7x_i8_bf16_1_alg».proof.Proof.Gen.KernelIdeal
import proofs.«901005_g7700000000001006_dist_rmsnorm_colshard_i_m4096_n1024_v7x_i8_bf16_1_alg».proof.Proof.Gen.KernelIdeal.Skeleton
import proofs.«901005_g7700000000001006_dist_rmsnorm_colshard_i_m4096_n1024_v7x_i8_bf16_1_alg».proof.Proof.Gen.KernelIdeal.Launch
import proofs.«901005_g7700000000001006_dist_rmsnorm_colshard_i_m4096_n1024_v7x_i8_bf16_1_alg».proof.Proof.Gen.KernelIdeal.Points
import proofs.«901005_g7700000000001006_dist_rmsnorm_colshard_i_m4096_n1024_v7x_i8_bf16_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.Tactic
import Mathlib.Tactic.DeriveFintype

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties Unit) and the protocol's (duties Fin 7) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device c's k-th signal and k-th copy address: c + k + 1 modulo 8. -/
def peer (c : Dev nD) (k : Fin 7) : Dev nD := ⟨(c.val + k.val + 1) % 8, Nat.mod_lt _ (by decide)⟩

/-- Going k + 1 steps and then 7 - k steps is a full turn. -/
theorem peer_peer_rev (c : Dev nD) (k : Fin 7) : peer (peer c k) k.rev = c := by revert c k; decide
theorem peer_rev_peer (c : Dev nD) (k : Fin 7) : peer (peer c k.rev) k = c := by revert c k; decide
theorem peer_ne (c : Dev nD) (k : Fin 7) : peer c k ≠ c := by revert c k; decide
theorem peer_inj_right (c : Dev nD) : Function.Injective (peer c) := by revert c; decide

/-- For each k, c ↦ peer c k is a permutation of the devices. -/
def shift (k : Fin 7) : Dev nD ≃ Dev nD := ⟨fun c => peer c k, fun c => peer c k.rev, fun c => peer_peer_rev c k, fun c => peer_rev_peer c k⟩

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 0 := Fin.ext (k0_dev8_eq c)
theorem dev9_eq (c : Dev nD) : (⟨k0_dev9 c, k0_dev9_lt c⟩ : Dev nD) = peer c 1 := Fin.ext (k0_dev9_eq c)
theorem dev10_eq (c : Dev nD) : (⟨k0_dev10 c, k0_dev10_lt c⟩ : Dev nD) = peer c 2 := Fin.ext (k0_dev10_eq c)
theorem dev11_eq (c : Dev nD) : (⟨k0_dev11 c, k0_dev11_lt c⟩ : Dev nD) = peer c 3 := Fin.ext (k0_dev11_eq c)
theorem dev12_eq (c : Dev nD) : (⟨k0_dev12 c, k0_dev12_lt c⟩ : Dev nD) = peer c 4 := Fin.ext (k0_dev12_eq c)
theorem dev13_eq (c : Dev nD) : (⟨k0_dev13 c, k0_dev13_lt c⟩ : Dev nD) = peer c 5 := Fin.ext (k0_dev13_eq c)
theorem dev14_eq (c : Dev nD) : (⟨k0_dev14 c, k0_dev14_lt c⟩ : Dev nD) = peer c 6 := Fin.ext (k0_dev14_eq c)

/-! ## The buffers, as the body is called with them -/

abbrev xM : Memref sig .tc .vmem S4096x1024 .f32 := Memref.whole cc0_stg0_0
abbrev gM : Memref sig .tc .vmem S1024 .f32 := Memref.whole cc0_stg1_0
abbrev oM : Memref sig .tc .hbm S4096x1024 .bf16 := Memref.whole main_v1
abbrev vM : Memref sig .tc .vmem S4096x1024 .bf16 := Memref.whole cc0_scratch0
abbrev aM : Memref sig .tc .vmem S8x4096 .f32 := Memref.whole cc0_scratch1

/-- Row q of the gather buffer, as the kernel slices it (device q's own row: the source of its copies and, on a peer, their destination). -/
abbrev rowM (q : Dev nD) : Memref sig .tc .vmem S1x4096 .f32 :=
  aM.slice (Rect.unit (s := S8x4096) (k0_off2 q) S1x4096.size (k0_off2_inb q)) (fun _ => rfl)

/-! ## The semaphores and the cells -/

abbrev barS : Sem sig := (SemArray.scalar (sig.barrier 0 rfl) : Sems sig S_).sem
def sendS (k : Fin 7) : DmaSem sig := ⟨2 + k.val, by have := k.isLt; show 2 + k.val < 20; omega⟩
def recvS (k : Fin 7) : DmaSem sig := ⟨9 + k.val, by have := k.isLt; show 9 + k.val < 20; omega⟩
def cpS (i : Fin 4) : DmaSem sig := ⟨16 + i.val, by have := i.isLt; show 16 + i.val < 20; omega⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))
abbrev cpCell (c : Dev nD) (i : Fin 4) : GSem nD τ sig := ((c : Thread nD τ), .dma (cpS i))

/-- The kinds of cell a device has. -/
inductive CK where
  | bar : CK
  | send : Fin 7 → CK
  | recv : Fin 7 → CK
  | cp : Fin 4 → CK
  deriving DecidableEq, Fintype

def csem : CK → SemLoc sig
  | .bar => .reg barS
  | .send k => .dma (sendS k)
  | .recv k => .dma (recvS k)
  | .cp i => .dma (cpS i)

abbrev kcell (ck : Dev nD × CK) : GSem nD τ sig := ((ck.1 : Thread nD τ), csem ck.2)

/-- The program's spellings of the semaphores are these. -/
theorem send_sem_0 : ((cc0_scratch2.slice (Rect.unit (s := S7) ![0] S1.size inb_S7_S1_0)).squeeze S_ squeezes_S1_S_).sem = sendS 0 := rfl
theorem recv_sem_3 : ((cc0_scratch3.slice (Rect.unit (s := S7) ![3] S1.size inb_S7_S1_3)).squeeze S_ squeezes_S1_S_).sem = recvS 3 := rfl
theorem cp_sem_2 : ((cc0_scratch4.slice (Rect.unit (s := S4) ![2] S1.size inb_S4_S1_2)).squeeze S_ squeezes_S1_S_).sem = cpS 2 := rfl

/-- Chunk i (rows 1024 i to 1024 i + 1023) of the output's staging scratch, as the kernel slices it, -/
@[reducible] def vCh : Fin 4 → Memref sig .tc .vmem S1024x1024 .bf16
  | 0 => vM.slice (Rect.unit (s := S4096x1024) ![0, 0] S1024x1024.size inb_S4096x1024_S1024x1024_0_0) (fun _ => rfl)
  | 1 => vM.slice (Rect.unit (s := S4096x1024) ![1024, 0] S1024x1024.size inb_S4096x1024_S1024x1024_1024_0) (fun _ => rfl)
  | 2 => vM.slice (Rect.unit (s := S4096x1024) ![2048, 0] S1024x1024.size inb_S4096x1024_S1024x1024_2048_0) (fun _ => rfl)
  | 3 => vM.slice (Rect.unit (s := S4096x1024) ![3072, 0] S1024x1024.size inb_S4096x1024_S1024x1024_3072_0) (fun _ => rfl)
/-- and of the result array. -/
@[reducible] def oCh : Fin 4 → Memref sig .tc .hbm S1024x1024 .bf16
  | 0 => oM.slice (Rect.unit (s := S4096x1024) ![0, 0] S1024x1024.size inb_S4096x1024_S1024x1024_0_0) (fun _ => rfl)
  | 1 => oM.slice (Rect.unit (s := S4096x1024) ![1024, 0] S1024x1024.size inb_S4096x1024_S1024x1024_1024_0) (fun _ => rfl)
  | 2 => oM.slice (Rect.unit (s := S4096x1024) ![2048, 0] S1024x1024.size inb_S4096x1024_S1024x1024_2048_0) (fun _ => rfl)
  | 3 => oM.slice (Rect.unit (s := S4096x1024) ![3072, 0] S1024x1024.size inb_S4096x1024_S1024x1024_3072_0) (fun _ => rfl)

/-- The credit of one row of the gather buffer and of one chunk of the result. -/
abbrev Nrow : ℕ := (rowM (0 : Dev nD)).view.dmaCredit
abbrev Nch : ℕ := (oCh 0).view.dmaCredit
theorem Nrow_pos : 0 < Nrow := View.dmaCredit_pos _ (by decide)
theorem Nch_pos : 0 < Nch := View.dmaCredit_pos _ (by decide)
theorem amount_row (q : Dev nD) (s : DmaSem sig) : (rowM q).view.amount (.dma s) = Nrow := rfl
theorem amount_ch (i : Fin 4) (s : DmaSem sig) : (oCh i).view.amount (.dma s) = Nch := by fin_cases i <;> rfl

/-! ## Contents -/

/-- Device c's block of x and of gamma, as the staging buffers hold them at the one grid point. -/
def xstg (c : Dev nD) : (cc0_stg0_0 : Ref sig .tc).ty.Contents (Elt F) :=
  (win0_0.blk t0_0).view.read (Elt F) (m ((c : Thread nD τ).loc main_arg0))
def gstg (c : Dev nD) : (cc0_stg1_0 : Ref sig .tc).ty.Contents (Elt F) :=
  (win0_1.blk t0_0).view.read (Elt F) (m ((c : Thread nD τ).loc main_arg1))

/-- Device q's row of partial sums: for each of the 4096 rows, the sum of squares over q's 1024 columns. -/
def part (q : Dev nD) : FVec F S1x4096 .f32 := k0_pay2 (xstg m q)

/-- The gather buffer once every row has landed: row q is device q's partial sums. The same on every device. -/
def gath : (cc0_scratch1 : Ref sig .tc).ty.Contents (Elt F) :=
  fun i => part m (⟨(i 0).val, (i 0).isLt⟩ : Dev nD) (fun a => match a with | ⟨0, _⟩ => (⟨0, Nat.one_pos⟩ : Fin 1) | ⟨1, _⟩ => (⟨(i 1).val, (i 1).isLt⟩ : Fin 4096))

/-- The values the four chunk stores write, each a 1024 x 1024 block: x times the reciprocal root of the mean
    square plus epsilon, times gamma, rounded to bf16. -/
def chVal (c : Dev nD) : Fin 4 → FVec F S1024x1024 .bf16
  | 0 => k0_pay5 (k0_pay1 (xstg m c)) (gath m) (gstg m c)
  | 1 => k0_pay6 (k0_pay1 (xstg m c)) (gath m) (gstg m c)
  | 2 => k0_pay7 (k0_pay1 (xstg m c)) (k0_pay3 (gath m)) (k0_pay4 (gstg m c))
  | 3 => k0_pay8 (k0_pay1 (xstg m c)) (k0_pay3 (gath m)) (k0_pay4 (gstg m c))

/-- Device c's result block: chunk i holds chVal c i. -/
def outv (c : Dev nD) : (main_v1 : Ref sig .tc).ty.Contents (Elt F) :=
  fun i =>
    let r : ℕ := (i 0).val
    let j : Fin 1024 := ⟨(i 1).val, (i 1).isLt⟩
    let y (h : r / 1024 < 4) : S1024x1024.Idx := fun a => match a with | ⟨0, _⟩ => (⟨r % 1024, Nat.mod_lt _ (by decide)⟩ : Fin 1024) | ⟨1, _⟩ => j
    chVal m c ⟨r / 1024, by have : r < 4096 := (i 0).isLt; omega⟩ (y (by have : r < 4096 := (i 0).isLt; omega))

/-! ## The shares of a device's own row lent to its seven copies -/

abbrev shr (k : Fin 7) : PosShare TreeShare := Transfers.shareTok fullShare 7 k
abbrev keep : PosShare TreeShare := Transfers.shareDrop fullShare 7

/-! ## The schedule -/

/-- Which kind of cell a semaphore is, if it is one of the protocol's. -/
def kindOf : SemLoc sig → Option CK
  | .reg s => if s = barS then some .bar else none
  | .dma d =>
    if h1 : d.val < 2 then none
    else if h2 : d.val < 9 then some (.send ⟨d.val - 2, by omega⟩)
    else if h3 : d.val < 16 then some (.recv ⟨d.val - 9, by omega⟩)
    else some (.cp ⟨d.val - 16, by have : d.val < 20 := d.isLt; omega⟩)

theorem kindOf_csem (k : CK) : kindOf (csem k) = some k := by
  cases k with
  | bar => simp [kindOf, csem]
  | send k => revert k; decide
  | recv k => revert k; decide
  | cp i => revert i; decide

theorem csem_injective : Function.Injective (csem) := fun a b h => by
  have := congrArg kindOf h; rw [kindOf_csem, kindOf_csem] at this; exact Option.some.inj this

/-- What the signal of device peer c j (duty j of c's barrier cell) hands c: row c of that device's gather buffer, to
    write into, and that its receive cell j, which c's copy j credits, is at its first round. -/
def barPay (c : Dev nD) (j : Fin 7) : sProp 𝕄 :=
  iprop((∃ f, (rowM c).view.loc (peer c j : Thread nD τ) ↦[(rowM c).view.set]{fullShare} f) ∗ reached ER (recvCell (peer c j) j) 0)
/-- What the landing of copy k hands c: row peer c k.rev (the sender's) of its gather buffer, holding the sender's partial sums. -/
def recvPay (c : Dev nD) (k : Fin 7) : sProp 𝕄 :=
  (rowM (peer c k.rev)).view.loc (c : Thread nD τ) ↦[(rowM (peer c k.rev)).view.set]{fullShare} gath m
/-- What the departure of copy k hands back: the share of c's own row lent to it. -/
def sendPay (c : Dev nD) (k : Fin 7) : sProp 𝕄 :=
  (rowM c).view.loc (c : Thread nD τ) ↦[(rowM c).view.set]{shr k} gath m
/-- What the end of the local copy of chunk i hands back: the chunk of the result array, written, and the chunk of the scratch. -/
def cpPay (c : Dev nD) : Fin 4 → sProp 𝕄
  | 0 => iprop(((oCh 0).view.loc (c : Thread nD τ) ↦[(oCh 0).view.set]{fullShare} outv m c) ∗ ((vCh 0).view.loc (c : Thread nD τ) ↦[(vCh 0).view.set]{fullShare} outv m c))
  | 1 => iprop(((oCh 1).view.loc (c : Thread nD τ) ↦[(oCh 1).view.set]{fullShare} outv m c) ∗ ((vCh 1).view.loc (c : Thread nD τ) ↦[(vCh 1).view.set]{fullShare} outv m c))
  | 2 => iprop(((oCh 2).view.loc (c : Thread nD τ) ↦[(oCh 2).view.set]{fullShare} outv m c) ∗ ((vCh 2).view.loc (c : Thread nD τ) ↦[(vCh 2).view.set]{fullShare} outv m c))
  | 3 => iprop(((oCh 3).view.loc (c : Thread nD τ) ↦[(oCh 3).view.set]{fullShare} outv m c) ∗ ((vCh 3).view.loc (c : Thread nD τ) ↦[(vCh 3).view.set]{fullShare} outv m c))

/-- One round, round 0: a barrier cell has seven duties of one unit; a send, receive or copy cell one duty (named 0) of its
    buffer's credit. -/
def sched : Rounds.Schedule (GSem nD τ sig) (Fin 7) 𝕄 where
  duties g r := if r = 0 ∧ g.1.2 = .tc then (match kindOf g.2 with | some .bar => Finset.univ | some _ => {0} | none => ∅) else ∅
  unitless _ := False
  amount g _ _ := match kindOf g.2 with | some .bar => 1 | some (.cp _) => Nch | _ => Nrow
  payload g _ d := match kindOf g.2 with
    | some .bar => barPay g.1.1 d
    | some (.send k) => sendPay m g.1.1 k
    | some (.recv k) => recvPay m g.1.1 k
    | some (.cp i) => cpPay m g.1.1 i
    | none => iprop(emp)
  amount_pos g _ _ _ := by
    cases h : kindOf g.2 with
    | none => exact Nrow_pos
    | some k => cases k <;> first | exact Nat.one_pos | exact Nrow_pos | exact Nch_pos

instance sched_payload_storable (g : GSem nD τ sig) (r : ℕ) (d : Fin 7) :
    BI.Storable (upEmb : UEmb _ 𝕄) ((sched (F := F) m).payload g r d) := by
  show BI.Storable upEmb (match kindOf g.2 with
    | some .bar => barPay g.1.1 d
    | some (.send k) => sendPay m g.1.1 k
    | some (.recv k) => recvPay m g.1.1 k
    | some (.cp i) => cpPay m g.1.1 i
    | none => iprop(emp))
  cases kindOf g.2 with
  | none => infer_instance
  | some k =>
    cases k with
    | bar => dsimp only; unfold barPay; infer_instance
    | send k => dsimp only; unfold sendPay; infer_instance
    | recv k => dsimp only; unfold recvPay; infer_instance
    | cp i =>
      dsimp only
      match i with
      | 0 => simp only [cpPay]; infer_instance
      | 1 => simp only [cpPay]; infer_instance
      | 2 => simp only [cpPay]; infer_instance
      | 3 => simp only [cpPay]; infer_instance

/-! ### The schedule's tables -/

section Tables
variable (c : Dev nD)

theorem duties_cell (ck : CK) : (sched (F := F) m).duties (kcell (c, ck)) 0 = (match ck with | .bar => Finset.univ | _ => {0}) := by
  dsimp only [sched]; rw [if_pos ⟨rfl, rfl⟩, kindOf_csem]; cases ck <;> rfl
theorem duties_bar : (sched (F := F) m).duties (barCell c) 0 = Finset.univ := duties_cell m c .bar
theorem duties_send (k : Fin 7) : (sched (F := F) m).duties (sendCell c k) 0 = {0} := duties_cell m c (.send k)
theorem duties_recv (k : Fin 7) : (sched (F := F) m).duties (recvCell c k) 0 = {0} := duties_cell m c (.recv k)
theorem duties_cp (i : Fin 4) : (sched (F := F) m).duties (cpCell c i) 0 = {0} := duties_cell m c (.cp i)
theorem duties_later (g : GSem nD τ sig) : ∀ r, 1 ≤ r → (sched (F := F) m).duties g r = ∅ :=
  fun r hr => by dsimp only [sched]; rw [if_neg fun h => by omega]

theorem amount_bar (d : Fin 7) : (sched (F := F) m).amount (barCell c) 0 d = 1 := by
  show (match kindOf (csem .bar) with | some .bar => 1 | some (.cp _) => Nch | _ => Nrow) = 1; rw [kindOf_csem]
theorem amount_send (k : Fin 7) (d : Fin 7) : (sched (F := F) m).amount (sendCell c k) 0 d = Nrow := by
  show (match kindOf (csem (.send k)) with | some .bar => 1 | some (.cp _) => Nch | _ => Nrow) = Nrow; rw [kindOf_csem]
theorem amount_recv (k : Fin 7) (d : Fin 7) : (sched (F := F) m).amount (recvCell c k) 0 d = Nrow := by
  show (match kindOf (csem (.recv k)) with | some .bar => 1 | some (.cp _) => Nch | _ => Nrow) = Nrow; rw [kindOf_csem]
theorem amount_cp (i : Fin 4) (d : Fin 7) : (sched (F := F) m).amount (cpCell c i) 0 d = Nch := by
  show (match kindOf (csem (.cp i)) with | some .bar => 1 | some (.cp _) => Nch | _ => Nrow) = Nch; rw [kindOf_csem]

theorem expect_bar : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send (k : Fin 7) : (sched (F := F) m).expect (sendCell c k) 0 = Nrow := by
  unfold Schedule.expect Schedule.amountOf; rw [duties_send, Finset.sum_singleton, amount_send]
theorem expect_recv (k : Fin 7) : (sched (F := F) m).expect (recvCell c k) 0 = Nrow := by
  unfold Schedule.expect Schedule.amountOf; rw [duties_recv, Finset.sum_singleton, amount_recv]
theorem expect_cp (i : Fin 4) : (sched (F := F) m).expect (cpCell c i) 0 = Nch := by
  unfold Schedule.expect Schedule.amountOf; rw [duties_cp, Finset.sum_singleton, amount_cp]

theorem payload_bar (j : Fin 7) : (sched (F := F) m).payload (barCell c) 0 j = barPay c j := by
  show (match kindOf (csem .bar) with
    | some .bar => barPay c j | some (.send k) => sendPay m c k | some (.recv k) => recvPay m c k | some (.cp i) => cpPay m c i | none => iprop(emp)) = _
  rw [kindOf_csem]
theorem payload_send (k : Fin 7) (d : Fin 7) : (sched (F := F) m).payload (sendCell c k) 0 d = sendPay m c k := by
  show (match kindOf (csem (.send k)) with
    | some .bar => barPay c d | some (.send k) => sendPay m c k | some (.recv k) => recvPay m c k | some (.cp i) => cpPay m c i | none => iprop(emp)) = _
  rw [kindOf_csem]
theorem payload_recv (k : Fin 7) (d : Fin 7) : (sched (F := F) m).payload (recvCell c k) 0 d = recvPay m c k := by
  show (match kindOf (csem (.recv k)) with
    | some .bar => barPay c d | some (.send k) => sendPay m c k | some (.recv k) => recvPay m c k | some (.cp i) => cpPay m c i | none => iprop(emp)) = _
  rw [kindOf_csem]
theorem payload_cp (i : Fin 4) (d : Fin 7) : (sched (F := F) m).payload (cpCell c i) 0 d = cpPay m c i := by
  show (match kindOf (csem (.cp i)) with
    | some .bar => barPay c d | some (.send k) => sendPay m c k | some (.recv k) => recvPay m c k | some (.cp i) => cpPay m c i | none => iprop(emp)) = _
  rw [kindOf_csem]

/-- The whole of the barrier cell's round, no duty taken: the seven peers' payloads. -/
theorem rest_bar : bigSep ((sched (F := F) m).duties (barCell c) 0 \ ∅) (fun d => (sched (F := F) m).payload (barCell c) 0 d)
    = bigSep Finset.univ (fun j : Fin 7 => barPay (F := F) c j) := by
  rw [Finset.sdiff_empty, duties_bar]; exact bigSep_congr fun j _ => payload_bar m c j
theorem rest_send (k : Fin 7) : bigSep ((sched (F := F) m).duties (sendCell c k) 0 \ ∅) (fun d => (sched (F := F) m).payload (sendCell c k) 0 d) = sendPay m c k := by
  rw [Finset.sdiff_empty, duties_send, bigSep_singleton, payload_send]
theorem rest_recv (k : Fin 7) : bigSep ((sched (F := F) m).duties (recvCell c k) 0 \ ∅) (fun d => (sched (F := F) m).payload (recvCell c k) 0 d) = recvPay m c k := by
  rw [Finset.sdiff_empty, duties_recv, bigSep_singleton, payload_recv]
theorem rest_cp (i : Fin 4) : bigSep ((sched (F := F) m).duties (cpCell c i) 0 \ ∅) (fun d => (sched (F := F) m).payload (cpCell c i) 0 d) = cpPay m c i := by
  rw [Finset.sdiff_empty, duties_cp, bigSep_singleton, payload_cp]

end Tables

/-! ## What each device owes at launch; the levels -/

/-- One receive credit on the cell its copy k lands on; one unit on the barrier cell its signal k raises. -/
abbrev rT (c : Dev nD) (k : Fin 7) : CellTallies nD τ sig Unit := tallyAt (recvCell (peer c k) k) () Nrow
abbrev bT (c : Dev nD) (k : Fin 7) : CellTallies nD τ sig Unit := tallyAt (barCell (peer c k)) () 1

/-- What is still owed on receive cells before copy n is issued (copies n to 6), the next to go the last summand. -/
def R7 (c : Dev nD) : CellTallies nD τ sig Unit := 0
def R6 (c : Dev nD) : CellTallies nD τ sig Unit := R7 c + rT c 6
def R5 (c : Dev nD) : CellTallies nD τ sig Unit := R6 c + rT c 5
def R4 (c : Dev nD) : CellTallies nD τ sig Unit := R5 c + rT c 4
def R3 (c : Dev nD) : CellTallies nD τ sig Unit := R4 c + rT c 3
def R2 (c : Dev nD) : CellTallies nD τ sig Unit := R3 c + rT c 2
def R1 (c : Dev nD) : CellTallies nD τ sig Unit := R2 c + rT c 1
def R0 (c : Dev nD) : CellTallies nD τ sig Unit := R1 c + rT c 0
/-- What is owed before signal n is sent: every receive credit, and the barrier units n to 6. -/
def B6 (c : Dev nD) : CellTallies nD τ sig Unit := R0 c + bT c 6
def B5 (c : Dev nD) : CellTallies nD τ sig Unit := B6 c + bT c 5
def B4 (c : Dev nD) : CellTallies nD τ sig Unit := B5 c + bT c 4
def B3 (c : Dev nD) : CellTallies nD τ sig Unit := B4 c + bT c 3
def B2 (c : Dev nD) : CellTallies nD τ sig Unit := B3 c + bT c 2
def B1 (c : Dev nD) : CellTallies nD τ sig Unit := B2 c + bT c 1
/-- Everything a device owes at launch. -/
def O₀ (c : Dev nD) : CellTallies nD τ sig Unit := B1 c + bT c 0

def L (g : GSem nD τ sig) : Finset Unit := if g.1.2 = .tc then {()} else ∅
/-- Barrier cells at 1, receive cells at 2, everything else (staging, send, copy) at 0. -/
def lv (g : GSem nD τ sig) (_ : Unit) : ℕ := match kindOf g.2 with | some .bar => 1 | some (.recv _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by show (match kindOf (csem .bar) with | some .bar => 1 | some (.recv _) => 2 | _ => 0) = 1; rw [kindOf_csem]
theorem lv_recv (c : Dev nD) (k : Fin 7) (u : Unit) : lv (recvCell c k) u = 2 := by
  show (match kindOf (csem (.recv k)) with | some .bar => 1 | some (.recv _) => 2 | _ => 0) = 2; rw [kindOf_csem]

theorem R0_pos {c : Dev nD} {g : GSem nD τ sig} {u : Unit} (h : 0 < R0 c g u) : ∃ k, g = recvCell (peer c k) k := by
  unfold R0 R1 R2 R3 R4 R5 R6 R7 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact absurd h (Nat.lt_irrefl 0)
              · exact ⟨6, (Pipeline.tallyAt_pos h).1⟩
            · exact ⟨5, (Pipeline.tallyAt_pos h).1⟩
          · exact ⟨4, (Pipeline.tallyAt_pos h).1⟩
        · exact ⟨3, (Pipeline.tallyAt_pos h).1⟩
      · exact ⟨2, (Pipeline.tallyAt_pos h).1⟩
    · exact ⟨1, (Pipeline.tallyAt_pos h).1⟩
  · exact ⟨0, (Pipeline.tallyAt_pos h).1⟩

theorem O₀_pos {c : Dev nD} {g : GSem nD τ sig} {u : Unit} (h : 0 < O₀ c g u) :
    (∃ k, g = recvCell (peer c k) k) ∨ (∃ k, g = barCell (peer c k)) := by
  unfold O₀ B1 B2 B3 B4 B5 B6 at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact .inl (R0_pos h)
              · exact .inr ⟨6, (Pipeline.tallyAt_pos h).1⟩
            · exact .inr ⟨5, (Pipeline.tallyAt_pos h).1⟩
          · exact .inr ⟨4, (Pipeline.tallyAt_pos h).1⟩
        · exact .inr ⟨3, (Pipeline.tallyAt_pos h).1⟩
      · exact .inr ⟨2, (Pipeline.tallyAt_pos h).1⟩
    · exact .inr ⟨1, (Pipeline.tallyAt_pos h).1⟩
  · exact .inr ⟨0, (Pipeline.tallyAt_pos h).1⟩

/-- At its barrier wait a device owes only receive credits: receive cells lie above its barrier cell. -/
theorem mayWait_bar (c : Dev nD) :
    (levAts L lv : sProp 𝕄) ⊢ MayWait (c : Thread nD τ) (.reg barS) () (R0 c) :=
  Pipeline.mayWait_of_levAts (by rw [L_tc]; exact Finset.mem_singleton_self _) fun g i hg => by
    obtain ⟨k, rfl⟩ := R0_pos hg
    exact ⟨by rw [L_tc]; exact Finset.mem_singleton_self _, by rw [lv_bar, lv_recv]; decide⟩

/-! ## The ghost state a device's body starts from -/

/-- Every cell's invariant under the name the launch allocated it at, and that every cell is at its first round: persistent, the
    same for every device. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) : records m K ⊢ cellInv ER (sched m) (K ck) (kcell ck) := by
  unfold records
  exact sep_elim_left.trans (bigSep_elim (Φ := fun ck : Dev nD × CK => (cellInv ER (sched m) (K ck) (kcell ck) : sProp 𝕄)) (Finset.mem_univ ck))
theorem reached_at (K : Dev nD × CK → ℕ) (ck : Dev nD × CK) : records m K ⊢ reached ER (kcell ck) 0 := by
  unfold records
  exact sep_elim_right.trans (bigSep_elim (Φ := fun ck : Dev nD × CK => (reached ER (kcell ck) 0 : sProp 𝕄)) (Finset.mem_univ ck))

/-- A device's positions in its nineteen cells, -/
def positions (c : Dev nD) : sProp 𝕄 := bigSep Finset.univ fun k : CK => atPos ER (kcell (c, k)) 0 ∅ 0
/-- and the tokens of the duties IT pays: duty k.rev of the barrier cell of peer c k, the duty of receive cell k of peer c k, the duties
    of its own send and copy cells. -/
def payToks (c : Dev nD) : sProp 𝕄 :=
  iprop((bigSep Finset.univ fun k : Fin 7 => dutyTok ER (barCell (peer c k)) 0 k.rev)
    ∗ (bigSep Finset.univ fun k : Fin 7 => dutyTok ER (recvCell (peer c k) k) 0 0)
    ∗ (bigSep Finset.univ fun k : Fin 7 => dutyTok ER (sendCell c k) 0 0)
    ∗ (bigSep Finset.univ fun i : Fin 4 => dutyTok ER (cpCell c i) 0 0))

def ghost (K : Dev nD × CK → ℕ) (c : Dev nD) : sProp 𝕄 := iprop(records m K ∗ positions c ∗ payToks c)

/-- The credit the launch deals a device: seven units on its barrier cell, a row's credit on each of its receive cells. -/
def creds (c : Dev nD) : sProp 𝕄 :=
  iprop(cred (tallyAt (barCell c) () 7) ∗ bigSep Finset.univ fun k : Fin 7 => cred (tallyAt (recvCell c k) () Nrow))

def start (c : Dev nD) : sProp 𝕄 := iprop((∃ K, ghost m K c) ∗ creds c ∗ levAts L lv)

/-- The kernel's own (scoped) semaphores, as the launch theorem indexes them: the eighteen DMA semaphores after the two staging ones. -/
abbrev osem : Fin 18 → SemLoc sig := fun j => .dma ⟨2 + j.val, by have := j.isLt; show 2 + j.val < 20; omega⟩

abbrev vPts (c : Dev nD) (f : Buf (Elt F) ((c : Thread nD τ).loc cc0_scratch0)) : sProp 𝕄 := ((c : Thread nD τ).loc cc0_scratch0) ↦{fullShare} f
abbrev aPts (c : Dev nD) (f : Buf (Elt F) ((c : Thread nD τ).loc cc0_scratch1)) : sProp 𝕄 := ((c : Thread nD τ).loc cc0_scratch1) ↦{fullShare} f
abbrev oPts (c : Dev nD) (f : Buf (Elt F) ((c : Thread nD τ).loc main_v1)) : sProp 𝕄 := ((c : Thread nD τ).loc main_v1) ↦{fullShare} f

/-- Before the body: the ghost state, the two scratch buffers at some contents, the result array as launched. -/
def Φ₀ (c : Dev nD) : sProp 𝕄 :=
  iprop(start m c ∗ (∃ f, vPts c f) ∗ (∃ f, aPts c f) ∗ oPts c (m ((c : Thread nD τ).loc main_v1)))
/-- After it: the scratch buffers, the result array holding the device's block, the kernel's own semaphores at zero. -/
def Φ₁ (c : Dev nD) : sProp 𝕄 :=
  iprop((∃ f, vPts c f) ∗ (∃ f, aPts c f) ∗ oPts c (outv m c) ∗ Pipeline.ownSems0 osem c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.SpecDefs.lean ====
/-
  The two formulas of the column-sharded RMS norm, over the extended reals.
  The reference, over the whole 4096 x 8192 array X and the whole 8192-vector gamma:
      out (r, k) = (gamma k * X r k) / sqrt ((sum over all 8192 columns k' of X r k' ^ 2) / 8192 + eps).
  The kernel, on device c, over the eight devices' 4096 x 1024 blocks and its own block of gamma:
      out (r, j) = x_c r j * rsqrt ((sum over the devices q, sum over q's 1024 columns j' of x_q r j' ^ 2) / 8192 + eps) * gamma_c j.
  eps and 8192 are the same two binary32 words in both programs.
-/
import Idealize.ShloMosaic.PureOps.Ideal
import Mathlib.Algebra.BigOperators.Fin

noncomputable section

namespace Cert.Spec

open Idealize.ShloMosaic

/-- The epsilon both programs add (the binary32 nearest 1e-5) and the divisor 8192, as extended reals. -/
def eps : EReal := Ideal.ofBits .f32 0x3727C5AC#32
def nn : EReal := Ideal.ofBits .f32 0x46000000#32

/-- The reference's result at row r, column k. -/
def Gref (X : Fin 4096 → Fin 8192 → EReal) (Γ : Fin 8192 → EReal) (r : Fin 4096) (k : Fin 8192) : EReal :=
  Ideal.div (Γ k * X r k) (Ideal.sqrt (Ideal.div (∑ k' : Fin 8192, X r k' * X r k') nn + eps))

/-- The kernel's result on device c at row r, local column j, from the eight devices' blocks. -/
def Gker (xs : Fin 8 → Fin 4096 → Fin 1024 → EReal) (γ : Fin 1024 → EReal) (c : Fin 8) (r : Fin 4096) (j : Fin 1024) : EReal :=
  xs c r j * Ideal.rsqrt (Ideal.div (∑ q : Fin 8, ∑ j' : Fin 1024, xs q r j' * xs q r j') nn + eps) * γ j

/-- Column j of block q is column 1024 q + j of the whole array. -/
def col (q : Fin 8) (j : Fin 1024) : Fin 8192 := ⟨q.val * 1024 + j.val, by have := q.isLt; have := j.isLt; omega⟩

end Cert.Spec

end
-- ==== Proof.SpecAlg.lean ====
/-
  The kernel's formula of the column-sharded RMS norm equals the reference's, over the extended reals, when every
  entry of X and gamma is a real.
  (i) Column j of block q is column 1024 q + j of the whole array, and (q, j) ↦ 1024 q + j is a bijection of
      Fin 8 × Fin 1024 onto Fin 8192: the double sum over devices and local columns is the sum over all columns
      (addition of extended reals is commutative and associative; nothing finite is needed here).
  (ii) The divisor word is the real 8192 and the epsilon word the positive real 10995116 · 2⁻⁴⁰. With real entries the
      sum of squares s is a real ≥ 0, so y = s / 8192 + eps is a positive real, rsqrt y = (√y)⁻¹, sqrt y = √y ≠ 0, and
      x · (√y)⁻¹ · g = (g · x) · (1 / √y) in the reals.
-/
import proofs.«901005_g7700000000001006_dist_rmsnorm_colshard_i_m4096_n1024_v7x_i8_bf16_1_alg».proof.Proof.SpecDefs
import Mathlib.Algebra.BigOperators.Fin
import Mathlib.Algebra.BigOperators.Ring.Finset
import Mathlib.Algebra.Order.BigOperators.Group.Finset
import Mathlib.Logic.Equiv.Fin.Basic
import Mathlib.Data.EReal.Operations
import Mathlib.Analysis.Real.Sqrt
import Mathlib.Tactic.Positivity
import Mathlib.Tactic.Ring
import Mathlib.Tactic.NormNum

noncomputable section

namespace Cert.Spec

open Idealize.ShloMosaic

/-- The divisor word 0x46000000 is the real 8192 = 2²³ · 2^(140 − 127 − 23). -/
theorem nn_eq : nn = ((8192 : ℝ) : EReal) := by
  unfold nn
  simp [Ideal.ofBits, Ideal.ieee, -EReal.coe_mul]; norm_num

/-- The epsilon word 0x3727C5AC is the real (2²³ + 2606508) · 2^(110 − 127 − 23) = 10995116 · 2⁻⁴⁰. -/
theorem eps_eq : eps = ((10995116 * (2 : ℝ) ^ (-40 : ℤ) : ℝ) : EReal) := by
  unfold eps
  simp [Ideal.ofBits, Ideal.ieee, -EReal.coe_mul]

/-- The sum over the eight blocks of the sum over a block's 1024 columns is the sum over all 8192 columns:
    (q, j) ↦ 1024 q + j is the bijection Fin 8 × Fin 1024 ≃ Fin 8192. -/
theorem sum_col {M : Type} [AddCommMonoid M] (f : Fin 8192 → M) :
    ∑ q : Fin 8, ∑ j : Fin 1024, f (col q j) = ∑ k : Fin 8192, f k := by
  rw [← Fintype.sum_prod_type']
  exact Fintype.sum_equiv (finProdFinEquiv (m := 8) (n := 1024)) _ _ (fun ⟨q, j⟩ => by
    exact congrArg f (Fin.ext (by show q.val * 1024 + j.val = j.val + 1024 * q.val; omega)))

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real inputs, device c's result at local column j is the reference's result at column 1024 c + j. -/
theorem Gker_eq_Gref (X : Fin 4096 → Fin 8192 → EReal) (Γ : Fin 8192 → EReal)
    (hX : ∀ r k, ∃ x : ℝ, X r k = (x : EReal)) (hΓ : ∀ k, ∃ g : ℝ, Γ k = (g : EReal))
    (c : Fin 8) (r : Fin 4096) (j : Fin 1024) :
    Cert.Spec.Gker (fun q r' j' => X r' (Cert.Spec.col q j')) (fun j' => Γ (Cert.Spec.col c j')) c r j
      = Cert.Spec.Gref X Γ r (Cert.Spec.col c j) := by
  choose x hx using hX
  choose g hg using hΓ
  -- the sum of squares is the real sum of squares, and that is not negative
  have hs : ∑ k' : Fin 8192, X r k' * X r k' = ((∑ k' : Fin 8192, x r k' * x r k' : ℝ) : EReal) := by
    rw [coe_sum]; exact Finset.sum_congr rfl fun k _ => by rw [hx, EReal.coe_mul]
  have hs0 : 0 ≤ ∑ k' : Fin 8192, x r k' * x r k' := Finset.sum_nonneg fun k _ => mul_self_nonneg _
  show X r (col c j) * Ideal.rsqrt (Ideal.div (∑ q : Fin 8, ∑ j' : Fin 1024, X r (col q j') * X r (col q j')) nn + eps) * Γ (col c j)
     = Ideal.div (Γ (col c j) * X r (col c j)) (Ideal.sqrt (Ideal.div (∑ k' : Fin 8192, X r k' * X r k') nn + eps))
  rw [sum_col (fun k => X r k * X r k), hs, nn_eq, eps_eq, hx r (col c j), hg (col c j),
    Ideal.div_coe (by norm_num : (8192 : ℝ) ≠ 0), ← EReal.coe_mul, ← EReal.coe_add]
  -- y = s / 8192 + eps is a positive real
  generalize hy : (∑ k' : Fin 8192, x r k' * x r k') * (1 / 8192) + 10995116 * (2 : ℝ) ^ (-40 : ℤ) = y
  have hy0 : 0 < y := by
    rw [← hy]; positivity
  have hq : Real.sqrt y ≠ 0 := (Real.sqrt_pos.mpr hy0).ne'
  rw [Ideal.rsqrt_coe, if_neg (not_lt.mpr hy0.le), if_neg hy0.ne', Ideal.sqrt_coe, if_neg (not_lt.mpr hy0.le),
    Ideal.div_coe hq, ← EReal.coe_mul, ← EReal.coe_mul, ← EReal.coe_mul, ← EReal.coe_mul]
  congr 1
  rw [one_div]; ring

end Cert.Spec

end

/-- info: 'Cert.Spec.Gker_eq_Gref' depends on axioms: [propext, Classical.choice, Quot.sound] -/
#guard_msgs in #print axioms Cert.Spec.Gker_eq_Gref
-- ==== Proof.RefSpec.lean ====
/-
  The reference program's result, read at row r and column k, is the reference formula of the RMS norm:
      (gamma k * X r k) / sqrt ((0 + sum over the 8192 columns k' of X r k' * X r k') / 8192 + eps),
  the zero being the reduction's initial value. Each host operation is read at an index by its own lemma of the
  generated reading of the reference; the index functions of the broadcasts and of the row reduction compose to
  (r, k') and to k; at the extended reals the change of format is the identity, the host quotient the ideal division
  and the host square root the ideal square root. The divisor and the epsilon stay the same two binary32 words on both sides.
-/
import proofs.«901005_g7700000000001006_dist_rmsnorm_colshard_i_m4096_n1024_v7x_i8_bf16_1_alg».proof.Proof.SpecDefs
import proofs.«901005_g7700000000001006_dist_rmsnorm_colshard_i_m4096_n1024_v7x_i8_bf16_1_alg».proof.Proof.Gen.ReferenceIdeal.Read
import Idealize.ShloMosaic.Lib.ValueIdx

noncomputable section

namespace Cert.RefSpec

open Cert.ReferenceIdeal Cert.ReferenceIdeal.Read Idealize.ShloMosaic

/-- The row reduction's operand index under the two broadcasts of the denominator is (r, k'). -/
theorem idx_den (r : Fin 4096) (k : Fin 8192) (k' : Fin 8192) :
    idx_main_v1 (idx_main_v2 (idx_main_v11 (ValueIdx.ix2 r k))) k' = ValueIdx.ix2 r k' :=
  funext fun a => Fin.ext (by match a with | ⟨0, _⟩ => rfl | ⟨1, _⟩ => rfl)

/-- The index of gamma under its two broadcasts is k. -/
theorem idx_gam (r : Fin 4096) (k : Fin 8192) :
    idx_main_v8 (idx_main_v9 (ValueIdx.ix2 r k)) = ValueIdx.ix1 k :=
  funext fun a => Fin.ext (by match a with | ⟨0, _⟩ => rfl)

theorem ref_apply (X : (⟨S4096x8192, .f32⟩ : BufTy).Contents (Elt Ideal)) (Γ : (⟨S8192, .f32⟩ : BufTy).Contents (Elt Ideal)) (r : Fin 4096) (k : Fin 8192) :
    Cert.ReferenceIdeal.Read.val_main_v13 (F := Ideal) X Γ (ValueIdx.ix2 r k)
      = Cert.Spec.Gref (fun r' k' => X (ValueIdx.ix2 r' k')) (fun k' => Γ (ValueIdx.ix1 k')) r k := by
  rw [val_main_v13_apply, val_main_v12_apply, val_main_v10_apply, val_main_v9_apply, val_main_v8_apply,
    val_main_v11_apply, val_main_v7_apply, val_main_v6_apply, val_main_v4_apply, val_main_v2_apply,
    val_main_v1_apply, val_main_v3_apply, val_main_v5_apply, val_main_cst_apply, val_main_cst_0_apply,
    val_main_cst_1_apply, idx_gam]
  simp only [val_main_v0_apply, idx_den]
  simp only [Ideal.truncf_def, Ideal.hostDivf_def, Ideal.mulf_def, Ideal.addf_def, Ideal.hostUnary_sqrt_def,
    Ideal.ofBits_def, Ideal.ofBits_zero_f32, zero_add]
  rfl

end Cert.RefSpec

end

/-- info: 'Cert.RefSpec.ref_apply' depends on axioms: [propext, Classical.choice, Quot.sound] -/
#guard_msgs in #print axioms Cert.RefSpec.ref_apply
-- ==== Proof.KerSpec.lean ====
/-
  The kernel's result block, index by index, at the ideal instance: on device c, row r, local column j it is
  x_c r j * rsqrt ((sum over the eight devices q of the sum over q's 1024 columns of x_q r j' ^ 2) / 8192 + eps) * gamma_c j;
  and that the precondition makes every entry of every device's blocks a real number.
-/
import proofs.«901005_g7700000000001006_dist_rmsnorm_colshard_i_m4096_n1024_v7x_i8_bf16_1_alg».proof.Defs
import proofs.«901005_g7700000000001006_dist_rmsnorm_colshard_i_m4096_n1024_v7x_i8_bf16_1_alg».proof.Proof.Gen.Pre_finite_inputs_Kernel
import proofs.«901005_g7700000000001006_dist_rmsnorm_colshard_i_m4096_n1024_v7x_i8_bf16_1_alg».proof.Proof.Proto
import proofs.«901005_g7700000000001006_dist_rmsnorm_colshard_i_m4096_n1024_v7x_i8_bf16_1_alg».proof.Proof.SpecDefs
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate
import Idealize.ShloMosaic.PureOps.Ideal.Laws

noncomputable section

namespace Cert.KerSpec

open Cert.KernelIdeal Cert.KernelIdeal.Gen Cert.KernelIdeal.Proto
open Idealize.ShloMosaic Idealize.ShloMosaic.TcCoe Idealize.SL.Sem

variable (m : (ℓ : Loc nD τ sig) → Buf (Elt Ideal) ℓ)

/-- Device q's block of x and device c's block of gamma, by coordinates. -/
abbrev xs (q : Dev nD) (r : Fin 4096) (j : Fin 1024) : EReal := m ((q : Thread nD τ).loc main_arg0) (ValueIdx.ix2 r j)
abbrev gs (c : Dev nD) (j : Fin 1024) : EReal := m ((c : Thread nD τ).loc main_arg1) (ValueIdx.ix1 j)

/-! ## Layout operations at coordinates -/

open Idealize.ShloMosaic.ValueIdx

section Layout
variable {α : Type}

/-- A vector of length a cast to an a x 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a x 1 column broadcast to a x b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row r with column k put back on the summed axis 1 is (r, k). -/
theorem lift_axis1 {a b : ℕ} (h : (⟨2, ![a, b]⟩ : Shape).Reduces [1] ⟨1, ![a]⟩) (r : Fin a) (k : Fin b) :
    h.lift (ix1 r) k = ix2 r k := by
  funext d; apply Fin.ext
  match d with
  | ⟨0, _⟩ => rfl
  | ⟨1, _⟩ => rfl

/-- The index over column r with row q put back on the summed axis 0 is (q, r). -/
theorem lift_axis0 {a b : ℕ} (h : (⟨2, ![a, b]⟩ : Shape).Reduces [0] ⟨1, ![b]⟩) (r : Fin b) (q : Fin a) :
    h.lift (ix1 r) q = ix2 q r := by
  funext d; apply Fin.ext
  match d with
  | ⟨0, _⟩ => rfl
  | ⟨1, _⟩ => rfl

end Layout

/-- The sum over the columns (axis 1) of an a x b array, from the zero word, at row r. -/
theorem sum_axis1 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) :=
  (Ideal.multiReduction_add_single src 0x00000000#32 h hφ hacc (ix1 r)).trans
    (Finset.sum_congr rfl fun k _ => congrArg src (lift_axis1 h r k))

/-- The sum over the rows (axis 0) of an a x b array, from the zero word, at column r. -/
theorem sum_axis0 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (r : Fin b) :
    multiReduction (F := Ideal) .add [0] ⟨1, ![b]⟩ src 0x00000000#32 h hφ hacc (ix1 r) = ∑ q : Fin a, src (ix2 q r) :=
  (Ideal.multiReduction_add_single src 0x00000000#32 h hφ hacc (ix1 r)).trans
    (Finset.sum_congr rfl fun q _ => congrArg src (lift_axis0 h r q))

/-! ## The payload terms at an index -/

theorem pay1_eq (x : Vec Ideal S4096x1024 .f32) : k0_pay1 x = x := by
  unfold k0_pay1; exact shapeCast_self _ _

/-- The row of partial sums: at column r, the sum over the 1024 columns j' of x r j' squared. -/
theorem pay2_apply (x : Vec Ideal S4096x1024 .f32) (r : Fin 4096) :
    k0_pay2 x (ix2 (0 : Fin 1) r) = ∑ j' : Fin 1024, x (ix2 r j') * x (ix2 r j') := by
  unfold k0_pay2
  rw [pay1_eq, shapeCast_self, transpose_ix2_apply, shapeCast_a_a1_apply]
  exact sum_axis1 _ _ _ _ r

/-- The column of scales: at row r, the reciprocal root of (the column sum of the gather buffer at r) / 8192 + eps. -/
theorem pay3_apply (A : Vec Ideal S8x4096 .f32) (r : Fin 4096) :
    k0_pay3 A (ix2 r (0 : Fin 1)) = Ideal.rsqrt (Ideal.div (∑ q : Fin 8, A (ix2 q r)) Cert.Spec.nn + Cert.Spec.eps) := by
  unfold k0_pay3
  show Ideal.rsqrt (Ideal.div (transpose S4096x1 [1, 0] _ _ (ix2 r (0 : Fin 1))) Cert.Spec.nn + Cert.Spec.eps) = _
  rw [transpose_ix2_apply, shapeCast_a_1a_apply]
  exact congrArg (fun s => Ideal.rsqrt (Ideal.div s Cert.Spec.nn + Cert.Spec.eps)) (sum_axis0 _ _ _ _ r)

/-- gamma as a row. -/
theorem pay4_apply (g : Vec Ideal S1024 .f32) (j : Fin 1024) : k0_pay4 g (ix2 (0 : Fin 1) j) = g (ix1 j) := by
  unfold k0_pay4
  rw [shapeCast_a_1a_apply, shapeCast_self]

/-- Chunk 0 of the result: local row r' is row k = 0 + r' of x and of the scales. -/
theorem pay5_apply (x : FVec Ideal S4096x1024 .f32) (A : Vec Ideal S8x4096 .f32) (g : Vec Ideal S1024 .f32)
    (r' : Fin 1024) (j : Fin 1024) (k : Fin 4096) (hk : k.val = 0 + r'.val) :
    k0_pay5 x A g (ix2 r' j) = x (ix2 k j) * k0_pay3 A (ix2 k (0 : Fin 1)) * k0_pay4 g (ix2 (0 : Fin 1) j) := by
  unfold k0_pay5
  rw [shapeCast_self, truncf_apply, mulf_apply, mulf_apply, slice2_axis0_apply 0 x _ r' j k hk, broadcastTo_a1_ab_apply,
    slice2_axis0_apply 0 (k0_pay3 A) _ r' (0 : Fin 1) k hk, broadcastTo_1b_ab_apply]

/-- Chunk 1: local row r' is row k = 1024 + r'. -/
theorem pay6_apply (x : FVec Ideal S4096x1024 .f32) (A : Vec Ideal S8x4096 .f32) (g : Vec Ideal S1024 .f32)
    (r' : Fin 1024) (j : Fin 1024) (k : Fin 4096) (hk : k.val = 1024 + r'.val) :
    k0_pay6 x A g (ix2 r' j) = x (ix2 k j) * k0_pay3 A (ix2 k (0 : Fin 1)) * k0_pay4 g (ix2 (0 : Fin 1) j) := by
  unfold k0_pay6
  rw [shapeCast_self, truncf_apply, mulf_apply, mulf_apply, slice2_axis0_apply 1024 x _ r' j k hk, broadcastTo_a1_ab_apply,
    slice2_axis0_apply 1024 (k0_pay3 A) _ r' (0 : Fin 1) k hk, broadcastTo_1b_ab_apply]

/-- Chunk 2: local row r' is row k = 2048 + r'. -/
theorem pay7_apply (x : FVec Ideal S4096x1024 .f32) (s : FVec Ideal S4096x1 .f32) (g' : FVec Ideal S1x1024 .f32)
    (r' : Fin 1024) (j : Fin 1024) (k : Fin 4096) (hk : k.val = 2048 + r'.val) :
    k0_pay7 x s g' (ix2 r' j) = x (ix2 k j) * s (ix2 k (0 : Fin 1)) * g' (ix2 (0 : Fin 1) j) := by
  unfold k0_pay7
  rw [shapeCast_self, truncf_apply, mulf_apply, mulf_apply, slice2_axis0_apply 2048 x _ r' j k hk, broadcastTo_a1_ab_apply,
    slice2_axis0_apply 2048 s _ r' (0 : Fin 1) k hk, broadcastTo_1b_ab_apply]

/-- Chunk 3: local row r' is row k = 3072 + r'. -/
theorem pay8_apply (x : FVec Ideal S4096x1024 .f32) (s : FVec Ideal S4096x1 .f32) (g' : FVec Ideal S1x1024 .f32)
    (r' : Fin 1024) (j : Fin 1024) (k : Fin 4096) (hk : k.val = 3072 + r'.val) :
    k0_pay8 x s g' (ix2 r' j) = x (ix2 k j) * s (ix2 k (0 : Fin 1)) * g' (ix2 (0 : Fin 1) j) := by
  unfold k0_pay8
  rw [shapeCast_self, truncf_apply, mulf_apply, mulf_apply, slice2_axis0_apply 3072 x _ r' j k hk, broadcastTo_a1_ab_apply,
    slice2_axis0_apply 3072 s _ r' (0 : Fin 1) k hk, broadcastTo_1b_ab_apply]

/-! ## The staged blocks and the gather buffer -/

/-- The staged block of x is the device's whole block of x: the window is the whole array at the one grid point. -/
theorem xstg_eq (c : Dev nD) : xstg (F := Ideal) m c = m ((c : Thread nD τ).loc main_arg0) :=
  Memref.read_access_unit_zero (Elt Ideal) main_arg0 (by funext a; fin_cases a <;> rfl) _ _

/-- The staged block of gamma is the device's whole block of gamma. -/
theorem gstg_eq (c : Dev nD) : gstg (F := Ideal) m c = m ((c : Thread nD τ).loc main_arg1) :=
  Memref.read_access_unit_zero (Elt Ideal) main_arg1 (by funext a; fin_cases a <;> rfl) _ _

/-- The gather buffer at (q, r) is device q's partial sum for row r: the sum over q's columns of x_q r j' squared. -/
theorem gath_apply (q : Fin 8) (r : Fin 4096) :
    gath (F := Ideal) m (ix2 q r) = ∑ j' : Fin 1024, xs m q r j' * xs m q r j' := by
  have e : gath (F := Ideal) m (ix2 q r) = part m q (ix2 (0 : Fin 1) r) := by
    unfold gath
    show part m q _ = part m q _
    refine congrArg (part m q) (funext fun a => ?_)
    match a with
    | ⟨0, _⟩ => rfl
    | ⟨1, _⟩ => rfl
  rw [e]
  unfold part
  rw [pay2_apply, xstg_eq]

/-! ## The result block -/

/-- Row k of x, times the scale of row k, times gamma, is the kernel's formula at row k. -/
theorem core (c : Dev nD) (k : Fin 4096) (j : Fin 1024) :
    k0_pay1 (xstg (F := Ideal) m c) (ix2 k j) * k0_pay3 (gath (F := Ideal) m) (ix2 k (0 : Fin 1)) * k0_pay4 (gstg (F := Ideal) m c) (ix2 (0 : Fin 1) j)
      = Cert.Spec.Gker (xs m) (gs m c) c k j := by
  rw [pay1_eq, pay3_apply, pay4_apply, xstg_eq, gstg_eq]
  unfold Cert.Spec.Gker
  have hs : @Finset.sum (Fin 8) EReal _ Finset.univ (fun q => gath (F := Ideal) m (ix2 q k))
      = ∑ q : Fin 8, ∑ j' : Fin 1024, xs m q k j' * xs m q k j' :=
    Finset.sum_congr rfl fun q _ => gath_apply m q k
  exact congrArg (fun s : EReal => xs m c k j * Ideal.rsqrt (Ideal.div s Cert.Spec.nn + Cert.Spec.eps) * gs m c j) hs

/-- Chunk i of the result at local row r' is the kernel's formula at row k = 1024 i + r'. -/
theorem chVal_apply (c : Dev nD) (i : Fin 4) (r' : Fin 1024) (j : Fin 1024) (k : Fin 4096) (hk : k.val = 1024 * i.val + r'.val) :
    chVal (F := Ideal) m c i (ix2 r' j) = Cert.Spec.Gker (xs m) (gs m c) c k j := by
  obtain ⟨i, hi⟩ := i
  match i, hi, hk with
  | 0, _, hk =>
    show k0_pay5 _ _ _ _ = _
    rw [pay5_apply _ _ _ r' j k (by simpa using hk)]; exact core m c k j
  | 1, _, hk =>
    show k0_pay6 _ _ _ _ = _
    rw [pay6_apply _ _ _ r' j k (by simpa using hk)]; exact core m c k j
  | 2, _, hk =>
    show k0_pay7 _ _ _ _ = _
    rw [pay7_apply _ _ _ r' j k (by simpa using hk)]; exact core m c k j
  | 3, _, hk =>
    show k0_pay8 _ _ _ _ = _
    rw [pay8_apply _ _ _ r' j k (by simpa using hk)]; exact core m c k j
  | n + 4, hi, _ => exact absurd hi (by omega)

private theorem chVal_congr (c : Dev nD) {i i' : Fin 4} {y y' : S1024x1024.Idx} (hi : i' = i) (hy : y' = y) :
    chVal (F := Ideal) m c i' y' = chVal m c i y := by subst hi; subst hy; rfl

/-- The result block at row r = 1024 i + r' is chunk i at local row r'. -/
theorem outv_chunk (c : Dev nD) (i : Fin 4) (r' : Fin 1024) (j : Fin 1024) (r : Fin 4096) (hr : r.val = 1024 * i.val + r'.val) :
    outv (F := Ideal) m c (ix2 r j) = chVal m c i (ix2 r' j) := by
  unfold outv
  refine chVal_congr m c (Fin.ext ?_) (funext fun a => Fin.ext ?_)
  · show r.val / 1024 = i.val
    have := r'.isLt; omega
  · match a with
    | ⟨0, _⟩ => show r.val % 1024 = r'.val; have := r'.isLt; omega
    | ⟨1, _⟩ => rfl

/-- The result block of device c, at row r and local column j, is the kernel's formula of the eight devices' blocks. -/
theorem outv_apply (c : Dev nD) (r : Fin 4096) (j : Fin 1024) :
    outv (F := Ideal) m c (ValueIdx.ix2 r j) = Cert.Spec.Gker (xs m) (gs m c) c r j := by
  have hr : r.val < 4096 := r.isLt
  have hi : r.val / 1024 < 4 := by omega
  have hr' : r.val % 1024 < 1024 := Nat.mod_lt _ (by decide)
  have e : r.val = 1024 * (⟨r.val / 1024, hi⟩ : Fin 4).val + (⟨r.val % 1024, hr'⟩ : Fin 1024).val := by
    show r.val = 1024 * (r.val / 1024) + r.val % 1024; omega
  rw [outv_chunk m c ⟨r.val / 1024, hi⟩ ⟨r.val % 1024, hr'⟩ j r e]
  exact chVal_apply m c _ _ j r e

/-! ## Finiteness -/

/-- The rank-0 shape has one index. -/
instance : Subsingleton Cert.Pre_finite_inputs_Kernel.S_.Idx := ⟨fun a b => funext fun d => d.elim0⟩

/-- The binary32 word with every exponent bit set and no fraction bit is plus infinity. -/
theorem inf_word : Ideal.ofBits .f32 0x7F800000#32 = (⊤ : EReal) := by simp [Ideal.ofBits, Ideal.ieee]

/-- An extended real whose absolute value compares below plus infinity is a real number. -/
theorem real_of_abs_lt (x : EReal) (h : Ideal.cmp .olt (max x (-x)) (Ideal.ofBits .f32 0x7F800000#32) = 1#1) :
    ∃ r : ℝ, x = (r : EReal) := by
  rw [inf_word] at h
  have h' : max x (-x) < ⊤ := by
    have := (StableHlo.Predicate.ofBool_eq_one_iff _).1 h
    simpa using this
  induction x using EReal.rec with
  | bot => simp at h'
  | coe r => exact ⟨r, rfl⟩
  | top => simp at h'

/-- Under the precondition every entry of every device's block of x and of gamma is a real number. -/
theorem finite_of_pre (hpre : Cert.Pre_KernelIdeal (hPre_finite_inputs_Kernel := Cert.Pre_finite_inputs_Kernel.Gen.facts) m) (c : Dev nD) :
    (∀ r j, ∃ x : ℝ, xs m c r j = (x : EReal)) ∧ (∀ j, ∃ g : ℝ, gs m c j = (g : EReal)) := by
  -- the conjunction of the two "all finite" reductions is one at the scalar's one index
  have h := congrFun (hpre c) ValueIdx.ix0
  dsimp only [Cert.Pre_finite_inputs_Kernel.fn] at h
  obtain ⟨h0, h1⟩ := IntOp.andi_eq_one.1 h
  refine ⟨fun r j => ?_, fun j => ?_⟩
  · exact real_of_abs_lt _ (Host.reduce_andi_all _ _ _ _ _ h0 (ValueIdx.ix2 r j))
  · exact real_of_abs_lt _ (Host.reduce_andi_all _ _ _ _ _ h1 (ValueIdx.ix1 j))

end Cert.KerSpec

end

/-- info: 'Cert.KerSpec.finite_of_pre' depends on axioms: [propext, Classical.choice, Quot.sound] -/
#guard_msgs in #print axioms Cert.KerSpec.finite_of_pre

/-- info: 'Cert.KerSpec.outv_apply' depends on axioms: [propext, Classical.choice, Quot.sound] -/
#guard_msgs in #print axioms Cert.KerSpec.outv_apply
-- ==== Proof.Bridge.lean ====
/-
  The kernel's result block on device c is block c of the reference's result.
  Each device's argument buffers are blocks of the reference's whole arrays X (4096 x 8192, cut along the columns into
  eight blocks of 1024) and gamma (8192, cut into eight blocks of 1024): local column j of block q is column
  1024 q + j of the whole. So device q's block of x at (r, j') is X r (1024 q + j'), device c's block of gamma at j is
  gamma (1024 c + j), and every column k of the whole arrays is local column k % 1024 of block k / 1024, whence every
  entry of X and gamma is a real number when every entry of every device's blocks is. The kernel's formula of the
  eight blocks is then the reference's formula of the whole arrays at column 1024 c + j, which is what the
  reference program's result reads there, and that is block c of the reference's result at (r, j).
-/
import proofs.«901005_g7700000000001006_dist_rmsnorm_colshard_i_m4096_n1024_v7x_i8_bf16_1_alg».proof.Defs
import proofs.«901005_g7700000000001006_dist_rmsnorm_colshard_i_m4096_n1024_v7x_i8_bf16_1_alg».proof.Proof.Gen.Pre_finite_inputs_Kernel
import proofs.«901005_g7700000000001006_dist_rmsnorm_colshard_i_m4096_n1024_v7x_i8_bf16_1_alg».proof.Proof.Proto
import proofs.«901005_g7700000000001006_dist_rmsnorm_colshard_i_m4096_n1024_v7x_i8_bf16_1_alg».proof.Proof.SpecDefs
import proofs.«901005_g7700000000001006_dist_rmsnorm_colshard_i_m4096_n1024_v7x_i8_bf16_1_alg».proof.Proof.SpecAlg
import proofs.«901005_g7700000000001006_dist_rmsnorm_colshard_i_m4096_n1024_v7x_i8_bf16_1_alg».proof.Proof.RefSpec
import proofs.«901005_g7700000000001006_dist_rmsnorm_colshard_i_m4096_n1024_v7x_i8_bf16_1_alg».proof.Proof.KerSpec
import Idealize.ShloMosaic.Lib.Layout
import Idealize.ShloMosaic.Lib.ValueIdx

noncomputable section

namespace Cert.Bridge

open Idealize.ShloMosaic Idealize.SL.Sem

/-- Local (row r, column j) of block c of a 4096 x 8192 array cut along the columns is (r, 1024 c + j) of the whole. -/
theorem idx2 (h : Layout.Tiles ⟨2, ![4096, 1024]⟩ ⟨2, ![4096, 8192]⟩ 1 8) (c : Fin 8) (r : Fin 4096) (j : Fin 1024) :
    h.idx c (ValueIdx.ix2 r j) = ValueIdx.ix2 r (Cert.Spec.col c j) :=
  funext fun b => Fin.ext (by match b with | ⟨0, _⟩ => rfl | ⟨1, _⟩ => rfl)

/-- Local index j of block c of an 8192-vector is index 1024 c + j of the whole. -/
theorem idx1 (h : Layout.Tiles ⟨1, ![1024]⟩ ⟨1, ![8192]⟩ 0 8) (c : Fin 8) (j : Fin 1024) :
    h.idx c (ValueIdx.ix1 j) = ValueIdx.ix1 (Cert.Spec.col c j) :=
  funext fun b => Fin.ext (by match b with | ⟨0, _⟩ => rfl)

/-- The block column k lies in, and its local column there. -/
def blk (k : Fin 8192) : Fin 8 := ⟨k.val / 1024, by have := k.isLt; omega⟩
def loc (k : Fin 8192) : Fin 1024 := ⟨k.val % 1024, Nat.mod_lt _ (by decide)⟩

/-- Every column k is local column k % 1024 of block k / 1024. -/
theorem col_blk_loc (k : Fin 8192) : Cert.Spec.col (blk k) (loc k) = k :=
  Fin.ext (by show k.val / 1024 * 1024 + k.val % 1024 = k.val; omega)

theorem outv_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs_Kernel := Cert.Pre_finite_inputs_Kernel.Gen.facts) m)
    (hagree : ∀ c : Dev Cert.KernelIdeal.nD,
      m ((c.tc : Thread Cert.KernelIdeal.nD Cert.KernelIdeal.τ).loc Cert.KernelIdeal.main_arg0) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1)))
    (c : Dev Cert.KernelIdeal.nD) :
    Cert.KernelIdeal.Proto.outv (F := Ideal) m c
      = Layout.block ⟨2, ![4096, 1024]⟩ ⟨2, ![4096, 8192]⟩ 1 8 c
          (Cert.ReferenceIdeal.Read.val_main_v13 (F := Ideal)
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  generalize hXd : m' (((0 : Dev Cert.ReferenceIdeal.nD).tc : Thread Cert.ReferenceIdeal.nD Cert.ReferenceIdeal.τ).loc Cert.ReferenceIdeal.main_arg0) = X at hagree ⊢
  generalize hΓd : m' (((0 : Dev Cert.ReferenceIdeal.nD).tc : Thread Cert.ReferenceIdeal.nD Cert.ReferenceIdeal.τ).loc Cert.ReferenceIdeal.main_arg1) = Γ at hagree ⊢
  -- every device's blocks, by coordinates, in the whole arrays
  have hxs : ∀ (q : Dev Cert.KernelIdeal.nD) (r' : Fin 4096) (j' : Fin 1024),
      Cert.KerSpec.xs m q r' j' = X (ValueIdx.ix2 r' (Cert.Spec.col q j')) := fun q r' j' => by
    show m ((q.tc : Thread Cert.KernelIdeal.nD Cert.KernelIdeal.τ).loc Cert.KernelIdeal.main_arg0) (ValueIdx.ix2 r' j') = _
    rw [(hagree q).1, Layout.block_apply, idx2]
  have hgs : ∀ (q : Dev Cert.KernelIdeal.nD) (j' : Fin 1024),
      Cert.KerSpec.gs m q j' = Γ (ValueIdx.ix1 (Cert.Spec.col q j')) := fun q j' => by
    show m ((q.tc : Thread Cert.KernelIdeal.nD Cert.KernelIdeal.τ).loc Cert.KernelIdeal.main_arg1) (ValueIdx.ix1 j') = _
    rw [(hagree q).2, Layout.block_apply, idx1]
  -- every entry of the whole arrays is a real number
  have hX : ∀ (r' : Fin 4096) (k : Fin 8192), ∃ x : ℝ, X (ValueIdx.ix2 r' k) = (x : EReal) := fun r' k => by
    obtain ⟨x, hx⟩ := (Cert.KerSpec.finite_of_pre m hpre (blk k)).1 r' (loc k)
    rw [hxs, col_blk_loc] at hx
    exact ⟨x, hx⟩
  have hΓ : ∀ k : Fin 8192, ∃ g : ℝ, Γ (ValueIdx.ix1 k) = (g : EReal) := fun k => by
    obtain ⟨g, hg⟩ := (Cert.KerSpec.finite_of_pre m hpre (blk k)).2 (loc k)
    rw [hgs, col_blk_loc] at hg
    exact ⟨g, hg⟩
  funext i
  obtain ⟨r, j, rfl⟩ : ∃ r j, i = ValueIdx.ix2 r j := ⟨i 0, i 1, ValueIdx.eq_ix2 i⟩
  rw [Cert.KerSpec.outv_apply, Layout.block_apply, idx2, Cert.RefSpec.ref_apply,
    show Cert.KerSpec.xs m = fun q r' j' => (fun r' k' => X (ValueIdx.ix2 r' k')) r' (Cert.Spec.col q j') from
      funext fun q => funext fun r' => funext fun j' => hxs q r' j',
    show Cert.KerSpec.gs m c = fun j' => (fun k' => Γ (ValueIdx.ix1 k')) (Cert.Spec.col c j') from
      funext fun j' => hgs c j']
  exact Cert.Spec.Gker_eq_Gref _ _ hX hΓ c r j

end Cert.Bridge

end

/-- info: 'Cert.Bridge.outv_eq_block' depends on axioms: [propext, Classical.choice, Quot.sound] -/
#guard_msgs in #print axioms Cert.Bridge.outv_eq_block
-- ==== Proof.Claims.lean ====
/-
  The certificate's conjuncts about the idealized kernel and the reference, from the two programs' runs.
  The reference's run ends with its result at the operations' composed term of its arguments and its arguments
  unchanged: dropping the result gives its frame. The kernel's run, taken here as a hypothesis, ends with every
  device's result block at the kernel's value and its arguments unchanged: dropping the result gives the kernel's
  frame, and since device c's value is block c of the reference's result of the whole arrays, pairing the two runs at
  that result gives the algebraic conjunct.
-/
import proofs.«901005_g7700000000001006_dist_rmsnorm_colshard_i_m4096_n1024_v7x_i8_bf16_1_alg».proof.Defs
import proofs.«901005_g7700000000001006_dist_rmsnorm_colshard_i_m4096_n1024_v7x_i8_bf16_1_alg».proof.Proof.Gen.Kernel
import proofs.«901005_g7700000000001006_dist_rmsnorm_colshard_i_m4096_n1024_v7x_i8_bf16_1_alg».proof.Proof.Gen.KernelIdeal
import proofs.«901005_g7700000000001006_dist_rmsnorm_colshard_i_m4096_n1024_v7x_i8_bf16_1_alg».proof.Proof.Gen.ReferenceIdeal
import proofs.«901005_g7700000000001006_dist_rmsnorm_colshard_i_m4096_n1024_v7x_i8_bf16_1_alg».proof.Proof.Gen.Pre_finite_inputs_Kernel
import proofs.«901005_g7700000000001006_dist_rmsnorm_colshard_i_m4096_n1024_v7x_i8_bf16_1_alg».proof.Proof.Gen.Pre_finite_inputs_ReferenceIdeal
import proofs.«901005_g7700000000001006_dist_rmsnorm_colshard_i_m4096_n1024_v7x_i8_bf16_1_alg».proof.Proof.Gen.ReferenceIdeal.Run
import proofs.«901005_g7700000000001006_dist_rmsnorm_colshard_i_m4096_n1024_v7x_i8_bf16_1_alg».proof.Proof.Gen.ReferenceIdeal.Read
import proofs.«901005_g7700000000001006_dist_rmsnorm_colshard_i_m4096_n1024_v7x_i8_bf16_1_alg».proof.Proof.Proto
import proofs.«901005_g7700000000001006_dist_rmsnorm_colshard_i_m4096_n1024_v7x_i8_bf16_1_alg».proof.Proof.Bridge

noncomputable section

namespace Cert.Claims

open Idealize.ShloMosaic Idealize.SL.Sem

/-- The reference runs and its arguments end unchanged: its run with the result dropped. -/
theorem frame_ri : Cert.frame_ReferenceIdeal (hReferenceIdeal := Cert.ReferenceIdeal.Gen.facts) (hPre_finite_inputs_ReferenceIdeal := Cert.Pre_finite_inputs_ReferenceIdeal.Gen.facts) := by
  intro m' ρ' _
  refine (θ_run Cert.ReferenceIdeal.defs _ _).mono ?_ (Cert.ReferenceIdeal.Value.run (F := Ideal) m' ρ')
  intro r h c
  exact (h c).2

/-- The idealized kernel runs and its arguments end unchanged, from its run: the result dropped. -/
theorem frame_pi_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Proto.outv (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.frame_KernelIdeal (hKernelIdeal := Cert.KernelIdeal.Gen.facts) (hPre_finite_inputs_Kernel := Cert.Pre_finite_inputs_Kernel.Gen.facts) := by
  intro m ρ _
  refine (θ_run Cert.KernelIdeal.defs _ _).mono ?_ (hrun m ρ)
  intro r h c
  exact (h c).2

/-- The two runs paired: the reference's result is the value v0, and device c's result block is block c of it. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v1) = Cert.KernelIdeal.Proto.outv (F := Ideal) m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' hpre hagree
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · -- the kernel's side: each device's value is its block of v0
    refine (θ_run Cert.KernelIdeal.defs _ _).mono ?_ (hrun m ρ)
    intro r h c
    exact ⟨(h c).1.trans (Cert.Bridge.outv_eq_block m m' hpre hagree c), (h c).2⟩
  · -- the reference's side: its run's composed term is v0
    refine (θ_run Cert.ReferenceIdeal.defs _ _).mono ?_ (Cert.ReferenceIdeal.Value.run (F := Ideal) m' ρ')
    intro r h
    exact ⟨(h 0).1.trans (Cert.ReferenceIdeal.Read.val_main_v13_eq _ _), (h 0).2⟩

/-- The word-level kernel runs and its arguments end unchanged, from its run: whatever the run says of the result
    (the first conjunct P of its post) is dropped. -/
theorem frame_p_of
    {P : ((ℓ : Loc Cert.Kernel.nD Cert.Kernel.τ Cert.Kernel.sig) → Buf (Elt Bits) ℓ) →
      PUnit × MemSt Cert.Kernel.nD Cert.Kernel.τ Cert.Kernel.sig (Elt Bits) → Dev Cert.Kernel.nD → Prop}
    (hrun : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩ (fun r => ∀ c : Dev Cert.Kernel.nD,
        P m r c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))) :
    Cert.frame_Kernel (hKernel := Cert.Kernel.Gen.facts) (hPre_finite_inputs_Kernel := Cert.Pre_finite_inputs_Kernel.Gen.facts) := by
  intro m ρ _
  refine (θ_run Cert.Kernel.defs _ _).mono ?_ (hrun m ρ)
  intro r h c
  exact (h c).2

/-- The idealization rewrote no operation: nothing to preserve. -/
theorem preserves : Cert.preserves_Kernel_KernelIdeal := trivial

end Cert.Claims

end

/-- info: 'Cert.Claims.algebraic_of' depends on axioms: [propext, Classical.choice, Quot.sound] -/
#guard_msgs in #print axioms Cert.Claims.algebraic_of
-- ==== Proof.BodyDefs.lean ====
/-
  What one device's body is proved against, cut in two at the point where the gather buffer is complete:
  the state the second half starts from (the gathered buffer whole, the send and receive semaphores back at zero,
  the copy cells untouched), the second half's program (the normalisation, the four chunk stores and copies, their waits),
  and what the whole body leaves.
-/
import proofs.«901005_g7700000000001006_dist_rmsnorm_colshard_i_m4096_n1024_v7x_i8_bf16_1_alg».proof.Proof.Proto

noncomputable section

namespace Cert.KernelIdeal.BodyDefs

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer held whole at named contents, as the pipeline hands it to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The second half of the body, as a program of the block of x (already loaded) and of the gathered buffer (just loaded):
    statements 421 to 568 of the printed body. -/
def prog2 (arg0 : Memref sig .tc .vmem S4096x1024 .f32) (harg0 : arg0.IsWhole) (arg1 : Memref sig .tc .vmem S1024 .f32) (harg1 : arg1.IsWhole) (arg2 : Memref sig .tc .hbm S4096x1024 .bf16) (harg2 : arg2.IsWhole) (arg3 : Memref sig .tc .vmem S4096x1024 .bf16) (harg3 : arg3.IsWhole) (arg4 : Memref sig .tc .vmem S8x4096 .f32) (harg4 : arg4.IsWhole) (arg5 : DmaSems sig S7) (arg6 : DmaSems sig S7) (arg7 : DmaSems sig S4)
    (v33 : FVec F S4096x1024 .f32) (v196 : Vec F S8x4096 .f32) : Prog (TpuEff nD τ sig (Elt F) Λ₀ .tc) PUnit := do
  let ⟨v204, v207⟩ : Σ' (v204 : FVec F S4096x1 .f32), FVec F S1x1024 .f32 ← k0_part8 arg0 harg0 arg1 harg1 arg2 harg2 arg3 harg3 arg4 harg4 arg5 arg6 arg7 v33 v196
  k0_part9 arg0 harg0 arg1 harg1 arg2 harg2 arg3 harg3 arg4 harg4 arg5 arg6 arg7 v33 v204 v207
  let v270 : Memref sig .tc .hbm S1024x1024 .bf16 := arg2.slice (Rect.unit (s := S4096x1024) ![1024, 0] S1024x1024.size inb_S4096x1024_S1024x1024_1024_0) (fun _ => rfl)
  let v271 : Memref sig .tc .vmem S1024x1024 .bf16 := arg3.slice (Rect.unit (s := S4096x1024) ![1024, 0] S1024x1024.size inb_S4096x1024_S1024x1024_1024_0) (fun _ => rfl)
  let v268 : DmaSems sig S1 := arg7.slice (Rect.unit (s := S4) ![1] S1.size inb_S4_S1_1)
  let v269 : DmaSems sig S_ := v268.squeeze S_ squeezes_S1_S_
  Prog.lift (.waitDma2 v269.sem v271 v270 (harg3.wordExact_slice rfl _ wordsbf16_S4096x1024_S1024x1024_1024_0) (harg2.wordExact_slice rfl _ wordsbf16_S4096x1024_S1024x1024_1024_0))
  let v272 : DmaSems sig S1 := arg7.slice (Rect.unit (s := S4) ![2] S1.size inb_S4_S1_2)
  let v273 : DmaSems sig S_ := v272.squeeze S_ squeezes_S1_S_
  let v274 : Memref sig .tc .hbm S1024x1024 .bf16 := arg2.slice (Rect.unit (s := S4096x1024) ![2048, 0] S1024x1024.size inb_S4096x1024_S1024x1024_2048_0) (fun _ => rfl)
  let v275 : Memref sig .tc .vmem S1024x1024 .bf16 := arg3.slice (Rect.unit (s := S4096x1024) ![2048, 0] S1024x1024.size inb_S4096x1024_S1024x1024_2048_0) (fun _ => rfl)
  Prog.lift (.waitDma2 v273.sem v275 v274 (harg3.wordExact_slice rfl _ wordsbf16_S4096x1024_S1024x1024_2048_0) (harg2.wordExact_slice rfl _ wordsbf16_S4096x1024_S1024x1024_2048_0))
  let v276 : DmaSems sig S1 := arg7.slice (Rect.unit (s := S4) ![3] S1.size inb_S4_S1_3)
  let v277 : DmaSems sig S_ := v276.squeeze S_ squeezes_S1_S_
  let v278 : Memref sig .tc .hbm S1024x1024 .bf16 := arg2.slice (Rect.unit (s := S4096x1024) ![3072, 0] S1024x1024.size inb_S4096x1024_S1024x1024_3072_0) (fun _ => rfl)
  let v279 : Memref sig .tc .vmem S1024x1024 .bf16 := arg3.slice (Rect.unit (s := S4096x1024) ![3072, 0] S1024x1024.size inb_S4096x1024_S1024x1024_3072_0) (fun _ => rfl)
  Prog.lift (.waitDma2 v277.sem v279 v278 (harg3.wordExact_slice rfl _ wordsbf16_S4096x1024_S1024x1024_3072_0) (harg2.wordExact_slice rfl _ wordsbf16_S4096x1024_S1024x1024_3072_0))
  pure ⟨⟩

/-- The second half on the buffers the pipeline calls the body with. -/
abbrev prog2At (v33 : FVec F S4096x1024 .f32) (v196 : Vec F S8x4096 .f32) : Prog (TpuEff nD τ sig (Elt F) Λ₀ .tc) PUnit :=
  prog2 (win0_0.stage (cfg0.slots t₀ 0)) (hstage0_0 0) (win0_1.stage (cfg0.slots t₀ 1)) (hstage0_1 0) (Memref.whole main_v1) (Memref.isWhole_whole _)
    (Memref.whole cc0_scratch0) (Memref.isWhole_whole _) (Memref.whole cc0_scratch1) (Memref.isWhole_whole _) cc0_scratch2 cc0_scratch3 cc0_scratch4 v33 v196

/-- What the first half leaves: the records; the copy cells' positions and tokens; the scratch at some contents, the gather buffer
    whole and complete, the result array as launched; the fourteen send and receive semaphores at zero; nothing owed; the two
    staging buffers holding the device's blocks. -/
def mid (K : Dev nD × CK → ℕ) (c : Dev nD) : sProp 𝕄 :=
  iprop(records m K
    ∗ (bigSep Finset.univ fun i : Fin 4 => atPos ER (cpCell c i) 0 ∅ 0)
    ∗ (bigSep Finset.univ fun i : Fin 4 => dutyTok ER (cpCell c i) 0 0)
    ∗ (∃ f, vPts c f) ∗ aPts c (gath m) ∗ oPts c (m ((c : Thread nD τ).loc main_v1))
    ∗ (bigSep Finset.univ fun k : Fin 7 => semVal (sendCell c k) 0)
    ∗ (bigSep Finset.univ fun k : Fin 7 => semVal (recvCell c k) 0)
    ∗ (∃ W, owes (c : Thread nD τ) 0 W)
    ∗ stg c cc0_stg0_0 (xstg m c) ∗ stg c cc0_stg1_0 (gstg m c))

/-- What the body leaves at the one grid point. -/
def bodyPost (c : Dev nD) : sProp 𝕄 :=
  iprop(Φ₁ m c ∗ (dats m 0 c).owesAt () t₀.succ ∗ stg c cc0_stg0_0 (xstg m c) ∗ stg c cc0_stg1_0 (gstg m c))

/-- What the body starts from, the names of the invariants fixed. -/
def bodyPre (K : Dev nD × CK → ℕ) (c : Dev nD) : sProp 𝕄 :=
  iprop((ghost m K c ∗ creds c ∗ levAts L lv ∗ (∃ f, vPts c f) ∗ (∃ f, aPts c f) ∗ oPts c (m ((c : Thread nD τ).loc main_v1)))
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Cert.KernelIdeal.BodyDefs

end
-- ==== Proof.Views.lean ====
/-
  How the gather buffer divides into its eight rows and the output buffers into their four chunks of 1024 rows, and what the
  kernel's stores and copies leave in a row or a chunk: the element sets of the slices, that they tile their buffer, and that
  on a slice's own elements the contents written there are the gathered partial sums (a row) or the device's result block (a chunk).
-/
import proofs.«901005_g7700000000001006_dist_rmsnorm_colshard_i_m4096_n1024_v7x_i8_bf16_1_alg».proof.Proof.Proto
import Idealize.ShloMosaic.Lib.Pipeline.Value

noncomputable section

namespace Cert.KernelIdeal.Views

open Cert.KernelIdeal Cert.KernelIdeal.Gen Cert.KernelIdeal.Proto
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rows of the gather buffer -/

/-- The rectangle of the kernel's own load and store of its row (spelt through the other printed offset chain). -/
abbrev ownRect (c : Dev nD) : Rect S8x4096 := Rect.unit (s := S8x4096) (k0_off1 c) S1x4096.size (k0_off1_inb c)

/-- Both printed offset chains name the own row: the two rectangles are one. -/
private theorem own_rect_eq (c : Dev nD) : ownRect c = Rect.unit (s := S8x4096) (k0_off2 c) S1x4096.size (k0_off2_inb c) :=
  Rect.unit_congr ((k0_off1_eq c).trans (k0_off2_eq c).symm) _ _

/-- The indices of the gather buffer, and the elements of its row q as a set of them. -/
private abbrev AIdx : Type := S8x4096.Idx
private abbrev rowSet (q : Dev nD) : Finset AIdx := (rowM q).view.set

/-- Row q is the rectangle of one row at offset (q, 0). -/
private theorem row_set (q : Dev nD) :
    rowSet q = (Rect.unit (s := S8x4096) ![q.val, 0] S1x4096.size (by rw [← k0_off2_eq]; exact k0_off2_inb q)).set := by
  unfold rowSet
  rw [View.set_slice_whole]
  exact congrArg (fun r : Rect S8x4096 => r.set) (Rect.unit_congr (k0_off2_eq q) _ _)

/-- Different rows share no element: they are separated on the row axis. -/
private theorem row_disj {q q' : Dev nD} (h : q ≠ q') : Disjoint (rowSet q) (rowSet q') := by
  rw [row_set, row_set]
  refine Rect.unit_disjoint 0 ?_
  show q.val + 1 ≤ q'.val ∨ q'.val + 1 ≤ q.val
  have : q.val ≠ q'.val := fun e => h (Fin.ext e)
  omega

/-- Every element lies in the row its first coordinate names. -/
private theorem rows_cover : (Finset.univ : Finset (Dev nD)).biUnion rowSet = Finset.univ := by
  ext i
  simp only [Finset.mem_biUnion, Finset.mem_univ, true_and, iff_true]
  refine ⟨⟨(i 0).val, (i 0).isLt⟩, ?_⟩
  rw [row_set, Rect.mem_set_unit]
  have h1 : (i 1).val < 4096 := (i 1).isLt
  refine Fin.forall_fin_two.mpr ⟨?_, ?_⟩
  · show (i 0).val ≤ (i 0).val ∧ (i 0).val < (i 0).val + 1; omega
  · show 0 ≤ (i 1).val ∧ (i 1).val < 0 + 4096; omega

/-- The gather buffer held whole is its eight rows held one by one. -/
theorem rows_split (c : Dev nD) (f : Buf (Elt F) ((c : Thread nD τ).loc cc0_scratch1)) :
    ((((c : Thread nD τ).loc cc0_scratch1) ↦{fullShare} f : sProp 𝕄))
      ⊣⊢ bigSep Finset.univ fun q : Dev nD => ((rowM q).view.loc (c : Thread nD τ) ↦[(rowM q).view.set]{fullShare} f : sProp 𝕄) := by
  refine BiEntails.of_eq ?_
  have h := pointsTo_biUnion (ℓ := (c : Thread nD τ).loc cc0_scratch1) (q := fullShare) (f := f) (Val := Elt F) (Ix := Unit) (Name := ℕ) (U := UU) (Lvl := ℕ)
    (Finset.univ : Finset (Dev nD)) rowSet (fun q _ q' _ hne => row_disj hne)
  rw [rows_cover] at h
  exact h

/-- The own-row load and the own-row store touch only the own row's elements. -/
theorem row_load_sub (c : Dev nD) : aM.view.setOn (ownRect c).toLoadRect.set ⊆ (rowM c).view.set := by
  intro i hi
  rw [View.set_slice_whole]
  unfold View.setOn at hi
  rw [own_rect_eq] at hi
  exact (Finset.mem_map' _).mp hi
theorem row_store_sub (c : Dev nD) : (aM.access (ownRect c)).setOn (Finset.univ : Finset (ownRect c).shape.Idx) ⊆ (rowM c).view.set := by
  rw [View.setOn_univ, View.set_slice_whole, View.set_slice_whole, own_rect_eq]

/-- The gathered buffer at an element of row q is device q's partial sum at the element's column. -/
private theorem gath_apply (i : AIdx) (q : Dev nD) (y : S1x4096.Idx) (h0 : (i 0).val = q.val) (h1 : (i 1).val = (y 1).val) :
    gath m i = part m q y := by
  unfold gath
  have hq : (⟨(i 0).val, (i 0).isLt⟩ : Dev nD) = q := Fin.ext h0
  rw [hq]
  congr 1
  funext a
  have hy0 : (y 0).val < 1 := (y 0).isLt
  revert a
  refine Fin.forall_fin_two.mpr ⟨?_, ?_⟩
  · apply Fin.ext; show 0 = (y 0).val; omega
  · apply Fin.ext; exact h1

/-- After the own-row store of the partial sums the own row holds what the gathered buffer holds there. -/
theorem row_store_val (c : Dev nD) (f0 : Buf (Elt F) ((c : Thread nD τ).loc cc0_scratch1)) :
    ∀ i ∈ (rowM c).view.set, (aM.access (ownRect c)).write (Elt F) f0 (part m c) Finset.univ i = gath m i := by
  intro i hi
  have hi' : i ∈ (aM.access (ownRect c)).set := by
    rw [View.set_slice_whole] at hi ⊢; rw [own_rect_eq]; exact hi
  obtain ⟨y, rfl⟩ := View.exists_emb_of_mem_set _ hi'
  rw [View.write_emb_of_mem _ _ (Finset.mem_univ y), cast_eq]
  have hy0 : (y 0).val < 1 := (y 0).isLt
  refine (gath_apply m _ c y ?_ ?_).symm
  · show k0_off1 c 0 + 1 * (y 0).val = c.val
    rw [k0_off1_eq]; show c.val + 1 * (y 0).val = c.val; omega
  · show k0_off1 c 1 + 1 * (y 1).val = (y 1).val
    rw [k0_off1_eq]; show 0 + 1 * (y 1).val = (y 1).val; omega

/-- A row copied onto the same row of another buffer leaves there what the source holds there. -/
theorem row_landed (q : Dev nD) (fd : Buf (Elt F) ((q : Thread nD τ).loc cc0_scratch1)) :
    ∀ i ∈ (rowM q).view.set, (rowM q).view.write (Elt F) fd ((rowM q).view.read (Elt F) (gath m)) Finset.univ i = gath m i := by
  intro i hi
  obtain ⟨y, rfl⟩ := View.exists_emb_of_mem_set _ hi
  rw [View.write_emb_of_mem _ _ (Finset.mem_univ y), View.read_apply, cast_cast, cast_eq]

/-- The whole-buffer load of the gathered buffer reads it. -/
theorem gath_read :
    aM.view.readAt (Elt F) (Rect.unit (s := S8x4096) ![0, 0] S8x4096.size inb_S8x4096_S8x4096_0_0).toLoadRect (gath m) = gath m :=
  Memref.readAt_unit_zero (Elt F) cc0_scratch1 (by funext a; fin_cases a <;> rfl) inb_S8x4096_S8x4096_0_0 (gath m)

/-! ## The chunks of the output's scratch and of the result array -/

/-- The rectangle of chunk i as the kernel's loads and stores spell it. -/
@[reducible] def chRect : Fin 4 → Rect S4096x1024
  | 0 => Rect.unit (s := S4096x1024) ![0, 0] S1024x1024.size inb_S4096x1024_S1024x1024_0_0
  | 1 => Rect.unit (s := S4096x1024) ![1024, 0] S1024x1024.size inb_S4096x1024_S1024x1024_1024_0
  | 2 => Rect.unit (s := S4096x1024) ![2048, 0] S1024x1024.size inb_S4096x1024_S1024x1024_2048_0
  | 3 => Rect.unit (s := S4096x1024) ![3072, 0] S1024x1024.size inb_S4096x1024_S1024x1024_3072_0

/-- The indices of the two 4096 x 1024 buffers, and chunk i's elements as a set of them. -/
private abbrev VIdx : Type := S4096x1024.Idx
private abbrev chSet (i : Fin 4) : Finset VIdx := (chRect i).set

/-- An element lies in the rectangle of 1024 rows at row offset k exactly when its row does. -/
private theorem mem_ch {k : ℕ} {inb : ∀ a, (![k, 0] : Fin 2 → ℕ) a + S1024x1024.size a ≤ S4096x1024.size a} (i : VIdx) :
    i ∈ (Rect.unit (s := S4096x1024) ![k, 0] S1024x1024.size inb).set ↔ k ≤ (i 0).val ∧ (i 0).val < k + 1024 := by
  rw [Rect.mem_set_unit]
  have h1 : (i 1).val < 1024 := (i 1).isLt
  constructor
  · intro h; exact h 0
  · intro h; exact Fin.forall_fin_two.mpr ⟨h, by show 0 ≤ (i 1).val ∧ (i 1).val < 0 + 1024; omega⟩

private theorem mem_ch0 (i : VIdx) : i ∈ chSet 0 ↔ 0 ≤ (i 0).val ∧ (i 0).val < 0 + 1024 := mem_ch i
private theorem mem_ch1 (i : VIdx) : i ∈ chSet 1 ↔ 1024 ≤ (i 0).val ∧ (i 0).val < 1024 + 1024 := mem_ch i
private theorem mem_ch2 (i : VIdx) : i ∈ chSet 2 ↔ 2048 ≤ (i 0).val ∧ (i 0).val < 2048 + 1024 := mem_ch i
private theorem mem_ch3 (i : VIdx) : i ∈ chSet 3 ↔ 3072 ≤ (i 0).val ∧ (i 0).val < 3072 + 1024 := mem_ch i

/-- The four chunks cover the buffer, -/
private theorem ch_cover : (Finset.univ : Finset VIdx) = chSet 0 ∪ (chSet 1 ∪ (chSet 2 ∪ chSet 3)) := by
  ext i
  have h0 : (i 0).val < 4096 := (i 0).isLt
  rw [Finset.mem_union, Finset.mem_union, Finset.mem_union, mem_ch0, mem_ch1, mem_ch2, mem_ch3]
  refine ⟨fun _ => ?_, fun _ => Finset.mem_univ i⟩
  omega

/-- and no two share an element. -/
private theorem ch_disj23 : Disjoint (chSet 2) (chSet 3) :=
  Finset.disjoint_left.mpr fun i h h' => by rw [mem_ch2] at h; rw [mem_ch3] at h'; omega
private theorem ch_disj1 : Disjoint (chSet 1) (chSet 2 ∪ chSet 3) :=
  Finset.disjoint_left.mpr fun i h h' => by
    rw [mem_ch1] at h; rw [Finset.mem_union, mem_ch2, mem_ch3] at h'; omega
private theorem ch_disj0 : Disjoint (chSet 0) (chSet 1 ∪ (chSet 2 ∪ chSet 3)) :=
  Finset.disjoint_left.mpr fun i h h' => by
    rw [mem_ch0] at h; rw [Finset.mem_union, Finset.mem_union, mem_ch1, mem_ch2, mem_ch3] at h'; omega

theorem vchunks_split (c : Dev nD) (f : Buf (Elt F) ((c : Thread nD τ).loc cc0_scratch0)) :
    ((((c : Thread nD τ).loc cc0_scratch0) ↦{fullShare} f : sProp 𝕄))
      ⊣⊢ iprop(((vCh 0).view.loc (c : Thread nD τ) ↦[(vCh 0).view.set]{fullShare} f) ∗ ((vCh 1).view.loc (c : Thread nD τ) ↦[(vCh 1).view.set]{fullShare} f)
          ∗ ((vCh 2).view.loc (c : Thread nD τ) ↦[(vCh 2).view.set]{fullShare} f) ∗ ((vCh 3).view.loc (c : Thread nD τ) ↦[(vCh 3).view.set]{fullShare} f)) := by
  refine BiEntails.of_eq ?_
  have h0 := pointsTo_union (ℓ := (c : Thread nD τ).loc cc0_scratch0) (q := fullShare) (f := f) (Val := Elt F) (Ix := Unit) (Name := ℕ) (U := UU) (Lvl := ℕ) ch_disj0
  have h1 := pointsTo_union (ℓ := (c : Thread nD τ).loc cc0_scratch0) (q := fullShare) (f := f) (Val := Elt F) (Ix := Unit) (Name := ℕ) (U := UU) (Lvl := ℕ) ch_disj1
  have h2 := pointsTo_union (ℓ := (c : Thread nD τ).loc cc0_scratch0) (q := fullShare) (f := f) (Val := Elt F) (Ix := Unit) (Name := ℕ) (U := UU) (Lvl := ℕ) ch_disj23
  have e0 := equiv_iff.mp ⟨h0.1, h0.2⟩
  have e1 := equiv_iff.mp ⟨h1.1, h1.2⟩
  have e2 := equiv_iff.mp ⟨h2.1, h2.2⟩
  have s0 : ((vCh 0).view.set : Finset VIdx) = chSet 0 := View.set_slice_whole _ _
  have s1 : ((vCh 1).view.set : Finset VIdx) = chSet 1 := View.set_slice_whole _ _
  have s2 : ((vCh 2).view.set : Finset VIdx) = chSet 2 := View.set_slice_whole _ _
  have s3 : ((vCh 3).view.set : Finset VIdx) = chSet 3 := View.set_slice_whole _ _
  rw [s0, s1, s2, s3]
  show pointsTo ((c : Thread nD τ).loc cc0_scratch0) (Finset.univ : Finset VIdx) fullShare f = _
  rw [ch_cover, e0, e1, e2]
theorem ochunks_split (c : Dev nD) (f : Buf (Elt F) ((c : Thread nD τ).loc main_v1)) :
    ((((c : Thread nD τ).loc main_v1) ↦{fullShare} f : sProp 𝕄))
      ⊣⊢ iprop(((oCh 0).view.loc (c : Thread nD τ) ↦[(oCh 0).view.set]{fullShare} f) ∗ ((oCh 1).view.loc (c : Thread nD τ) ↦[(oCh 1).view.set]{fullShare} f)
          ∗ ((oCh 2).view.loc (c : Thread nD τ) ↦[(oCh 2).view.set]{fullShare} f) ∗ ((oCh 3).view.loc (c : Thread nD τ) ↦[(oCh 3).view.set]{fullShare} f)) := by
  refine BiEntails.of_eq ?_
  have h0 := pointsTo_union (ℓ := (c : Thread nD τ).loc main_v1) (q := fullShare) (f := f) (Val := Elt F) (Ix := Unit) (Name := ℕ) (U := UU) (Lvl := ℕ) ch_disj0
  have h1 := pointsTo_union (ℓ := (c : Thread nD τ).loc main_v1) (q := fullShare) (f := f) (Val := Elt F) (Ix := Unit) (Name := ℕ) (U := UU) (Lvl := ℕ) ch_disj1
  have h2 := pointsTo_union (ℓ := (c : Thread nD τ).loc main_v1) (q := fullShare) (f := f) (Val := Elt F) (Ix := Unit) (Name := ℕ) (U := UU) (Lvl := ℕ) ch_disj23
  have e0 := equiv_iff.mp ⟨h0.1, h0.2⟩
  have e1 := equiv_iff.mp ⟨h1.1, h1.2⟩
  have e2 := equiv_iff.mp ⟨h2.1, h2.2⟩
  have s0 : ((oCh 0).view.set : Finset VIdx) = chSet 0 := View.set_slice_whole _ _
  have s1 : ((oCh 1).view.set : Finset VIdx) = chSet 1 := View.set_slice_whole _ _
  have s2 : ((oCh 2).view.set : Finset VIdx) = chSet 2 := View.set_slice_whole _ _
  have s3 : ((oCh 3).view.set : Finset VIdx) = chSet 3 := View.set_slice_whole _ _
  rw [s0, s1, s2, s3]
  show pointsTo ((c : Thread nD τ).loc main_v1) (Finset.univ : Finset VIdx) fullShare f = _
  rw [ch_cover, e0, e1, e2]

/-- A chunk's load and store touch only the chunk's elements. -/
theorem vch_load_sub_0 : vM.view.setOn (chRect 0).toLoadRect.set ⊆ (vCh 0).view.set := by
  intro i hi; rw [View.set_slice_whole]; exact (Finset.mem_map' _).mp hi
theorem vch_load_sub_1 : vM.view.setOn (chRect 1).toLoadRect.set ⊆ (vCh 1).view.set := by
  intro i hi; rw [View.set_slice_whole]; exact (Finset.mem_map' _).mp hi
theorem vch_load_sub_2 : vM.view.setOn (chRect 2).toLoadRect.set ⊆ (vCh 2).view.set := by
  intro i hi; rw [View.set_slice_whole]; exact (Finset.mem_map' _).mp hi
theorem vch_load_sub_3 : vM.view.setOn (chRect 3).toLoadRect.set ⊆ (vCh 3).view.set := by
  intro i hi; rw [View.set_slice_whole]; exact (Finset.mem_map' _).mp hi
theorem vch_store_sub_0 : (vM.access (chRect 0)).setOn (Finset.univ : Finset (chRect 0).shape.Idx) ⊆ (vCh 0).view.set := by
  rw [View.setOn_univ]
theorem vch_store_sub_1 : (vM.access (chRect 1)).setOn (Finset.univ : Finset (chRect 1).shape.Idx) ⊆ (vCh 1).view.set := by
  rw [View.setOn_univ]
theorem vch_store_sub_2 : (vM.access (chRect 2)).setOn (Finset.univ : Finset (chRect 2).shape.Idx) ⊆ (vCh 2).view.set := by
  rw [View.setOn_univ]
theorem vch_store_sub_3 : (vM.access (chRect 3)).setOn (Finset.univ : Finset (chRect 3).shape.Idx) ⊆ (vCh 3).view.set := by
  rw [View.setOn_univ]

/-- The result block at an element of chunk i is that chunk's value at the element's place in the chunk:
    row 1024 i + y0 has quotient i and remainder y0 by 1024. -/
private theorem outv_apply (c : Dev nD) (j : VIdx) (i : Fin 4) (y : S1024x1024.Idx)
    (h0 : (j 0).val = 1024 * i.val + (y 0).val) (h1 : (j 1).val = (y 1).val) : outv m c j = chVal m c i y := by
  have key : ∀ (k : Fin 4) (z : S1024x1024.Idx), k = i → z = y → chVal m c k z = chVal m c i y := by
    rintro _ _ rfl rfl; rfl
  have hy0 : (y 0).val < 1024 := (y 0).isLt
  unfold outv
  refine key _ _ (Fin.ext ?_) (funext ?_)
  · show (j 0).val / 1024 = i.val; omega
  · refine Fin.forall_fin_two.mpr ⟨?_, ?_⟩
    · apply Fin.ext; show (j 0).val % 1024 = (y 0).val; omega
    · apply Fin.ext; exact h1

/-- After the store of chunk i's values the chunk of the scratch holds the device's result block there. -/
theorem vch_store_val_0 (c : Dev nD) (f : Buf (Elt F) ((c : Thread nD τ).loc cc0_scratch0)) :
    ∀ j ∈ (vCh 0).view.set, (vM.access (chRect 0)).write (Elt F) f (chVal m c 0) Finset.univ j = outv m c j := by
  intro j hj
  obtain ⟨y, rfl⟩ := View.exists_emb_of_mem_set _ hj
  refine (View.write_emb_of_mem (v := vM.access (chRect 0)) _ _ (Finset.mem_univ y)).trans ?_
  rw [cast_eq]
  refine (outv_apply m c _ 0 y ?_ ?_).symm
  · show 0 + 1 * (y 0).val = 1024 * 0 + (y 0).val; omega
  · show 0 + 1 * (y 1).val = (y 1).val; omega
theorem vch_store_val_1 (c : Dev nD) (f : Buf (Elt F) ((c : Thread nD τ).loc cc0_scratch0)) :
    ∀ j ∈ (vCh 1).view.set, (vM.access (chRect 1)).write (Elt F) f (chVal m c 1) Finset.univ j = outv m c j := by
  intro j hj
  obtain ⟨y, rfl⟩ := View.exists_emb_of_mem_set _ hj
  refine (View.write_emb_of_mem (v := vM.access (chRect 1)) _ _ (Finset.mem_univ y)).trans ?_
  rw [cast_eq]
  refine (outv_apply m c _ 1 y ?_ ?_).symm
  · show 1024 + 1 * (y 0).val = 1024 * 1 + (y 0).val; omega
  · show 0 + 1 * (y 1).val = (y 1).val; omega
theorem vch_store_val_2 (c : Dev nD) (f : Buf (Elt F) ((c : Thread nD τ).loc cc0_scratch0)) :
    ∀ j ∈ (vCh 2).view.set, (vM.access (chRect 2)).write (Elt F) f (chVal m c 2) Finset.univ j = outv m c j := by
  intro j hj
  obtain ⟨y, rfl⟩ := View.exists_emb_of_mem_set _ hj
  refine (View.write_emb_of_mem (v := vM.access (chRect 2)) _ _ (Finset.mem_univ y)).trans ?_
  rw [cast_eq]
  refine (outv_apply m c _ 2 y ?_ ?_).symm
  · show 2048 + 1 * (y 0).val = 1024 * 2 + (y 0).val; omega
  · show 0 + 1 * (y 1).val = (y 1).val; omega
theorem vch_store_val_3 (c : Dev nD) (f : Buf (Elt F) ((c : Thread nD τ).loc cc0_scratch0)) :
    ∀ j ∈ (vCh 3).view.set, (vM.access (chRect 3)).write (Elt F) f (chVal m c 3) Finset.univ j = outv m c j := by
  intro j hj
  obtain ⟨y, rfl⟩ := View.exists_emb_of_mem_set _ hj
  refine (View.write_emb_of_mem (v := vM.access (chRect 3)) _ _ (Finset.mem_univ y)).trans ?_
  rw [cast_eq]
  refine (outv_apply m c _ 3 y ?_ ?_).symm
  · show 3072 + 1 * (y 0).val = 1024 * 3 + (y 0).val; omega
  · show 0 + 1 * (y 1).val = (y 1).val; omega

/-- A chunk of the scratch holding the result block there, copied onto the same chunk of the result array, leaves the block there. -/
theorem och_copy_val_0 (c : Dev nD) (fd : Buf (Elt F) ((c : Thread nD τ).loc main_v1)) (fs : Buf (Elt F) ((c : Thread nD τ).loc cc0_scratch0))
    (h : ∀ j ∈ (vCh 0).view.set, fs j = outv m c j) :
    ∀ j ∈ (oCh 0).view.set, (oCh 0).view.write (Elt F) fd ((vCh 0).view.read (Elt F) fs) Finset.univ j = outv m c j := by
  intro j hj
  obtain ⟨y, rfl⟩ := View.exists_emb_of_mem_set _ hj
  rw [View.write_emb_of_mem _ _ (Finset.mem_univ y), View.read_apply, cast_cast, cast_eq]
  exact h _ (View.emb_mem_set _ y)
theorem och_copy_val_1 (c : Dev nD) (fd : Buf (Elt F) ((c : Thread nD τ).loc main_v1)) (fs : Buf (Elt F) ((c : Thread nD τ).loc cc0_scratch0))
    (h : ∀ j ∈ (vCh 1).view.set, fs j = outv m c j) :
    ∀ j ∈ (oCh 1).view.set, (oCh 1).view.write (Elt F) fd ((vCh 1).view.read (Elt F) fs) Finset.univ j = outv m c j := by
  intro j hj
  obtain ⟨y, rfl⟩ := View.exists_emb_of_mem_set _ hj
  rw [View.write_emb_of_mem _ _ (Finset.mem_univ y), View.read_apply, cast_cast, cast_eq]
  exact h _ (View.emb_mem_set _ y)
theorem och_copy_val_2 (c : Dev nD) (fd : Buf (Elt F) ((c : Thread nD τ).loc main_v1)) (fs : Buf (Elt F) ((c : Thread nD τ).loc cc0_scratch0))
    (h : ∀ j ∈ (vCh 2).view.set, fs j = outv m c j) :
    ∀ j ∈ (oCh 2).view.set, (oCh 2).view.write (Elt F) fd ((vCh 2).view.read (Elt F) fs) Finset.univ j = outv m c j := by
  intro j hj
  obtain ⟨y, rfl⟩ := View.exists_emb_of_mem_set _ hj
  rw [View.write_emb_of_mem _ _ (Finset.mem_univ y), View.read_apply, cast_cast, cast_eq]
  exact h _ (View.emb_mem_set _ y)
theorem och_copy_val_3 (c : Dev nD) (fd : Buf (Elt F) ((c : Thread nD τ).loc main_v1)) (fs : Buf (Elt F) ((c : Thread nD τ).loc cc0_scratch0))
    (h : ∀ j ∈ (vCh 3).view.set, fs j = outv m c j) :
    ∀ j ∈ (oCh 3).view.set, (oCh 3).view.write (Elt F) fd ((vCh 3).view.read (Elt F) fs) Finset.univ j = outv m c j := by
  intro j hj
  obtain ⟨y, rfl⟩ := View.exists_emb_of_mem_set _ hj
  rw [View.write_emb_of_mem _ _ (Finset.mem_univ y), View.read_apply, cast_cast, cast_eq]
  exact h _ (View.emb_mem_set _ y)

/-! ## Every statement above rests on the three standard axioms only -/

/-- info: 'Cert.KernelIdeal.Views.rows_split' depends on axioms: [propext, Classical.choice, Quot.sound] -/
#guard_msgs in #print axioms rows_split
/-- info: 'Cert.KernelIdeal.Views.row_load_sub' depends on axioms: [propext, Classical.choice, Quot.sound] -/
#guard_msgs in #print axioms row_load_sub
/-- info: 'Cert.KernelIdeal.Views.row_store_sub' depends on axioms: [propext, Classical.choice, Quot.sound] -/
#guard_msgs in #print axioms row_store_sub
/-- info: 'Cert.KernelIdeal.Views.row_store_val' depends on axioms: [propext, Classical.choice, Quot.sound] -/
#guard_msgs in #print axioms row_store_val
/-- info: 'Cert.KernelIdeal.Views.row_landed' depends on axioms: [propext, Classical.choice, Quot.sound] -/
#guard_msgs in #print axioms row_landed
/-- info: 'Cert.KernelIdeal.Views.gath_read' depends on axioms: [propext, Classical.choice, Quot.sound] -/
#guard_msgs in #print axioms gath_read
/-- info: 'Cert.KernelIdeal.Views.vchunks_split' depends on axioms: [propext, Classical.choice, Quot.sound] -/
#guard_msgs in #print axioms vchunks_split
/-- info: 'Cert.KernelIdeal.Views.ochunks_split' depends on axioms: [propext, Classical.choice, Quot.sound] -/
#guard_msgs in #print axioms ochunks_split
/-- info: 'Cert.KernelIdeal.Views.vch_load_sub_0' depends on axioms: [propext, Classical.choice, Quot.sound] -/
#guard_msgs in #print axioms vch_load_sub_0
/-- info: 'Cert.KernelIdeal.Views.vch_load_sub_1' depends on axioms: [propext, Classical.choice, Quot.sound] -/
#guard_msgs in #print axioms vch_load_sub_1
/-- info: 'Cert.KernelIdeal.Views.vch_load_sub_2' depends on axioms: [propext, Classical.choice, Quot.sound] -/
#guard_msgs in #print axioms vch_load_sub_2
/-- info: 'Cert.KernelIdeal.Views.vch_load_sub_3' depends on axioms: [propext, Classical.choice, Quot.sound] -/
#guard_msgs in #print axioms vch_load_sub_3
/-- info: 'Cert.KernelIdeal.Views.vch_store_sub_0' depends on axioms: [propext, Classical.choice, Quot.sound] -/
#guard_msgs in #print axioms vch_store_sub_0
/-- info: 'Cert.KernelIdeal.Views.vch_store_sub_1' depends on axioms: [propext, Classical.choice, Quot.sound] -/
#guard_msgs in #print axioms vch_store_sub_1
/-- info: 'Cert.KernelIdeal.Views.vch_store_sub_2' depends on axioms: [propext, Classical.choice, Quot.sound] -/
#guard_msgs in #print axioms vch_store_sub_2
/-- info: 'Cert.KernelIdeal.Views.vch_store_sub_3' depends on axioms: [propext, Classical.choice, Quot.sound] -/
#guard_msgs in #print axioms vch_store_sub_3
/-- info: 'Cert.KernelIdeal.Views.vch_store_val_0' depends on axioms: [propext, Classical.choice, Quot.sound] -/
#guard_msgs in #print axioms vch_store_val_0
/-- info: 'Cert.KernelIdeal.Views.vch_store_val_1' depends on axioms: [propext, Classical.choice, Quot.sound] -/
#guard_msgs in #print axioms vch_store_val_1
/-- info: 'Cert.KernelIdeal.Views.vch_store_val_2' depends on axioms: [propext, Classical.choice, Quot.sound] -/
#guard_msgs in #print axioms vch_store_val_2
/-- info: 'Cert.KernelIdeal.Views.vch_store_val_3' depends on axioms: [propext, Classical.choice, Quot.sound] -/
#guard_msgs in #print axioms vch_store_val_3
/-- info: 'Cert.KernelIdeal.Views.och_copy_val_0' depends on axioms: [propext, Classical.choice, Quot.sound] -/
#guard_msgs in #print axioms och_copy_val_0
/-- info: 'Cert.KernelIdeal.Views.och_copy_val_1' depends on axioms: [propext, Classical.choice, Quot.sound] -/
#guard_msgs in #print axioms och_copy_val_1
/-- info: 'Cert.KernelIdeal.Views.och_copy_val_2' depends on axioms: [propext, Classical.choice, Quot.sound] -/
#guard_msgs in #print axioms och_copy_val_2
/-- info: 'Cert.KernelIdeal.Views.och_copy_val_3' depends on axioms: [propext, Classical.choice, Quot.sound] -/
#guard_msgs in #print axioms och_copy_val_3

end Cert.KernelIdeal.Views

end
-- ==== Proof.PartsDefs.lean ====
/-
  The first half of one device's body, cut along the seven printed parts it spans: what the device holds between two parts
  (which barrier units and receive credits it still owes, which rows of its gather buffer it still has, which shares of its own row are
  lent to copies in flight, which cells it has waited on), and the lemmas the parts share: how the big conjunctions of the ghost state
  split, what a signal and a landing hand over, and the rule of one row copy.
-/
import proofs.«901005_g7700000000001006_dist_rmsnorm_colshard_i_m4096_n1024_v7x_i8_bf16_1_alg».proof.Proof.BodyDefs
import proofs.«901005_g7700000000001006_dist_rmsnorm_colshard_i_m4096_n1024_v7x_i8_bf16_1_alg».proof.Proof.Views

noncomputable section

namespace Cert.KernelIdeal.Parts

open Cert.KernelIdeal Cert.KernelIdeal.Gen Cert.KernelIdeal.Proto Cert.KernelIdeal.BodyDefs
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Splitting the big conjunctions of the ghost state -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The devices are c and its seven peers. -/
theorem univ_dev (c : Dev nD) : (Finset.univ : Finset (Dev nD)) = insert c (Finset.univ.map ⟨peer c, peer_inj_right c⟩) := by
  revert c; decide
theorem bigSep_devs (c : Dev nD) (Φ : Dev nD → sProp 𝕄) :
    bigSep Finset.univ Φ = iprop(Φ c ∗ bigSep Finset.univ fun k : Fin 7 => Φ (peer c k)) := by
  rw [univ_dev c, bigSep_insert (fun h => by
    obtain ⟨k, -, hk⟩ := Finset.mem_map.mp h; exact peer_ne c k hk), bigSep_map]
  rfl

/-- A device's nineteen positions, one by one. -/
theorem positions_eq (c : Dev nD) : positions (F := F) c = iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (sendCell c 6) 0 ∅ 0
    ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (recvCell c 6) 0 ∅ 0
    ∗ atPos ER (cpCell c 0) 0 ∅ 0 ∗ atPos ER (cpCell c 1) 0 ∅ 0 ∗ atPos ER (cpCell c 2) 0 ∅ 0 ∗ atPos ER (cpCell c 3) 0 ∅ 0) := by
  unfold positions
  exact bigSep_univ_eq_bigSepL [CK.bar, .send 0, .send 1, .send 2, .send 3, .send 4, .send 5, .send 6, .recv 0, .recv 1, .recv 2, .recv 3, .recv 4, .recv 5, .recv 6, .cp 0, .cp 1, .cp 2, .cp 3] (by decide) (by decide) _

/-- What the k-th signal of device c hands the peer it goes to: the peer's row of c's gather buffer, and that c's receive cell k.rev is at its first round. -/
theorem payload_bar_to (c : Dev nD) (k : Fin 7) : (sched (F := F) m).payload (barCell (peer c k)) 0 k.rev
    = iprop((∃ f, (rowM (peer c k)).view.loc (c : Thread nD τ) ↦[(rowM (peer c k)).view.set]{fullShare} f) ∗ reached ER (recvCell c k.rev) 0) := by
  rw [payload_bar]; unfold barPay; rw [peer_peer_rev]
/-- What the landing of c's copy k hands the peer it goes to: c's row of the peer's gather buffer, holding c's partial sums. -/
theorem payload_recv_to (c : Dev nD) (k : Fin 7) (d : Fin 7) : (sched (F := F) m).payload (recvCell (peer c k) k) 0 d
    = ((rowM c).view.loc (peer c k : Thread nD τ) ↦[(rowM c).view.set]{fullShare} gath m : sProp 𝕄) := by
  rw [payload_recv]; unfold recvPay; rw [peer_peer_rev]

/-- A buffer held whole, spelt through its memref's view. -/
theorem whole_pts (c : Dev nD) (b : Ref sig .tc) (f : Buf (Elt F) ((c : Thread nD τ).loc b)) :
    ((((c : Thread nD τ).loc b) ↦{fullShare} f : sProp 𝕄)) = ((Memref.whole b).view.loc (c : Thread nD τ) ↦{fullShare} f : sProp 𝕄) := rfl

/-- The tables at the cells as the records spell them. -/
theorem payload_bar_k (c : Dev nD) (j : Fin 7) : (sched (F := F) m).payload (kcell (c, CK.bar)) 0 j = barPay c j := payload_bar m c j
theorem payload_send_k (c : Dev nD) (k d : Fin 7) : (sched (F := F) m).payload (kcell (c, CK.send k)) 0 d = sendPay m c k := payload_send m c k d
theorem payload_recv_k (c : Dev nD) (k d : Fin 7) : (sched (F := F) m).payload (kcell (c, CK.recv k)) 0 d = recvPay m c k := payload_recv m c k d
theorem hz2 : (![0, 0] : Fin 2 → Nat) = fun _ => 0 := funext fun a => by fin_cases a <;> rfl

/-- Copy k of device c: its own row, at the share lent to this copy, onto the same row of the gather buffer of the peer n = peer c k; the departure's
    credit comes back, the receive credit is paid. -/
theorem wp_send_row (K : Dev nD × CK → ℕ) (c n : Dev nD) (k : Fin 7) (hn : n = peer c k)
    {hsc : (rowM c : Memref sig (Dev.tc n : Thread nD τ).2.kind .vmem S1x4096 .f32).view.ref.isScScratch = false}
    {hsrc : (rowM c : Memref sig .tc .vmem S1x4096 .f32).view.WordExact} {hdst : (rowM c : Memref sig .tc .vmem S1x4096 .f32).view.WordExact}
    {hsem : DmaTarget.Typed .vmem (.dma (recvS k)) (.remote (Dev.tc n : Thread nD τ) (rowM c : Memref sig .tc .vmem S1x4096 .f32) (.dma (sendS k)) hsc)}
    {α : Type} {Q : α → sProp 𝕄} {kont : PUnit → Prog (TpuEff nD τ sig (Elt F) Λ₀ .tc) α}
    (fd : Buf (Elt F) ((rowM c).view.loc (peer c k : Thread nD τ))) (O : CellTallies nD τ sig Unit) (W : Waits sig Unit) :
    iprop(cellInv ER (sched m) (K (c, .send k)) (sendCell c k) ∗ cellInv ER (sched m) (K (peer c k, .recv k)) (recvCell (peer c k) k)
        ∗ ((rowM c).view.loc (c : Thread nD τ) ↦[(rowM c).view.set]{shr k} gath m)
        ∗ ((rowM c).view.loc (peer c k : Thread nD τ) ↦[(rowM c).view.set]{fullShare} fd)
        ∗ owes (c : Thread nD τ) (O + rT c k) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () Nrow) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (rowM c) (.remote (Dev.tc n : Thread nD τ) (rowM c) (.dma (sendS k)) hsc) (.dma (recvS k)) hsrc hdst hsem) kont) Q) := by
  subst hn
  exact Rounds.wp_send_pointsTo 𝒱₀ ER (sched m) (c : Thread nD τ) none (κ₁ := K (c, .send k)) (κ₂ := K (peer c k, .recv k))
    (r₁ := 0) (r₂ := 0) (d₁ := 0) (d₂ := 0) (fd := fd)
    (by rw [duties_send]; exact Finset.mem_singleton_self _) (by rw [duties_recv]; exact Finset.mem_singleton_self _)
    () () Nrow rfl (amount_send m c k 0) (amount_recv m (peer c k) k 0) O rfl (W := W)
    (by rw [payload_send]; exact BI.Entails.refl _)
    (by rw [payload_recv_to]; exact Entails.of_eq (pointsTo_congr (Views.row_landed m c fd)))

/-- The device's own index as the word the kernel computes, the block of x as the whole-buffer load reads it, and the gathered buffer as the
    whole-buffer load reads it. -/
abbrev v2w (c : Dev nD) : BitVec 32 := Scalar.remsi (Scalar.divsi (Dev.word c) 1#32) 8#32
abbrev xld (c : Dev nD) : Vec F S4096x1024 .f32 :=
  (Memref.whole cc0_stg0_0 : Memref sig .tc .vmem S4096x1024 .f32).view.readAt (Elt F)
    (Rect.unit (s := S4096x1024) ![0, 0] S4096x1024.size inb_S4096x1024_S4096x1024_0_0).toLoadRect (xstg m c)
abbrev gld : Vec F S8x4096 .f32 :=
  (Memref.whole cc0_scratch1 : Memref sig .tc .vmem S8x4096 .f32).view.readAt (Elt F)
    (Rect.unit (s := S8x4096) ![0, 0] S8x4096.size inb_S8x4096_S8x4096_0_0).toLoadRect (gath m)
theorem xld_eq (c : Dev nD) : xld m c = xstg m c := Memref.readAt_unit_zero (Elt F) cc0_stg0_0 hz2 _ _
theorem gld_eq : gld m = gath m := Views.gath_read m

/-! ## What the device holds between the parts -/

/-- Before part 1. -/
def St0 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (barCell c) 0 ∅ 0)
    ∗ (cred (tallyAt (barCell c) () 7))
    ∗ (atPos ER (sendCell c 0) 0 ∅ 0)
    ∗ (atPos ER (sendCell c 1) 0 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 0 ∅ 0)
    ∗ (atPos ER (recvCell c 1) 0 ∅ 0)
    ∗ (atPos ER (recvCell c 2) 0 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (dutyTok ER (barCell (peer c 0)) 0 (0 : Fin 7).rev)
    ∗ (∃ f, (rowM (peer c 0)).view.loc (c : Thread nD τ) ↦[(rowM (peer c 0)).view.set]{fullShare} f)
    ∗ (dutyTok ER (barCell (peer c 1)) 0 (1 : Fin 7).rev)
    ∗ (∃ f, (rowM (peer c 1)).view.loc (c : Thread nD τ) ↦[(rowM (peer c 1)).view.set]{fullShare} f)
    ∗ (dutyTok ER (barCell (peer c 2)) 0 (2 : Fin 7).rev)
    ∗ (∃ f, (rowM (peer c 2)).view.loc (c : Thread nD τ) ↦[(rowM (peer c 2)).view.set]{fullShare} f)
    ∗ (dutyTok ER (barCell (peer c 3)) 0 (3 : Fin 7).rev)
    ∗ (∃ f, (rowM (peer c 3)).view.loc (c : Thread nD τ) ↦[(rowM (peer c 3)).view.set]{fullShare} f)
    ∗ (dutyTok ER (barCell (peer c 4)) 0 (4 : Fin 7).rev)
    ∗ (∃ f, (rowM (peer c 4)).view.loc (c : Thread nD τ) ↦[(rowM (peer c 4)).view.set]{fullShare} f)
    ∗ (dutyTok ER (barCell (peer c 5)) 0 (5 : Fin 7).rev)
    ∗ (∃ f, (rowM (peer c 5)).view.loc (c : Thread nD τ) ↦[(rowM (peer c 5)).view.set]{fullShare} f)
    ∗ (dutyTok ER (barCell (peer c 6)) 0 (6 : Fin 7).rev)
    ∗ (∃ f, (rowM (peer c 6)).view.loc (c : Thread nD τ) ↦[(rowM (peer c 6)).view.set]{fullShare} f)
    ∗ (dutyTok ER (recvCell (peer c 0) 0) 0 0)
    ∗ (dutyTok ER (sendCell c 0) 0 0)
    ∗ (dutyTok ER (recvCell (peer c 1) 1) 0 0)
    ∗ (dutyTok ER (sendCell c 1) 0 0)
    ∗ (dutyTok ER (recvCell (peer c 2) 2) 0 0)
    ∗ (dutyTok ER (sendCell c 2) 0 0)
    ∗ (dutyTok ER (recvCell (peer c 3) 3) 0 0)
    ∗ (dutyTok ER (sendCell c 3) 0 0)
    ∗ (dutyTok ER (recvCell (peer c 4) 4) 0 0)
    ∗ (dutyTok ER (sendCell c 4) 0 0)
    ∗ (dutyTok ER (recvCell (peer c 5) 5) 0 0)
    ∗ (dutyTok ER (sendCell c 5) 0 0)
    ∗ (dutyTok ER (recvCell (peer c 6) 6) 0 0)
    ∗ (dutyTok ER (sendCell c 6) 0 0)
    ∗ (cred (tallyAt (recvCell c 0) () Nrow))
    ∗ (cred (tallyAt (recvCell c 1) () Nrow))
    ∗ (cred (tallyAt (recvCell c 2) () Nrow))
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (∃ f, (rowM c).view.loc (c : Thread nD τ) ↦[(rowM c).view.set]{fullShare} f)
    ∗ (∃ W, owes (c : Thread nD τ) (O₀ c) W))

/-- Before part 2. -/
def St1 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (barCell c) 0 ∅ 0)
    ∗ (cred (tallyAt (barCell c) () 7))
    ∗ (atPos ER (sendCell c 0) 0 ∅ 0)
    ∗ (atPos ER (sendCell c 1) 0 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 0 ∅ 0)
    ∗ (atPos ER (recvCell c 1) 0 ∅ 0)
    ∗ (atPos ER (recvCell c 2) 0 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (dutyTok ER (barCell (peer c 5)) 0 (5 : Fin 7).rev)
    ∗ (∃ f, (rowM (peer c 5)).view.loc (c : Thread nD τ) ↦[(rowM (peer c 5)).view.set]{fullShare} f)
    ∗ (dutyTok ER (barCell (peer c 6)) 0 (6 : Fin 7).rev)
    ∗ (∃ f, (rowM (peer c 6)).view.loc (c : Thread nD τ) ↦[(rowM (peer c 6)).view.set]{fullShare} f)
    ∗ (dutyTok ER (recvCell (peer c 0) 0) 0 0)
    ∗ (dutyTok ER (sendCell c 0) 0 0)
    ∗ (dutyTok ER (recvCell (peer c 1) 1) 0 0)
    ∗ (dutyTok ER (sendCell c 1) 0 0)
    ∗ (dutyTok ER (recvCell (peer c 2) 2) 0 0)
    ∗ (dutyTok ER (sendCell c 2) 0 0)
    ∗ (dutyTok ER (recvCell (peer c 3) 3) 0 0)
    ∗ (dutyTok ER (sendCell c 3) 0 0)
    ∗ (dutyTok ER (recvCell (peer c 4) 4) 0 0)
    ∗ (dutyTok ER (sendCell c 4) 0 0)
    ∗ (dutyTok ER (recvCell (peer c 5) 5) 0 0)
    ∗ (dutyTok ER (sendCell c 5) 0 0)
    ∗ (dutyTok ER (recvCell (peer c 6) 6) 0 0)
    ∗ (dutyTok ER (sendCell c 6) 0 0)
    ∗ (cred (tallyAt (recvCell c 0) () Nrow))
    ∗ (cred (tallyAt (recvCell c 1) () Nrow))
    ∗ (cred (tallyAt (recvCell c 2) () Nrow))
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (∃ f, (rowM c).view.loc (c : Thread nD τ) ↦[(rowM c).view.set]{fullShare} f)
    ∗ (∃ W, owes (c : Thread nD τ) (B5 c) W))

/-- Before part 3. -/
def St2 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (sendCell c 0) 0 ∅ 0)
    ∗ (atPos ER (sendCell c 1) 0 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 0 ∅ 0)
    ∗ (atPos ER (recvCell c 1) 0 ∅ 0)
    ∗ (atPos ER (recvCell c 2) 0 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (dutyTok ER (recvCell (peer c 1) 1) 0 0)
    ∗ (dutyTok ER (sendCell c 1) 0 0)
    ∗ (dutyTok ER (recvCell (peer c 2) 2) 0 0)
    ∗ (dutyTok ER (sendCell c 2) 0 0)
    ∗ (dutyTok ER (recvCell (peer c 3) 3) 0 0)
    ∗ (dutyTok ER (sendCell c 3) 0 0)
    ∗ (dutyTok ER (recvCell (peer c 4) 4) 0 0)
    ∗ (dutyTok ER (sendCell c 4) 0 0)
    ∗ (dutyTok ER (recvCell (peer c 5) 5) 0 0)
    ∗ (dutyTok ER (sendCell c 5) 0 0)
    ∗ (dutyTok ER (recvCell (peer c 6) 6) 0 0)
    ∗ (dutyTok ER (sendCell c 6) 0 0)
    ∗ (cred (tallyAt (recvCell c 0) () Nrow))
    ∗ (cred (tallyAt (recvCell c 1) () Nrow))
    ∗ (cred (tallyAt (recvCell c 2) () Nrow))
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (cred (tallyAt (sendCell c 0) () Nrow))
    ∗ ((rowM c).view.loc (c : Thread nD τ) ↦[(rowM c).view.set]{keep} gath m)
    ∗ ((rowM c).view.loc (c : Thread nD τ) ↦[(rowM c).view.set]{shr 1} gath m)
    ∗ ((rowM c).view.loc (c : Thread nD τ) ↦[(rowM c).view.set]{shr 2} gath m)
    ∗ ((rowM c).view.loc (c : Thread nD τ) ↦[(rowM c).view.set]{shr 3} gath m)
    ∗ ((rowM c).view.loc (c : Thread nD τ) ↦[(rowM c).view.set]{shr 4} gath m)
    ∗ ((rowM c).view.loc (c : Thread nD τ) ↦[(rowM c).view.set]{shr 5} gath m)
    ∗ ((rowM c).view.loc (c : Thread nD τ) ↦[(rowM c).view.set]{shr 6} gath m)
    ∗ (∃ f, (rowM c).view.loc (peer c 1 : Thread nD τ) ↦[(rowM c).view.set]{fullShare} f)
    ∗ (∃ f, (rowM c).view.loc (peer c 2 : Thread nD τ) ↦[(rowM c).view.set]{fullShare} f)
    ∗ (∃ f, (rowM c).view.loc (peer c 3 : Thread nD τ) ↦[(rowM c).view.set]{fullShare} f)
    ∗ (∃ f, (rowM c).view.loc (peer c 4 : Thread nD τ) ↦[(rowM c).view.set]{fullShare} f)
    ∗ (∃ f, (rowM c).view.loc (peer c 5 : Thread nD τ) ↦[(rowM c).view.set]{fullShare} f)
    ∗ (∃ f, (rowM c).view.loc (peer c 6 : Thread nD τ) ↦[(rowM c).view.set]{fullShare} f)
    ∗ (∃ W, owes (c : Thread nD τ) (R1 c) W))

/-- Before part 4. -/
def St3 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (sendCell c 0) 0 ∅ 0)
    ∗ (atPos ER (sendCell c 1) 0 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 0 ∅ 0)
    ∗ (atPos ER (recvCell c 1) 0 ∅ 0)
    ∗ (atPos ER (recvCell c 2) 0 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (dutyTok ER (recvCell (peer c 4) 4) 0 0)
    ∗ (dutyTok ER (sendCell c 4) 0 0)
    ∗ (dutyTok ER (recvCell (peer c 5) 5) 0 0)
    ∗ (dutyTok ER (sendCell c 5) 0 0)
    ∗ (dutyTok ER (recvCell (peer c 6) 6) 0 0)
    ∗ (dutyTok ER (sendCell c 6) 0 0)
    ∗ (cred (tallyAt (recvCell c 0) () Nrow))
    ∗ (cred (tallyAt (recvCell c 1) () Nrow))
    ∗ (cred (tallyAt (recvCell c 2) () Nrow))
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (cred (tallyAt (sendCell c 0) () Nrow))
    ∗ (cred (tallyAt (sendCell c 1) () Nrow))
    ∗ (cred (tallyAt (sendCell c 2) () Nrow))
    ∗ (cred (tallyAt (sendCell c 3) () Nrow))
    ∗ ((rowM c).view.loc (c : Thread nD τ) ↦[(rowM c).view.set]{keep} gath m)
    ∗ ((rowM c).view.loc (c : Thread nD τ) ↦[(rowM c).view.set]{shr 4} gath m)
    ∗ ((rowM c).view.loc (c : Thread nD τ) ↦[(rowM c).view.set]{shr 5} gath m)
    ∗ ((rowM c).view.loc (c : Thread nD τ) ↦[(rowM c).view.set]{shr 6} gath m)
    ∗ (∃ f, (rowM c).view.loc (peer c 4 : Thread nD τ) ↦[(rowM c).view.set]{fullShare} f)
    ∗ (∃ f, (rowM c).view.loc (peer c 5 : Thread nD τ) ↦[(rowM c).view.set]{fullShare} f)
    ∗ (∃ f, (rowM c).view.loc (peer c 6 : Thread nD τ) ↦[(rowM c).view.set]{fullShare} f)
    ∗ (∃ W, owes (c : Thread nD τ) (R4 c) W))

/-- Before part 5. -/
def St4 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (sendCell c 0) 0 ∅ 0)
    ∗ (atPos ER (sendCell c 1) 0 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 0 ∅ 0)
    ∗ (atPos ER (recvCell c 1) 0 ∅ 0)
    ∗ (atPos ER (recvCell c 2) 0 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (cred (tallyAt (recvCell c 0) () Nrow))
    ∗ (cred (tallyAt (recvCell c 1) () Nrow))
    ∗ (cred (tallyAt (recvCell c 2) () Nrow))
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (cred (tallyAt (sendCell c 0) () Nrow))
    ∗ (cred (tallyAt (sendCell c 1) () Nrow))
    ∗ (cred (tallyAt (sendCell c 2) () Nrow))
    ∗ (cred (tallyAt (sendCell c 3) () Nrow))
    ∗ (cred (tallyAt (sendCell c 4) () Nrow))
    ∗ (cred (tallyAt (sendCell c 5) () Nrow))
    ∗ (cred (tallyAt (sendCell c 6) () Nrow))
    ∗ ((rowM c).view.loc (c : Thread nD τ) ↦[(rowM c).view.set]{keep} gath m)
    ∗ (∃ W, owes (c : Thread nD τ) (0) W))

/-- Before part 6. -/
def St5 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (sendCell c 0) 1 ∅ 0)
    ∗ (atPos ER (sendCell c 1) 1 ∅ 0)
    ∗ (atPos ER (sendCell c 2) 0 ∅ 0)
    ∗ (atPos ER (sendCell c 3) 0 ∅ 0)
    ∗ (atPos ER (sendCell c 4) 0 ∅ 0)
    ∗ (atPos ER (sendCell c 5) 0 ∅ 0)
    ∗ (atPos ER (sendCell c 6) 0 ∅ 0)
    ∗ (atPos ER (recvCell c 0) 1 ∅ 0)
    ∗ (atPos ER (recvCell c 1) 1 ∅ 0)
    ∗ (atPos ER (recvCell c 2) 1 ∅ 0)
    ∗ (atPos ER (recvCell c 3) 0 ∅ 0)
    ∗ (atPos ER (recvCell c 4) 0 ∅ 0)
    ∗ (atPos ER (recvCell c 5) 0 ∅ 0)
    ∗ (atPos ER (recvCell c 6) 0 ∅ 0)
    ∗ (cred (tallyAt (recvCell c 3) () Nrow))
    ∗ (cred (tallyAt (recvCell c 4) () Nrow))
    ∗ (cred (tallyAt (recvCell c 5) () Nrow))
    ∗ (cred (tallyAt (recvCell c 6) () Nrow))
    ∗ (cred (tallyAt (sendCell c 2) () Nrow))
    ∗ (cred (tallyAt (sendCell c 3) () Nrow))
    ∗ (cred (tallyAt (sendCell c 4) () Nrow))
    ∗ (cred (tallyAt (sendCell c 5) () Nrow))
    ∗ (cred (tallyAt (sendCell c 6) () Nrow))
    ∗ ((rowM c).view.loc (c : Thread nD τ) ↦[(rowM c).view.set]{keep} gath m)
    ∗ ((rowM c).view.loc (c : Thread nD τ) ↦[(rowM c).view.set]{shr 0} gath m)
    ∗ ((rowM c).view.loc (c : Thread nD τ) ↦[(rowM c).view.set]{shr 1} gath m)
    ∗ ((rowM (peer c 6)).view.loc (c : Thread nD τ) ↦[(rowM (peer c 6)).view.set]{fullShare} gath m)
    ∗ ((rowM (peer c 5)).view.loc (c : Thread nD τ) ↦[(rowM (peer c 5)).view.set]{fullShare} gath m)
    ∗ ((rowM (peer c 4)).view.loc (c : Thread nD τ) ↦[(rowM (peer c 4)).view.set]{fullShare} gath m)
    ∗ (∃ W, owes (c : Thread nD τ) (0) W))

/-- Before part 7. -/
def St6 (K : Dev nD × CK → ℕ) (c : Dev nD) : sProp 𝕄 :=
  iprop((records m K)
    ∗ (levAts L lv)
    ∗ (∃ f, vPts c f)
    ∗ (oPts c (m ((c : Thread nD τ).loc main_v1)))
    ∗ ((Memref.whole cc0_stg0_0).view.loc (c : Thread nD τ) ↦{fullShare} xstg m c)
    ∗ ((Memref.whole cc0_stg1_0).view.loc (c : Thread nD τ) ↦{fullShare} gstg m c)
    ∗ (bigSep Finset.univ fun i : Fin 4 => atPos ER (cpCell c i) 0 ∅ 0)
    ∗ (bigSep Finset.univ fun i : Fin 4 => dutyTok ER (cpCell c i) 0 0)
    ∗ (atPos ER (sendCell c 0) 1 ∅ 0)
    ∗ (atPos ER (sendCell c 1) 1 ∅ 0)
    ∗ (atPos ER (sendCell c 2) 1 ∅ 0)
    ∗ (atPos ER (sendCell c 3) 1 ∅ 0)
    ∗ (atPos ER (sendCell c 4) 0 ∅ 0)
    ∗ (atPos ER (sendCell c 5) 0 ∅ 0)
    ∗ (atPos ER (sendCell c 6) 0 ∅ 0)
    ∗ (atPos ER (recvCell c 0) 1 ∅ 0)
    ∗ (atPos ER (recvCell c 1) 1 ∅ 0)
    ∗ (atPos ER (recvCell c 2) 1 ∅ 0)
    ∗ (atPos ER (recvCell c 3) 1 ∅ 0)
    ∗ (atPos ER (recvCell c 4) 1 ∅ 0)
    ∗ (atPos ER (recvCell c 5) 0 ∅ 0)
    ∗ (atPos ER (recvCell c 6) 0 ∅ 0)
    ∗ (cred (tallyAt (recvCell c 5) () Nrow))
    ∗ (cred (tallyAt (recvCell c 6) () Nrow))
    ∗ (cred (tallyAt (sendCell c 4) () Nrow))
    ∗ (cred (tallyAt (sendCell c 5) () Nrow))
    ∗ (cred (tallyAt (sendCell c 6) () Nrow))
    ∗ ((rowM c).view.loc (c : Thread nD τ) ↦[(rowM c).view.set]{keep} gath m)
    ∗ ((rowM c).view.loc (c : Thread nD τ) ↦[(rowM c).view.set]{shr 0} gath m)
    ∗ ((rowM c).view.loc (c : Thread nD τ) ↦[(rowM c).view.set]{shr 1} gath m)
    ∗ ((rowM c).view.loc (c : Thread nD τ) ↦[(rowM c).view.set]{shr 2} gath m)
    ∗ ((rowM c).view.loc (c : Thread nD τ) ↦[(rowM c).view.set]{shr 3} gath m)
    ∗ ((rowM (peer c 6)).view.loc (c : Thread nD τ) ↦[(rowM (peer c 6)).view.set]{fullShare} gath m)
    ∗ ((rowM (peer c 5)).view.loc (c : Thread nD τ) ↦[(rowM (peer c 5)).view.set]{fullShare} gath m)
    ∗ ((rowM (peer c 4)).view.loc (c : Thread nD τ) ↦[(rowM (peer c 4)).view.set]{fullShare} gath m)
    ∗ ((rowM (peer c 3)).view.loc (c : Thread nD τ) ↦[(rowM (peer c 3)).view.set]{fullShare} gath m)
    ∗ ((rowM (peer c 2)).view.loc (c : Thread nD τ) ↦[(rowM (peer c 2)).view.set]{fullShare} gath m)
    ∗ (∃ W, owes (c : Thread nD τ) (0) W))

end Cert.KernelIdeal.Parts

end
-- ==== Proof.Part1.lean ====
/-
  Part one of the body: the device reads its index and signals the barrier cells of its first five peers, handing each the peer's row of its own gather buffer.
-/
import proofs.«901005_g7700000000001006_dist_rmsnorm_colshard_i_m4096_n1024_v7x_i8_bf16_1_alg».proof.Proof.PartsDefs

noncomputable section

namespace Cert.KernelIdeal.Part1

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- Signals 0 to 4. -/
theorem part1_run (K : Dev nD × CK → ℕ) (c : Dev nD)
    (Q : (Σ' (d0 : Dev nD) (v2 : BitVec 32) (v3 : Sems sig S_) (v24 : BitVec 32), BitVec 32) → sProp 𝕄) :
    iprop(St0 m K c ∗ (St1 m K c -∗ Q ⟨c, v2w c, SemArray.scalar (sig.barrier 0 rfl), Scalar.addi (v2w c) 6#32, 8#32⟩))
      ⊢ wp frame (wpE (defs₀ (F := F)) 𝒱₀ c none) Set.univ (k0_part1 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4) Q := by
  unfold St0
  iintro ⟨⟨#Hrec, #Hlev, Hv, Ho, Hx, Hg, HaC, HtC, HaB, HcB, HaS0, HaS1, HaS2, HaS3, HaS4, HaS5, HaS6, HaV0, HaV1, HaV2, HaV3, HaV4, HaV5, HaV6, HtB0, ⟨%fr0, Hrow0⟩, HtB1, ⟨%fr1, Hrow1⟩, HtB2, ⟨%fr2, Hrow2⟩, HtB3, ⟨%fr3, Hrow3⟩, HtB4, ⟨%fr4, Hrow4⟩, HtB5, ⟨%fr5, Hrow5⟩, HtB6, ⟨%fr6, Hrow6⟩, HtV0, HtS0, HtV1, HtS1, HtV2, HtS2, HtV3, HtS3, HtV4, HtS4, HtV5, HtS5, HtV6, HtS6, HcV0, HcV1, HcV2, HcV3, HcV4, HcV5, HcV6, ⟨%fa, Hown⟩, ⟨%W, HO⟩⟩, Hk⟩
  ihave #HIbP0 := (inv_at m K (peer c 0, .bar)) $$ Hrec
  ihave #HrBP0 := (reached_at m K (peer c 0, .bar)) $$ Hrec
  ihave #HrV6 := (reached_at m K (c, .recv 6)) $$ Hrec
  ihave #HIbP1 := (inv_at m K (peer c 1, .bar)) $$ Hrec
  ihave #HrBP1 := (reached_at m K (peer c 1, .bar)) $$ Hrec
  ihave #HrV5 := (reached_at m K (c, .recv 5)) $$ Hrec
  ihave #HIbP2 := (inv_at m K (peer c 2, .bar)) $$ Hrec
  ihave #HrBP2 := (reached_at m K (peer c 2, .bar)) $$ Hrec
  ihave #HrV4 := (reached_at m K (c, .recv 4)) $$ Hrec
  ihave #HIbP3 := (inv_at m K (peer c 3, .bar)) $$ Hrec
  ihave #HrBP3 := (reached_at m K (peer c 3, .bar)) $$ Hrec
  ihave #HrV3 := (reached_at m K (c, .recv 3)) $$ Hrec
  ihave #HIbP4 := (inv_at m K (peer c 4, .bar)) $$ Hrec
  ihave #HrBP4 := (reached_at m K (peer c 4, .bar)) $$ Hrec
  ihave #HrV2 := (reached_at m K (c, .recv 2)) $$ Hrec
  rw [show O₀ c = B1 c + bT c 0 from rfl]
  sl_exec
  -- signal 0: to device peer c 0, paying duty 6 of its barrier cell with that device's row of this gather buffer
  iapply (Rounds.wp_signal 𝒱₀ ER (sched m) (c : Thread nD τ) none (dst := (peer c 0 : Thread nD τ)) (κ := K (peer c 0, .bar))
      (d := (0 : Fin 7).rev) (by rw [duties_bar]; exact Finset.mem_univ _) ((amount_bar m (peer c 0) _).trans (by decide)) () (B1 c) rfl)
    $$ [HO HtB0 Hrow0]
  · isplitr; · iexact HIbP0
    isplitl [HO]; · iexact HO
    isplitl [HtB0]; · iexact HtB0
    isplitl [Hrow0]
    · rw [payload_bar_to]
      isplitl [Hrow0]; · iexists fr0; iexact Hrow0
      iexact HrV6
    · iexact HrBP0
  iintro HO
  sl_exec
  -- signal 1: to device peer c 1, paying duty 5 of its barrier cell with that device's row of this gather buffer
  iapply (Rounds.wp_signal 𝒱₀ ER (sched m) (c : Thread nD τ) none (dst := (peer c 1 : Thread nD τ)) (κ := K (peer c 1, .bar))
      (d := (1 : Fin 7).rev) (by rw [duties_bar]; exact Finset.mem_univ _) ((amount_bar m (peer c 1) _).trans (by decide)) () (B2 c) rfl)
    $$ [HO HtB1 Hrow1]
  · isplitr; · iexact HIbP1
    isplitl [HO]; · iexact HO
    isplitl [HtB1]; · iexact HtB1
    isplitl [Hrow1]
    · rw [payload_bar_to]
      isplitl [Hrow1]; · iexists fr1; iexact Hrow1
      iexact HrV5
    · iexact HrBP1
  iintro HO
  sl_exec
  -- signal 2: to device peer c 2, paying duty 4 of its barrier cell with that device's row of this gather buffer
  iapply (Rounds.wp_signal 𝒱₀ ER (sched m) (c : Thread nD τ) none (dst := (peer c 2 : Thread nD τ)) (κ := K (peer c 2, .bar))
      (d := (2 : Fin 7).rev) (by rw [duties_bar]; exact Finset.mem_univ _) ((amount_bar m (peer c 2) _).trans (by decide)) () (B3 c) rfl)
    $$ [HO HtB2 Hrow2]
  · isplitr; · iexact HIbP2
    isplitl [HO]; · iexact HO
    isplitl [HtB2]; · iexact HtB2
    isplitl [Hrow2]
    · rw [payload_bar_to]
      isplitl [Hrow2]; · iexists fr2; iexact Hrow2
      iexact HrV4
    · iexact HrBP2
  iintro HO
  sl_exec
  -- signal 3: to device peer c 3, paying duty 3 of its barrier cell with that device's row of this gather buffer
  iapply (Rounds.wp_signal 𝒱₀ ER (sched m) (c : Thread nD τ) none (dst := (peer c 3 : Thread nD τ)) (κ := K (peer c 3, .bar))
      (d := (3 : Fin 7).rev) (by rw [duties_bar]; exact Finset.mem_univ _) ((amount_bar m (peer c 3) _).trans (by decide)) () (B4 c) rfl)
    $$ [HO HtB3 Hrow3]
  · isplitr; · iexact HIbP3
    isplitl [HO]; · iexact HO
    isplitl [HtB3]; · iexact HtB3
    isplitl [Hrow3]
    · rw [payload_bar_to]
      isplitl [Hrow3]; · iexists fr3; iexact Hrow3
      iexact HrV3
    · iexact HrBP3
  iintro HO
  sl_exec
  -- signal 4: to device peer c 4, paying duty 2 of its barrier cell with that device's row of this gather buffer
  iapply (Rounds.wp_signal 𝒱₀ ER (sched m) (c : Thread nD τ) none (dst := (peer c 4 : Thread nD τ)) (κ := K (peer c 4, .bar))
      (d := (4 : Fin 7).rev) (by rw [duties_bar]; exact Finset.mem_univ _) ((amount_bar m (peer c 4) _).trans (by decide)) () (B5 c) rfl)
    $$ [HO HtB4 Hrow4]
  · isplitr; · iexact HIbP4
    isplitl [HO]; · iexact HO
    isplitl [HtB4]; · iexact HtB4
    isplitl [Hrow4]
    · rw [payload_bar_to]
      isplitl [Hrow4]; · iexists fr4; iexact Hrow4
      iexact HrV2
    · iexact HrBP4
  iintro HO
  sl_exec
  rw [wp_ret]; imodintro
  sl_unfold_words
  iapply Hk
  unfold St1
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaB]; · iexact HaB
  isplitl [HcB]; · iexact HcB
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HtB5]; · iexact HtB5
  isplitl [Hrow5]; · iexists _; iexact Hrow5
  isplitl [HtB6]; · iexact HtB6
  isplitl [Hrow6]; · iexists _; iexact Hrow6
  isplitl [HtV0]; · iexact HtV0
  isplitl [HtS0]; · iexact HtS0
  isplitl [HtV1]; · iexact HtV1
  isplitl [HtS1]; · iexact HtS1
  isplitl [HtV2]; · iexact HtV2
  isplitl [HtS2]; · iexact HtS2
  isplitl [HtV3]; · iexact HtV3
  isplitl [HtS3]; · iexact HtS3
  isplitl [HtV4]; · iexact HtV4
  isplitl [HtS4]; · iexact HtS4
  isplitl [HtV5]; · iexact HtV5
  isplitl [HtS5]; · iexact HtS5
  isplitl [HtV6]; · iexact HtV6
  isplitl [HtS6]; · iexact HtS6
  isplitl [HcV0]; · iexact HcV0
  isplitl [HcV1]; · iexact HcV1
  isplitl [HcV2]; · iexact HcV2
  isplitl [HcV3]; · iexact HcV3
  isplitl [HcV4]; · iexact HcV4
  isplitl [HcV5]; · iexact HcV5
  isplitl [HcV6]; · iexact HcV6
  isplitl [Hown]; · iexists _; iexact Hown
  iexists _; iexact HO

/-- info: 'Cert.KernelIdeal.Part1.part1_run' depends on axioms: [propext, Classical.choice, Quot.sound] -/
#guard_msgs in #print axioms part1_run

end Cert.KernelIdeal.Part1

end
-- ==== Proof.Part2.lean ====
/-
  Part two of the body: the last two signals; the partial sums of the device's block, stored in its own row of the gather buffer; the wait for the seven peers' units, which brings row c of each peer's gather buffer; the own row shared out among the seven copies; the first copy.
-/
import proofs.«901005_g7700000000001006_dist_rmsnorm_colshard_i_m4096_n1024_v7x_i8_bf16_1_alg».proof.Proof.PartsDefs

noncomputable section

namespace Cert.KernelIdeal.Part2

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

/-- After the own-row store the own row holds what the gathered buffer holds there (the block of x as the load read it). -/
theorem own_row_val (c : Dev nD) (fa : Buf (Elt F) ((c : Thread nD τ).loc cc0_scratch1)) :
    ∀ i ∈ (rowM c).view.set, (aM.access (Views.ownRect c)).write (Elt F) fa (k0_pay2 (xld m c)) Finset.univ i = gath m i := by
  intro i hi; rw [xld_eq]; exact Views.row_store_val m c fa i hi

set_option maxHeartbeats 4000000 in
/-- Signals 5 and 6, the own row, the barrier wait, copy 0. -/
theorem part2_run (K : Dev nD × CK → ℕ) (c : Dev nD) (v2 v24 c8 : BitVec 32)
    (Q : (Σ' (v33 : FVec F S4096x1024 .f32), BitVec 32) → sProp 𝕄) :
    iprop(St1 m K c ∗ (St2 m K c -∗ Q ⟨k0_pay1 (xld m c), Scalar.remsi (Scalar.addi v2 2#32) 8#32⟩))
      ⊢ wp frame (wpE (defs₀ (F := F)) 𝒱₀ c none) Set.univ (k0_part2 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2 (SemArray.scalar (sig.barrier 0 rfl)) v24 c8) Q := by
  unfold St1
  iintro ⟨⟨#Hrec, #Hlev, Hv, Ho, Hx, Hg, HaC, HtC, HaB, HcB, HaS0, HaS1, HaS2, HaS3, HaS4, HaS5, HaS6, HaV0, HaV1, HaV2, HaV3, HaV4, HaV5, HaV6, HtB5, ⟨%fr5, Hrow5⟩, HtB6, ⟨%fr6, Hrow6⟩, HtV0, HtS0, HtV1, HtS1, HtV2, HtS2, HtV3, HtS3, HtV4, HtS4, HtV5, HtS5, HtV6, HtS6, HcV0, HcV1, HcV2, HcV3, HcV4, HcV5, HcV6, ⟨%fa, Hown⟩, ⟨%W, HO⟩⟩, Hk⟩
  ihave #HIbP5 := (inv_at m K (peer c 5, .bar)) $$ Hrec
  ihave #HrBP5 := (reached_at m K (peer c 5, .bar)) $$ Hrec
  ihave #HrV1 := (reached_at m K (c, .recv 1)) $$ Hrec
  ihave #HIbP6 := (inv_at m K (peer c 6, .bar)) $$ Hrec
  ihave #HrBP6 := (reached_at m K (peer c 6, .bar)) $$ Hrec
  ihave #HrV0 := (reached_at m K (c, .recv 0)) $$ Hrec
  ihave #HIbar := (inv_at m K (c, .bar)) $$ Hrec
  ihave #HIsnd0 := (inv_at m K (c, .send 0)) $$ Hrec
  ihave #HrS0 := (reached_at m K (c, .send 0)) $$ Hrec
  ihave #HIvP0 := (inv_at m K (peer c 0, .recv 0)) $$ Hrec
  ihave #HrVP0 := (reached_at m K (peer c 0, .recv 0)) $$ Hrec
  have hmw := mayWait_bar (F := F) c
  sl_exec
  -- signal 5: to device peer c 5, paying duty 1 of its barrier cell with that device's row of this gather buffer
  iapply (Rounds.wp_signal 𝒱₀ ER (sched m) (c : Thread nD τ) none (dst := (peer c 5 : Thread nD τ)) (κ := K (peer c 5, .bar))
      (d := (5 : Fin 7).rev) (by rw [duties_bar]; exact Finset.mem_univ _) ((amount_bar m (peer c 5) _).trans (by decide)) () (B6 c) rfl)
    $$ [HO HtB5 Hrow5]
  · isplitr; · iexact HIbP5
    isplitl [HO]; · iexact HO
    isplitl [HtB5]; · iexact HtB5
    isplitl [Hrow5]
    · rw [payload_bar_to]
      isplitl [Hrow5]; · iexists fr5; iexact Hrow5
      iexact HrV1
    · iexact HrBP5
  iintro HO
  sl_exec
  -- signal 6: to device peer c 6, paying duty 0 of its barrier cell with that device's row of this gather buffer
  iapply (Rounds.wp_signal 𝒱₀ ER (sched m) (c : Thread nD τ) none (dst := (peer c 6 : Thread nD τ)) (κ := K (peer c 6, .bar))
      (d := (6 : Fin 7).rev) (by rw [duties_bar]; exact Finset.mem_univ _) ((amount_bar m (peer c 6) _).trans (by decide)) () (R0 c) rfl)
    $$ [HO HtB6 Hrow6]
  · isplitr; · iexact HIbP6
    isplitl [HO]; · iexact HO
    isplitl [HtB6]; · iexact HtB6
    isplitl [Hrow6]
    · rw [payload_bar_to]
      isplitl [Hrow6]; · iexists fr6; iexact Hrow6
      iexact HrV0
    · iexact HrBP6
  iintro HO
  sl_exec
  -- the barrier wait has brought the seven peers' payloads: row c of each peer's gather buffer
  ihave Hp := (Entails.of_eq (bigSep_fin7 _)) $$ HaB_pay1
  icases Hp with ⟨Hp0, Hp1, Hp2, Hp3, Hp4, Hp5, Hp6⟩
  ihave Hq0 := (Entails.of_eq (payload_bar_k m c 0)) $$ Hp0
  unfold barPay
  icases Hq0 with ⟨⟨%f0, Hpr0⟩, -⟩
  ihave Hq1 := (Entails.of_eq (payload_bar_k m c 1)) $$ Hp1
  unfold barPay
  icases Hq1 with ⟨⟨%f1, Hpr1⟩, -⟩
  ihave Hq2 := (Entails.of_eq (payload_bar_k m c 2)) $$ Hp2
  unfold barPay
  icases Hq2 with ⟨⟨%f2, Hpr2⟩, -⟩
  ihave Hq3 := (Entails.of_eq (payload_bar_k m c 3)) $$ Hp3
  unfold barPay
  icases Hq3 with ⟨⟨%f3, Hpr3⟩, -⟩
  ihave Hq4 := (Entails.of_eq (payload_bar_k m c 4)) $$ Hp4
  unfold barPay
  icases Hq4 with ⟨⟨%f4, Hpr4⟩, -⟩
  ihave Hq5 := (Entails.of_eq (payload_bar_k m c 5)) $$ Hp5
  unfold barPay
  icases Hq5 with ⟨⟨%f5, Hpr5⟩, -⟩
  ihave Hq6 := (Entails.of_eq (payload_bar_k m c 6)) $$ Hp6
  unfold barPay
  icases Hq6 with ⟨⟨%f6, Hpr6⟩, -⟩
  -- the own row now holds the device's partial sums: what the gathered buffer holds there
  unfold part2_run.sl.Hown_w1
  ihave Hown := (Entails.of_eq (pointsTo_congr (own_row_val m c fa))) $$ Hown
  -- one share of it for each of the seven copies
  ihave Hsp := (Transfers.pointsTo_toks_split fullShare 7) $$ Hown
  icases Hsp with ⟨Hkeep, Hshs⟩
  ihave Hshs' := (Entails.of_eq (bigSep_fin7 _)) $$ Hshs
  icases Hshs' with ⟨Hsh0, Hsh1, Hsh2, Hsh3, Hsh4, Hsh5, Hsh6⟩

  -- copy 0: the own row, at its share 0, onto row c of the gather buffer of peer c 0
  iapply (wp_send_row m K c _ 0 (dev8_eq c) f0 (R1 c) _) $$ [Hsh0 Hpr0 HO HtS0 HtV0]
  · isplitr; · iexact HIsnd0
    isplitr; · iexact HIvP0
    isplitl [Hsh0]; · iexact Hsh0
    isplitl [Hpr0]; · iexact Hpr0
    isplitl [HO]; · iexact HO
    isplitl [HtS0]; · iexact HtS0
    isplitr; · iexact HrS0
    isplitl [HtV0]; · iexact HtV0
    iexact HrVP0
  iintro ⟨HcS0, HO⟩
  sl_exec
  rw [wp_ret]; imodintro
  sl_unfold_words
  iapply Hk
  unfold St2
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HtV1]; · iexact HtV1
  isplitl [HtS1]; · iexact HtS1
  isplitl [HtV2]; · iexact HtV2
  isplitl [HtS2]; · iexact HtS2
  isplitl [HtV3]; · iexact HtV3
  isplitl [HtS3]; · iexact HtS3
  isplitl [HtV4]; · iexact HtV4
  isplitl [HtS4]; · iexact HtS4
  isplitl [HtV5]; · iexact HtV5
  isplitl [HtS5]; · iexact HtS5
  isplitl [HtV6]; · iexact HtV6
  isplitl [HtS6]; · iexact HtS6
  isplitl [HcV0]; · iexact HcV0
  isplitl [HcV1]; · iexact HcV1
  isplitl [HcV2]; · iexact HcV2
  isplitl [HcV3]; · iexact HcV3
  isplitl [HcV4]; · iexact HcV4
  isplitl [HcV5]; · iexact HcV5
  isplitl [HcV6]; · iexact HcV6
  isplitl [HcS0]; · iexact HcS0
  isplitl [Hkeep]; · iexact Hkeep
  isplitl [Hsh1]; · iexact Hsh1
  isplitl [Hsh2]; · iexact Hsh2
  isplitl [Hsh3]; · iexact Hsh3
  isplitl [Hsh4]; · iexact Hsh4
  isplitl [Hsh5]; · iexact Hsh5
  isplitl [Hsh6]; · iexact Hsh6
  isplitl [Hpr1]; · iexists _; iexact Hpr1
  isplitl [Hpr2]; · iexists _; iexact Hpr2
  isplitl [Hpr3]; · iexists _; iexact Hpr3
  isplitl [Hpr4]; · iexists _; iexact Hpr4
  isplitl [Hpr5]; · iexists _; iexact Hpr5
  isplitl [Hpr6]; · iexists _; iexact Hpr6
  iexists _; iexact HO

/-- info: 'Cert.KernelIdeal.Part2.part2_run' depends on axioms: [propext, Classical.choice, Quot.sound] -/
#guard_msgs in #print axioms part2_run

end Cert.KernelIdeal.Part2

end
-- ==== Proof.Part3.lean ====
/-
  Part three of the body: the copies of the device's own row to its second, third and fourth peers.
-/
import proofs.«901005_g7700000000001006_dist_rmsnorm_colshard_i_m4096_n1024_v7x_i8_bf16_1_alg».proof.Proof.PartsDefs

noncomputable section

namespace Cert.KernelIdeal.Part3

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- Copies 1, 2, 3. -/
theorem part3_run (K : Dev nD × CK → ℕ) (c : Dev nD) (v2 v53 : BitVec 32)
    (Q : (Σ' (v84 : BitVec 32), BitVec 32) → sProp 𝕄) :
    iprop(St2 m K c ∗ (St3 m K c -∗ Q ⟨Scalar.muli (Scalar.remsi (Scalar.addi v2 5#32) 8#32) 1#32, 0#32⟩))
      ⊢ wp frame (wpE (defs₀ (F := F)) 𝒱₀ c none) Set.univ (k0_part3 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2 v53) Q := by
  unfold St2
  iintro ⟨⟨#Hrec, #Hlev, Hv, Ho, Hx, Hg, HaC, HtC, HaS0, HaS1, HaS2, HaS3, HaS4, HaS5, HaS6, HaV0, HaV1, HaV2, HaV3, HaV4, HaV5, HaV6, HtV1, HtS1, HtV2, HtS2, HtV3, HtS3, HtV4, HtS4, HtV5, HtS5, HtV6, HtS6, HcV0, HcV1, HcV2, HcV3, HcV4, HcV5, HcV6, HcS0, Hkeep, Hsh1, Hsh2, Hsh3, Hsh4, Hsh5, Hsh6, ⟨%f1, Hpr1⟩, ⟨%f2, Hpr2⟩, ⟨%f3, Hpr3⟩, ⟨%f4, Hpr4⟩, ⟨%f5, Hpr5⟩, ⟨%f6, Hpr6⟩, ⟨%W, HO⟩⟩, Hk⟩
  ihave #HIsnd1 := (inv_at m K (c, .send 1)) $$ Hrec
  ihave #HrS1 := (reached_at m K (c, .send 1)) $$ Hrec
  ihave #HIvP1 := (inv_at m K (peer c 1, .recv 1)) $$ Hrec
  ihave #HrVP1 := (reached_at m K (peer c 1, .recv 1)) $$ Hrec
  ihave #HIsnd2 := (inv_at m K (c, .send 2)) $$ Hrec
  ihave #HrS2 := (reached_at m K (c, .send 2)) $$ Hrec
  ihave #HIvP2 := (inv_at m K (peer c 2, .recv 2)) $$ Hrec
  ihave #HrVP2 := (reached_at m K (peer c 2, .recv 2)) $$ Hrec
  ihave #HIsnd3 := (inv_at m K (c, .send 3)) $$ Hrec
  ihave #HrS3 := (reached_at m K (c, .send 3)) $$ Hrec
  ihave #HIvP3 := (inv_at m K (peer c 3, .recv 3)) $$ Hrec
  ihave #HrVP3 := (reached_at m K (peer c 3, .recv 3)) $$ Hrec
  sl_exec
  -- copy 1: the own row, at its share 1, onto row c of the gather buffer of peer c 1
  iapply (wp_send_row m K c _ 1 (dev9_eq c) f1 (R2 c) _) $$ [Hsh1 Hpr1 HO HtS1 HtV1]
  · isplitr; · iexact HIsnd1
    isplitr; · iexact HIvP1
    isplitl [Hsh1]; · iexact Hsh1
    isplitl [Hpr1]; · iexact Hpr1
    isplitl [HO]; · iexact HO
    isplitl [HtS1]; · iexact HtS1
    isplitr; · iexact HrS1
    isplitl [HtV1]; · iexact HtV1
    iexact HrVP1
  iintro ⟨HcS1, HO⟩
  sl_exec
  -- copy 2: the own row, at its share 2, onto row c of the gather buffer of peer c 2
  iapply (wp_send_row m K c _ 2 (dev10_eq c) f2 (R3 c) _) $$ [Hsh2 Hpr2 HO HtS2 HtV2]
  · isplitr; · iexact HIsnd2
    isplitr; · iexact HIvP2
    isplitl [Hsh2]; · iexact Hsh2
    isplitl [Hpr2]; · iexact Hpr2
    isplitl [HO]; · iexact HO
    isplitl [HtS2]; · iexact HtS2
    isplitr; · iexact HrS2
    isplitl [HtV2]; · iexact HtV2
    iexact HrVP2
  iintro ⟨HcS2, HO⟩
  sl_exec
  -- copy 3: the own row, at its share 3, onto row c of the gather buffer of peer c 3
  iapply (wp_send_row m K c _ 3 (dev11_eq c) f3 (R4 c) _) $$ [Hsh3 Hpr3 HO HtS3 HtV3]
  · isplitr; · iexact HIsnd3
    isplitr; · iexact HIvP3
    isplitl [Hsh3]; · iexact Hsh3
    isplitl [Hpr3]; · iexact Hpr3
    isplitl [HO]; · iexact HO
    isplitl [HtS3]; · iexact HtS3
    isplitr; · iexact HrS3
    isplitl [HtV3]; · iexact HtV3
    iexact HrVP3
  iintro ⟨HcS3, HO⟩
  sl_exec
  rw [wp_ret]; imodintro
  sl_unfold_words
  iapply Hk
  unfold St3
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HtV4]; · iexact HtV4
  isplitl [HtS4]; · iexact HtS4
  isplitl [HtV5]; · iexact HtV5
  isplitl [HtS5]; · iexact HtS5
  isplitl [HtV6]; · iexact HtV6
  isplitl [HtS6]; · iexact HtS6
  isplitl [HcV0]; · iexact HcV0
  isplitl [HcV1]; · iexact HcV1
  isplitl [HcV2]; · iexact HcV2
  isplitl [HcV3]; · iexact HcV3
  isplitl [HcV4]; · iexact HcV4
  isplitl [HcV5]; · iexact HcV5
  isplitl [HcV6]; · iexact HcV6
  isplitl [HcS0]; · iexact HcS0
  isplitl [HcS1]; · iexact HcS1
  isplitl [HcS2]; · iexact HcS2
  isplitl [HcS3]; · iexact HcS3
  isplitl [Hkeep]; · iexact Hkeep
  isplitl [Hsh4]; · iexact Hsh4
  isplitl [Hsh5]; · iexact Hsh5
  isplitl [Hsh6]; · iexact Hsh6
  isplitl [Hpr4]; · iexists _; iexact Hpr4
  isplitl [Hpr5]; · iexists _; iexact Hpr5
  isplitl [Hpr6]; · iexists _; iexact Hpr6
  iexists _; iexact HO

/-- info: 'Cert.KernelIdeal.Part3.part3_run' depends on axioms: [propext, Classical.choice, Quot.sound] -/
#guard_msgs in #print axioms part3_run

end Cert.KernelIdeal.Part3

end
-- ==== Proof.Part4.lean ====
/-
  Part four of the body: the copies of the device's own row to its last three peers; after them the device owes nothing.
-/
import proofs.«901005_g7700000000001006_dist_rmsnorm_colshard_i_m4096_n1024_v7x_i8_bf16_1_alg».proof.Proof.PartsDefs

noncomputable section

namespace Cert.KernelIdeal.Part4

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- Copies 4, 5, 6. -/
theorem part4_run (K : Dev nD × CK → ℕ) (c : Dev nD) (v2 v84 c0 : BitVec 32)
    (Q : PUnit → sProp 𝕄) :
    iprop(St3 m K c ∗ (St4 m K c -∗ Q ⟨⟩))
      ⊢ wp frame (wpE (defs₀ (F := F)) 𝒱₀ c none) Set.univ (k0_part4 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2 v84 c0) Q := by
  unfold St3
  iintro ⟨⟨#Hrec, #Hlev, Hv, Ho, Hx, Hg, HaC, HtC, HaS0, HaS1, HaS2, HaS3, HaS4, HaS5, HaS6, HaV0, HaV1, HaV2, HaV3, HaV4, HaV5, HaV6, HtV4, HtS4, HtV5, HtS5, HtV6, HtS6, HcV0, HcV1, HcV2, HcV3, HcV4, HcV5, HcV6, HcS0, HcS1, HcS2, HcS3, Hkeep, Hsh4, Hsh5, Hsh6, ⟨%f4, Hpr4⟩, ⟨%f5, Hpr5⟩, ⟨%f6, Hpr6⟩, ⟨%W, HO⟩⟩, Hk⟩
  ihave #HIsnd4 := (inv_at m K (c, .send 4)) $$ Hrec
  ihave #HrS4 := (reached_at m K (c, .send 4)) $$ Hrec
  ihave #HIvP4 := (inv_at m K (peer c 4, .recv 4)) $$ Hrec
  ihave #HrVP4 := (reached_at m K (peer c 4, .recv 4)) $$ Hrec
  ihave #HIsnd5 := (inv_at m K (c, .send 5)) $$ Hrec
  ihave #HrS5 := (reached_at m K (c, .send 5)) $$ Hrec
  ihave #HIvP5 := (inv_at m K (peer c 5, .recv 5)) $$ Hrec
  ihave #HrVP5 := (reached_at m K (peer c 5, .recv 5)) $$ Hrec
  ihave #HIsnd6 := (inv_at m K (c, .send 6)) $$ Hrec
  ihave #HrS6 := (reached_at m K (c, .send 6)) $$ Hrec
  ihave #HIvP6 := (inv_at m K (peer c 6, .recv 6)) $$ Hrec
  ihave #HrVP6 := (reached_at m K (peer c 6, .recv 6)) $$ Hrec
  sl_exec
  -- copy 4: the own row, at its share 4, onto row c of the gather buffer of peer c 4
  iapply (wp_send_row m K c _ 4 (dev12_eq c) f4 (R5 c) _) $$ [Hsh4 Hpr4 HO HtS4 HtV4]
  · isplitr; · iexact HIsnd4
    isplitr; · iexact HIvP4
    isplitl [Hsh4]; · iexact Hsh4
    isplitl [Hpr4]; · iexact Hpr4
    isplitl [HO]; · iexact HO
    isplitl [HtS4]; · iexact HtS4
    isplitr; · iexact HrS4
    isplitl [HtV4]; · iexact HtV4
    iexact HrVP4
  iintro ⟨HcS4, HO⟩
  sl_exec
  -- copy 5: the own row, at its share 5, onto row c of the gather buffer of peer c 5
  iapply (wp_send_row m K c _ 5 (dev13_eq c) f5 (R6 c) _) $$ [Hsh5 Hpr5 HO HtS5 HtV5]
  · isplitr; · iexact HIsnd5
    isplitr; · iexact HIvP5
    isplitl [Hsh5]; · iexact Hsh5
    isplitl [Hpr5]; · iexact Hpr5
    isplitl [HO]; · iexact HO
    isplitl [HtS5]; · iexact HtS5
    isplitr; · iexact HrS5
    isplitl [HtV5]; · iexact HtV5
    iexact HrVP5
  iintro ⟨HcS5, HO⟩
  sl_exec
  -- copy 6: the own row, at its share 6, onto row c of the gather buffer of peer c 6
  iapply (wp_send_row m K c _ 6 (dev14_eq c) f6 (R7 c) _) $$ [Hsh6 Hpr6 HO HtS6 HtV6]
  · isplitr; · iexact HIsnd6
    isplitr; · iexact HIvP6
    isplitl [Hsh6]; · iexact Hsh6
    isplitl [Hpr6]; · iexact Hpr6
    isplitl [HO]; · iexact HO
    isplitl [HtS6]; · iexact HtS6
    isplitr; · iexact HrS6
    isplitl [HtV6]; · iexact HtV6
    iexact HrVP6
  iintro ⟨HcS6, HO⟩
  sl_exec
  rw [wp_ret]; imodintro
  sl_unfold_words
  iapply Hk
  unfold St4
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HcV0]; · iexact HcV0
  isplitl [HcV1]; · iexact HcV1
  isplitl [HcV2]; · iexact HcV2
  isplitl [HcV3]; · iexact HcV3
  isplitl [HcV4]; · iexact HcV4
  isplitl [HcV5]; · iexact HcV5
  isplitl [HcV6]; · iexact HcV6
  isplitl [HcS0]; · iexact HcS0
  isplitl [HcS1]; · iexact HcS1
  isplitl [HcS2]; · iexact HcS2
  isplitl [HcS3]; · iexact HcS3
  isplitl [HcS4]; · iexact HcS4
  isplitl [HcS5]; · iexact HcS5
  isplitl [HcS6]; · iexact HcS6
  isplitl [Hkeep]; · iexact Hkeep
  iexists _; iexact HO

/-- info: 'Cert.KernelIdeal.Part4.part4_run' depends on axioms: [propext, Classical.choice, Quot.sound] -/
#guard_msgs in #print axioms part4_run

end Cert.KernelIdeal.Part4

end
-- ==== Proof.Part5.lean ====
/-
  Part five of the body: the waits for the first three landings and the first two departures; each landing brings the sender's row of partial sums, each departure the lent share of the own row.
-/
import proofs.«901005_g7700000000001006_dist_rmsnorm_colshard_i_m4096_n1024_v7x_i8_bf16_1_alg».proof.Proof.PartsDefs

noncomputable section

namespace Cert.KernelIdeal.Part5

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- The receive waits 0, 1, 2 and the send waits 0, 1. -/
theorem part5_run (K : Dev nD × CK → ℕ) (c : Dev nD) (v2 : BitVec 32) (Q : PUnit → sProp 𝕄) :
    iprop(St4 m K c ∗ (St5 m K c -∗ Q ⟨⟩))
      ⊢ wp frame (wpE (defs₀ (F := F)) 𝒱₀ c none) Set.univ (k0_part5 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2) Q := by
  unfold St4
  iintro ⟨⟨#Hrec, #Hlev, Hv, Ho, Hx, Hg, HaC, HtC, HaS0, HaS1, HaS2, HaS3, HaS4, HaS5, HaS6, HaV0, HaV1, HaV2, HaV3, HaV4, HaV5, HaV6, HcV0, HcV1, HcV2, HcV3, HcV4, HcV5, HcV6, HcS0, HcS1, HcS2, HcS3, HcS4, HcS5, HcS6, Hkeep, ⟨%W, HO⟩⟩, Hk⟩
  ihave #HIrcv0 := (inv_at m K (c, .recv 0)) $$ Hrec
  ihave #HIrcv1 := (inv_at m K (c, .recv 1)) $$ Hrec
  ihave #HIrcv2 := (inv_at m K (c, .recv 2)) $$ Hrec
  ihave #HIsnd0 := (inv_at m K (c, .send 0)) $$ Hrec
  ihave #HIsnd1 := (inv_at m K (c, .send 1)) $$ Hrec
  rw [k0_part5_eq_skeleton]; unfold k0_part5_skel
  simp only [Prog.lift, Prog.bind_op, Prog.bind_ret, Prog.pure_eq_ret]

  -- the wait on receive cell 0: the sender's row, landed
  iapply (Rounds.wp_wait_rest_token 𝒱₀ ER (sched m) (c : Thread nD τ) none (κ := K (c, .recv 0)) (sm := SemLoc.dma (recvS 0))
      (wpE_waitDma2_eq 𝒱₀ (c : Thread nD τ) none Set.univ) (Set.mem_univ _) () (O := 0) (R := 0) (m := 0) (T := ∅)
      (by rw [Nat.zero_add, expect_recv])) $$ [HcV0 HO HaV0]
  · isplitr; · iexact HIrcv0
    isplitl [HcV0]; · iexact HcV0
    isplitl [HO]; · iexact HO
    isplitr; · rw [MayWait_zero]; iempintro
    iexact HaV0
  iintro ⟨HO, HaV0, -, Hpay⟩
  ihave Hrw6 := (Entails.of_eq (rest_recv m c 0)) $$ Hpay

  -- the wait on send cell 0: the share lent to copy 0, back
  iapply (Rounds.wp_wait_rest_token 𝒱₀ ER (sched m) (c : Thread nD τ) none (κ := K (c, .send 0)) (sm := SemLoc.dma (sendS 0))
      (wpE_waitDma2_eq 𝒱₀ (c : Thread nD τ) none Set.univ) (Set.mem_univ _) () (O := 0) (R := 0) (m := 0) (T := ∅)
      (by rw [Nat.zero_add, expect_send])) $$ [HcS0 HO HaS0]
  · isplitr; · iexact HIsnd0
    isplitl [HcS0]; · iexact HcS0
    isplitl [HO]; · iexact HO
    isplitr; · rw [MayWait_zero]; iempintro
    iexact HaS0
  iintro ⟨HO, HaS0, -, Hpay⟩
  ihave Hsb0 := (Entails.of_eq (rest_send m c 0)) $$ Hpay

  -- the wait on receive cell 1: the sender's row, landed
  iapply (Rounds.wp_wait_rest_token 𝒱₀ ER (sched m) (c : Thread nD τ) none (κ := K (c, .recv 1)) (sm := SemLoc.dma (recvS 1))
      (wpE_waitDma2_eq 𝒱₀ (c : Thread nD τ) none Set.univ) (Set.mem_univ _) () (O := 0) (R := 0) (m := 0) (T := ∅)
      (by rw [Nat.zero_add, expect_recv])) $$ [HcV1 HO HaV1]
  · isplitr; · iexact HIrcv1
    isplitl [HcV1]; · iexact HcV1
    isplitl [HO]; · iexact HO
    isplitr; · rw [MayWait_zero]; iempintro
    iexact HaV1
  iintro ⟨HO, HaV1, -, Hpay⟩
  ihave Hrw5 := (Entails.of_eq (rest_recv m c 1)) $$ Hpay

  -- the wait on send cell 1: the share lent to copy 1, back
  iapply (Rounds.wp_wait_rest_token 𝒱₀ ER (sched m) (c : Thread nD τ) none (κ := K (c, .send 1)) (sm := SemLoc.dma (sendS 1))
      (wpE_waitDma2_eq 𝒱₀ (c : Thread nD τ) none Set.univ) (Set.mem_univ _) () (O := 0) (R := 0) (m := 0) (T := ∅)
      (by rw [Nat.zero_add, expect_send])) $$ [HcS1 HO HaS1]
  · isplitr; · iexact HIsnd1
    isplitl [HcS1]; · iexact HcS1
    isplitl [HO]; · iexact HO
    isplitr; · rw [MayWait_zero]; iempintro
    iexact HaS1
  iintro ⟨HO, HaS1, -, Hpay⟩
  ihave Hsb1 := (Entails.of_eq (rest_send m c 1)) $$ Hpay

  -- the wait on receive cell 2: the sender's row, landed
  iapply (Rounds.wp_wait_rest_token 𝒱₀ ER (sched m) (c : Thread nD τ) none (κ := K (c, .recv 2)) (sm := SemLoc.dma (recvS 2))
      (wpE_waitDma2_eq 𝒱₀ (c : Thread nD τ) none Set.univ) (Set.mem_univ _) () (O := 0) (R := 0) (m := 0) (T := ∅)
      (by rw [Nat.zero_add, expect_recv])) $$ [HcV2 HO HaV2]
  · isplitr; · iexact HIrcv2
    isplitl [HcV2]; · iexact HcV2
    isplitl [HO]; · iexact HO
    isplitr; · rw [MayWait_zero]; iempintro
    iexact HaV2
  iintro ⟨HO, HaV2, -, Hpay⟩
  ihave Hrw4 := (Entails.of_eq (rest_recv m c 2)) $$ Hpay
  unfold recvPay sendPay
  rw [wp_ret]; imodintro
  iapply Hk
  unfold St5
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HcV3]; · iexact HcV3
  isplitl [HcV4]; · iexact HcV4
  isplitl [HcV5]; · iexact HcV5
  isplitl [HcV6]; · iexact HcV6
  isplitl [HcS2]; · iexact HcS2
  isplitl [HcS3]; · iexact HcS3
  isplitl [HcS4]; · iexact HcS4
  isplitl [HcS5]; · iexact HcS5
  isplitl [HcS6]; · iexact HcS6
  isplitl [Hkeep]; · iexact Hkeep
  isplitl [Hsb0]; · iexact Hsb0
  isplitl [Hsb1]; · iexact Hsb1
  isplitl [Hrw6]; · iexact Hrw6
  isplitl [Hrw5]; · iexact Hrw5
  isplitl [Hrw4]; · iexact Hrw4
  iexists _; iexact HO

/-- info: 'Cert.KernelIdeal.Part5.part5_run' depends on axioms: [propext, Classical.choice, Quot.sound] -/
#guard_msgs in #print axioms part5_run

end Cert.KernelIdeal.Part5

end
-- ==== Proof.Part6.lean ====
/-
  Part six of the body: the waits for landings 3 and 4 and departures 2 and 3.
-/
import proofs.«901005_g7700000000001006_dist_rmsnorm_colshard_i_m4096_n1024_v7x_i8_bf16_1_alg».proof.Proof.PartsDefs

noncomputable section

namespace Cert.KernelIdeal.Part6

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- The receive waits 3, 4 and the send waits 2, 3. -/
theorem part6_run (K : Dev nD × CK → ℕ) (c : Dev nD) (v2 : BitVec 32) (Q : PUnit → sProp 𝕄) :
    iprop(St5 m K c ∗ (St6 m K c -∗ Q ⟨⟩))
      ⊢ wp frame (wpE (defs₀ (F := F)) 𝒱₀ c none) Set.univ (k0_part6 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2) Q := by
  unfold St5
  iintro ⟨⟨#Hrec, #Hlev, Hv, Ho, Hx, Hg, HaC, HtC, HaS0, HaS1, HaS2, HaS3, HaS4, HaS5, HaS6, HaV0, HaV1, HaV2, HaV3, HaV4, HaV5, HaV6, HcV3, HcV4, HcV5, HcV6, HcS2, HcS3, HcS4, HcS5, HcS6, Hkeep, Hsb0, Hsb1, Hrw6, Hrw5, Hrw4, ⟨%W, HO⟩⟩, Hk⟩
  ihave #HIrcv3 := (inv_at m K (c, .recv 3)) $$ Hrec
  ihave #HIrcv4 := (inv_at m K (c, .recv 4)) $$ Hrec
  ihave #HIsnd2 := (inv_at m K (c, .send 2)) $$ Hrec
  ihave #HIsnd3 := (inv_at m K (c, .send 3)) $$ Hrec
  rw [k0_part6_eq_skeleton]; unfold k0_part6_skel
  simp only [Prog.lift, Prog.bind_op, Prog.bind_ret, Prog.pure_eq_ret]

  -- the wait on send cell 2: the share lent to copy 2, back
  iapply (Rounds.wp_wait_rest_token 𝒱₀ ER (sched m) (c : Thread nD τ) none (κ := K (c, .send 2)) (sm := SemLoc.dma (sendS 2))
      (wpE_waitDma2_eq 𝒱₀ (c : Thread nD τ) none Set.univ) (Set.mem_univ _) () (O := 0) (R := 0) (m := 0) (T := ∅)
      (by rw [Nat.zero_add, expect_send])) $$ [HcS2 HO HaS2]
  · isplitr; · iexact HIsnd2
    isplitl [HcS2]; · iexact HcS2
    isplitl [HO]; · iexact HO
    isplitr; · rw [MayWait_zero]; iempintro
    iexact HaS2
  iintro ⟨HO, HaS2, -, Hpay⟩
  ihave Hsb2 := (Entails.of_eq (rest_send m c 2)) $$ Hpay

  -- the wait on receive cell 3: the sender's row, landed
  iapply (Rounds.wp_wait_rest_token 𝒱₀ ER (sched m) (c : Thread nD τ) none (κ := K (c, .recv 3)) (sm := SemLoc.dma (recvS 3))
      (wpE_waitDma2_eq 𝒱₀ (c : Thread nD τ) none Set.univ) (Set.mem_univ _) () (O := 0) (R := 0) (m := 0) (T := ∅)
      (by rw [Nat.zero_add, expect_recv])) $$ [HcV3 HO HaV3]
  · isplitr; · iexact HIrcv3
    isplitl [HcV3]; · iexact HcV3
    isplitl [HO]; · iexact HO
    isplitr; · rw [MayWait_zero]; iempintro
    iexact HaV3
  iintro ⟨HO, HaV3, -, Hpay⟩
  ihave Hrw3 := (Entails.of_eq (rest_recv m c 3)) $$ Hpay

  -- the wait on send cell 3: the share lent to copy 3, back
  iapply (Rounds.wp_wait_rest_token 𝒱₀ ER (sched m) (c : Thread nD τ) none (κ := K (c, .send 3)) (sm := SemLoc.dma (sendS 3))
      (wpE_waitDma2_eq 𝒱₀ (c : Thread nD τ) none Set.univ) (Set.mem_univ _) () (O := 0) (R := 0) (m := 0) (T := ∅)
      (by rw [Nat.zero_add, expect_send])) $$ [HcS3 HO HaS3]
  · isplitr; · iexact HIsnd3
    isplitl [HcS3]; · iexact HcS3
    isplitl [HO]; · iexact HO
    isplitr; · rw [MayWait_zero]; iempintro
    iexact HaS3
  iintro ⟨HO, HaS3, -, Hpay⟩
  ihave Hsb3 := (Entails.of_eq (rest_send m c 3)) $$ Hpay

  -- the wait on receive cell 4: the sender's row, landed
  iapply (Rounds.wp_wait_rest_token 𝒱₀ ER (sched m) (c : Thread nD τ) none (κ := K (c, .recv 4)) (sm := SemLoc.dma (recvS 4))
      (wpE_waitDma2_eq 𝒱₀ (c : Thread nD τ) none Set.univ) (Set.mem_univ _) () (O := 0) (R := 0) (m := 0) (T := ∅)
      (by rw [Nat.zero_add, expect_recv])) $$ [HcV4 HO HaV4]
  · isplitr; · iexact HIrcv4
    isplitl [HcV4]; · iexact HcV4
    isplitl [HO]; · iexact HO
    isplitr; · rw [MayWait_zero]; iempintro
    iexact HaV4
  iintro ⟨HO, HaV4, -, Hpay⟩
  ihave Hrw2 := (Entails.of_eq (rest_recv m c 4)) $$ Hpay
  unfold recvPay sendPay
  rw [wp_ret]; imodintro
  iapply Hk
  unfold St6
  isplitr; · iexact Hrec
  isplitr; · iexact Hlev
  isplitl [Hv]; · iexact Hv
  isplitl [Ho]; · iexact Ho
  isplitl [Hx]; · iexact Hx
  isplitl [Hg]; · iexact Hg
  isplitl [HaC]; · iexact HaC
  isplitl [HtC]; · iexact HtC
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaV0]; · iexact HaV0
  isplitl [HaV1]; · iexact HaV1
  isplitl [HaV2]; · iexact HaV2
  isplitl [HaV3]; · iexact HaV3
  isplitl [HaV4]; · iexact HaV4
  isplitl [HaV5]; · iexact HaV5
  isplitl [HaV6]; · iexact HaV6
  isplitl [HcV5]; · iexact HcV5
  isplitl [HcV6]; · iexact HcV6
  isplitl [HcS4]; · iexact HcS4
  isplitl [HcS5]; · iexact HcS5
  isplitl [HcS6]; · iexact HcS6
  isplitl [Hkeep]; · iexact Hkeep
  isplitl [Hsb0]; · iexact Hsb0
  isplitl [Hsb1]; · iexact Hsb1
  isplitl [Hsb2]; · iexact Hsb2
  isplitl [Hsb3]; · iexact Hsb3
  isplitl [Hrw6]; · iexact Hrw6
  isplitl [Hrw5]; · iexact Hrw5
  isplitl [Hrw4]; · iexact Hrw4
  isplitl [Hrw3]; · iexact Hrw3
  isplitl [Hrw2]; · iexact Hrw2
  iexists _; iexact HO

/-- info: 'Cert.KernelIdeal.Part6.part6_run' depends on axioms: [propext, Classical.choice, Quot.sound] -/
#guard_msgs in #print axioms part6_run

end Cert.KernelIdeal.Part6

end
-- ==== Proof.Part7.lean ====
/-
  Part seven of the body: the last five waits; the shares of the own row rejoined, the eight rows rejoined into the whole gather buffer, now complete; the fourteen send and receive cells closed, their semaphores back at zero; and the whole-buffer load of the gathered partial sums.
-/
import proofs.«901005_g7700000000001006_dist_rmsnorm_colshard_i_m4096_n1024_v7x_i8_bf16_1_alg».proof.Proof.PartsDefs

noncomputable section

namespace Cert.KernelIdeal.Part7

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] duties_bar duties_send duties_recv duties_cp duties_cell amount_bar amount_send amount_recv amount_cp expect_bar expect_send expect_recv expect_cp
attribute [local sl_canon] dev1_eq dev2_eq dev3_eq dev4_eq dev5_eq dev6_eq dev7_eq dev8_eq dev9_eq dev10_eq dev11_eq dev12_eq dev13_eq dev14_eq

set_option maxHeartbeats 4000000 in
/-- The last waits, the gather buffer whole again, its load. -/
theorem part7_run (K : Dev nD × CK → ℕ) (c : Dev nD) (v2 : BitVec 32) (Q : Vec F S8x4096 .f32 → sProp 𝕄) :
    iprop(St6 m K c ∗ (mid m K c -∗ Q (gld m)))
      ⊢ wp frame (wpE (defs₀ (F := F)) 𝒱₀ c none) Set.univ (k0_part7 (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4 c v2) Q := by
  unfold St6
  iintro ⟨⟨#Hrec, #Hlev, Hv, Ho, Hx, Hg, HaC, HtC, HaS0, HaS1, HaS2, HaS3, HaS4, HaS5, HaS6, HaV0, HaV1, HaV2, HaV3, HaV4, HaV5, HaV6, HcV5, HcV6, HcS4, HcS5, HcS6, Hkeep, Hsb0, Hsb1, Hsb2, Hsb3, Hrw6, Hrw5, Hrw4, Hrw3, Hrw2, ⟨%W, HO⟩⟩, Hk⟩
  ihave #HIrcv0 := (inv_at m K (c, .recv 0)) $$ Hrec
  ihave #HIsnd0 := (inv_at m K (c, .send 0)) $$ Hrec
  ihave #HIrcv1 := (inv_at m K (c, .recv 1)) $$ Hrec
  ihave #HIsnd1 := (inv_at m K (c, .send 1)) $$ Hrec
  ihave #HIrcv2 := (inv_at m K (c, .recv 2)) $$ Hrec
  ihave #HIsnd2 := (inv_at m K (c, .send 2)) $$ Hrec
  ihave #HIrcv3 := (inv_at m K (c, .recv 3)) $$ Hrec
  ihave #HIsnd3 := (inv_at m K (c, .send 3)) $$ Hrec
  ihave #HIrcv4 := (inv_at m K (c, .recv 4)) $$ Hrec
  ihave #HIsnd4 := (inv_at m K (c, .send 4)) $$ Hrec
  ihave #HIrcv5 := (inv_at m K (c, .recv 5)) $$ Hrec
  ihave #HIsnd5 := (inv_at m K (c, .send 5)) $$ Hrec
  ihave #HIrcv6 := (inv_at m K (c, .recv 6)) $$ Hrec
  ihave #HIsnd6 := (inv_at m K (c, .send 6)) $$ Hrec
  rw [k0_part7_eq_skeleton]; unfold k0_part7_skel
  simp only [Prog.lift, Prog.bind_op, Prog.bind_ret, Prog.pure_eq_ret]

  -- the wait on send cell 4: the share lent to copy 4, back
  iapply (Rounds.wp_wait_rest_token 𝒱₀ ER (sched m) (c : Thread nD τ) none (κ := K (c, .send 4)) (sm := SemLoc.dma (sendS 4))
      (wpE_waitDma2_eq 𝒱₀ (c : Thread nD τ) none Set.univ) (Set.mem_univ _) () (O := 0) (R := 0) (m := 0) (T := ∅)
      (by rw [Nat.zero_add, expect_send])) $$ [HcS4 HO HaS4]
  · isplitr; · iexact HIsnd4
    isplitl [HcS4]; · iexact HcS4
    isplitl [HO]; · iexact HO
    isplitr; · rw [MayWait_zero]; iempintro
    iexact HaS4
  iintro ⟨HO, HaS4, -, Hpay⟩
  ihave Hsb4 := (Entails.of_eq (rest_send m c 4)) $$ Hpay

  -- the wait on receive cell 5: the sender's row, landed
  iapply (Rounds.wp_wait_rest_token 𝒱₀ ER (sched m) (c : Thread nD τ) none (κ := K (c, .recv 5)) (sm := SemLoc.dma (recvS 5))
      (wpE_waitDma2_eq 𝒱₀ (c : Thread nD τ) none Set.univ) (Set.mem_univ _) () (O := 0) (R := 0) (m := 0) (T := ∅)
      (by rw [Nat.zero_add, expect_recv])) $$ [HcV5 HO HaV5]
  · isplitr; · iexact HIrcv5
    isplitl [HcV5]; · iexact HcV5
    isplitl [HO]; · iexact HO
    isplitr; · rw [MayWait_zero]; iempintro
    iexact HaV5
  iintro ⟨HO, HaV5, -, Hpay⟩
  ihave Hrw1 := (Entails.of_eq (rest_recv m c 5)) $$ Hpay

  -- the wait on send cell 5: the share lent to copy 5, back
  iapply (Rounds.wp_wait_rest_token 𝒱₀ ER (sched m) (c : Thread nD τ) none (κ := K (c, .send 5)) (sm := SemLoc.dma (sendS 5))
      (wpE_waitDma2_eq 𝒱₀ (c : Thread nD τ) none Set.univ) (Set.mem_univ _) () (O := 0) (R := 0) (m := 0) (T := ∅)
      (by rw [Nat.zero_add, expect_send])) $$ [HcS5 HO HaS5]
  · isplitr; · iexact HIsnd5
    isplitl [HcS5]; · iexact HcS5
    isplitl [HO]; · iexact HO
    isplitr; · rw [MayWait_zero]; iempintro
    iexact HaS5
  iintro ⟨HO, HaS5, -, Hpay⟩
  ihave Hsb5 := (Entails.of_eq (rest_send m c 5)) $$ Hpay

  -- the wait on receive cell 6: the sender's row, landed
  iapply (Rounds.wp_wait_rest_token 𝒱₀ ER (sched m) (c : Thread nD τ) none (κ := K (c, .recv 6)) (sm := SemLoc.dma (recvS 6))
      (wpE_waitDma2_eq 𝒱₀ (c : Thread nD τ) none Set.univ) (Set.mem_univ _) () (O := 0) (R := 0) (m := 0) (T := ∅)
      (by rw [Nat.zero_add, expect_recv])) $$ [HcV6 HO HaV6]
  · isplitr; · iexact HIrcv6
    isplitl [HcV6]; · iexact HcV6
    isplitl [HO]; · iexact HO
    isplitr; · rw [MayWait_zero]; iempintro
    iexact HaV6
  iintro ⟨HO, HaV6, -, Hpay⟩
  ihave Hrw0 := (Entails.of_eq (rest_recv m c 6)) $$ Hpay

  -- the wait on send cell 6: the share lent to copy 6, back
  iapply (Rounds.wp_wait_rest_token 𝒱₀ ER (sched m) (c : Thread nD τ) none (κ := K (c, .send 6)) (sm := SemLoc.dma (sendS 6))
      (wpE_waitDma2_eq 𝒱₀ (c : Thread nD τ) none Set.univ) (Set.mem_univ _) () (O := 0) (R := 0) (m := 0) (T := ∅)
      (by rw [Nat.zero_add, expect_send])) $$ [HcS6 HO HaS6]
  · isplitr; · iexact HIsnd6
    isplitl [HcS6]; · iexact HcS6
    isplitl [HO]; · iexact HO
    isplitr; · rw [MayWait_zero]; iempintro
    iexact HaS6
  iintro ⟨HO, HaS6, -, Hpay⟩
  ihave Hsb6 := (Entails.of_eq (rest_send m c 6)) $$ Hpay
  unfold recvPay sendPay
  -- the own row whole again
  ihave Hown := (Transfers.pointsTo_toks_join fullShare 7) $$ [Hkeep Hsb0 Hsb1 Hsb2 Hsb3 Hsb4 Hsb5 Hsb6]
  · isplitl [Hkeep]; · iexact Hkeep
    rw [bigSep_fin7]
    isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    iexact Hsb6
  -- and the gather buffer whole, every row in place
  ihave Ha := (Views.rows_split c (gath m)).2 $$ [Hown Hrw0 Hrw1 Hrw2 Hrw3 Hrw4 Hrw5 Hrw6]
  · rw [bigSep_devs c, bigSep_fin7]
    isplitl [Hown]; · iexact Hown
    isplitl [Hrw0]; · iexact Hrw0
    isplitl [Hrw1]; · iexact Hrw1
    isplitl [Hrw2]; · iexact Hrw2
    isplitl [Hrw3]; · iexact Hrw3
    isplitl [Hrw4]; · iexact Hrw4
    isplitl [Hrw5]; · iexact Hrw5
    iexact Hrw6
  -- the fourteen cells close: their semaphores at zero are the device's again
  imod (Rounds.cell_close ER (sched m) (Set.mem_univ (K (c, .send 0))) (fun h => h) (R := 0 + 1) (duties_later m (sendCell c 0))) $$ [HaS0] with HzS0
  · isplitr; · iexact HIsnd0
    iexact HaS0
  imod (Rounds.cell_close ER (sched m) (Set.mem_univ (K (c, .send 1))) (fun h => h) (R := 0 + 1) (duties_later m (sendCell c 1))) $$ [HaS1] with HzS1
  · isplitr; · iexact HIsnd1
    iexact HaS1
  imod (Rounds.cell_close ER (sched m) (Set.mem_univ (K (c, .send 2))) (fun h => h) (R := 0 + 1) (duties_later m (sendCell c 2))) $$ [HaS2] with HzS2
  · isplitr; · iexact HIsnd2
    iexact HaS2
  imod (Rounds.cell_close ER (sched m) (Set.mem_univ (K (c, .send 3))) (fun h => h) (R := 0 + 1) (duties_later m (sendCell c 3))) $$ [HaS3] with HzS3
  · isplitr; · iexact HIsnd3
    iexact HaS3
  imod (Rounds.cell_close ER (sched m) (Set.mem_univ (K (c, .send 4))) (fun h => h) (R := 0 + 1) (duties_later m (sendCell c 4))) $$ [HaS4] with HzS4
  · isplitr; · iexact HIsnd4
    iexact HaS4
  imod (Rounds.cell_close ER (sched m) (Set.mem_univ (K (c, .send 5))) (fun h => h) (R := 0 + 1) (duties_later m (sendCell c 5))) $$ [HaS5] with HzS5
  · isplitr; · iexact HIsnd5
    iexact HaS5
  imod (Rounds.cell_close ER (sched m) (Set.mem_univ (K (c, .send 6))) (fun h => h) (R := 0 + 1) (duties_later m (sendCell c 6))) $$ [HaS6] with HzS6
  · isplitr; · iexact HIsnd6
    iexact HaS6
  imod (Rounds.cell_close ER (sched m) (Set.mem_univ (K (c, .recv 0))) (fun h => h) (R := 0 + 1) (duties_later m (recvCell c 0))) $$ [HaV0] with HzV0
  · isplitr; · iexact HIrcv0
    iexact HaV0
  imod (Rounds.cell_close ER (sched m) (Set.mem_univ (K (c, .recv 1))) (fun h => h) (R := 0 + 1) (duties_later m (recvCell c 1))) $$ [HaV1] with HzV1
  · isplitr; · iexact HIrcv1
    iexact HaV1
  imod (Rounds.cell_close ER (sched m) (Set.mem_univ (K (c, .recv 2))) (fun h => h) (R := 0 + 1) (duties_later m (recvCell c 2))) $$ [HaV2] with HzV2
  · isplitr; · iexact HIrcv2
    iexact HaV2
  imod (Rounds.cell_close ER (sched m) (Set.mem_univ (K (c, .recv 3))) (fun h => h) (R := 0 + 1) (duties_later m (recvCell c 3))) $$ [HaV3] with HzV3
  · isplitr; · iexact HIrcv3
    iexact HaV3
  imod (Rounds.cell_close ER (sched m) (Set.mem_univ (K (c, .recv 4))) (fun h => h) (R := 0 + 1) (duties_later m (recvCell c 4))) $$ [HaV4] with HzV4
  · isplitr; · iexact HIrcv4
    iexact HaV4
  imod (Rounds.cell_close ER (sched m) (Set.mem_univ (K (c, .recv 5))) (fun h => h) (R := 0 + 1) (duties_later m (recvCell c 5))) $$ [HaV5] with HzV5
  · isplitr; · iexact HIrcv5
    iexact HaV5
  imod (Rounds.cell_close ER (sched m) (Set.mem_univ (K (c, .recv 6))) (fun h => h) (R := 0 + 1) (duties_later m (recvCell c 6))) $$ [HaV6] with HzV6
  · isplitr; · iexact HIrcv6
    iexact HaV6
  -- the whole-buffer load of the gathered partial sums
  iapply (wp_load 𝒱₀ (c : Thread nD τ) none Set.univ (m := aM) (Finset.subset_univ _)) $$ Ha; iintro Ha
  rw [wp_ret]; imodintro
  iapply Hk
  unfold mid
  isplitr; · iexact Hrec
  isplitl [HaC]; · iexact HaC
  isplitl [HtC]; · iexact HtC
  isplitl [Hv]; · iexact Hv
  isplitl [Ha]; · iexact Ha
  isplitl [Ho]; · iexact Ho
  isplitl [HzS0 HzS1 HzS2 HzS3 HzS4 HzS5 HzS6]
  · rw [bigSep_fin7]
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    iexact HzS6
  isplitl [HzV0 HzV1 HzV2 HzV3 HzV4 HzV5 HzV6]
  · rw [bigSep_fin7]
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    iexact HzV6
  isplitl [HO]; · iexists _; iexact HO
  isplitl [Hx]
  · iexists _; isplitr; · (ipureintro; rfl)
    iexact Hx
  iexists _; isplitr; · (ipureintro; rfl)
  iexact Hg

/-- info: 'Cert.KernelIdeal.Part7.part7_run' depends on axioms: [propext, Classical.choice, Quot.sound] -/
#guard_msgs in #print axioms part7_run

end Cert.KernelIdeal.Part7

end
-- ==== Proof.Body2.lean ====
/-
  The second half of one device's body: from the complete gather buffer, the reciprocal root of the mean square, the four chunks of
  the normalised block stored into the scratch and copied to the result array, each copy on its own cell, all four waited for.
-/
import proofs.«901005_g7700000000001006_dist_rmsnorm_colshard_i_m4096_n1024_v7x_i8_bf16_1_alg».proof.Proof.BodyDefs
import proofs.«901005_g7700000000001006_dist_rmsnorm_colshard_i_m4096_n1024_v7x_i8_bf16_1_alg».proof.Proof.Views

noncomputable section

namespace Cert.KernelIdeal.Body2

open Cert.KernelIdeal Cert.KernelIdeal.Gen Cert.KernelIdeal.Proto Cert.KernelIdeal.BodyDefs
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

omit [FloatOps F] in
/-- A product over the four chunks, written out. -/
theorem bigSep_fin4 (Φ : Fin 4 → sProp 𝕄) : bigSep Finset.univ Φ = iprop(Φ 0 ∗ Φ 1 ∗ Φ 2 ∗ Φ 3) := by
  rw [bigSep_univ_eq_bigSepL [(0 : Fin 4), 1, 2, 3] (by decide) (by decide)]; rfl

/-- What the end of the local copy of a chunk hands back is the chunk's payload, once the scratch holds the result block there. -/
theorem pay_0 (c : Dev nD) (fd : Buf (Elt F) ((c : Thread nD τ).loc main_v1)) (fs : Buf (Elt F) ((c : Thread nD τ).loc cc0_scratch0))
    (h : ∀ j ∈ (vCh 0).view.set, fs j = outv m c j) :
    iprop(((oCh 0).view.loc (c : Thread nD τ) ↦[(oCh 0).view.set]{fullShare} ((oCh 0).view.write (Elt F) fd ((vCh 0).view.read (Elt F) fs) Finset.univ))
      ∗ ((vCh 0).view.loc (c : Thread nD τ) ↦[(vCh 0).view.set]{fullShare} fs)) ⊢ (sched m).payload (cpCell c 0) 0 0 := by
  rw [payload_cp]; simp only [cpPay]
  exact BIClass.sep_mono (Entails.of_eq (pointsTo_congr (Views.och_copy_val_0 m c fd fs h))) (Entails.of_eq (pointsTo_congr h))
theorem pay_1 (c : Dev nD) (fd : Buf (Elt F) ((c : Thread nD τ).loc main_v1)) (fs : Buf (Elt F) ((c : Thread nD τ).loc cc0_scratch0))
    (h : ∀ j ∈ (vCh 1).view.set, fs j = outv m c j) :
    iprop(((oCh 1).view.loc (c : Thread nD τ) ↦[(oCh 1).view.set]{fullShare} ((oCh 1).view.write (Elt F) fd ((vCh 1).view.read (Elt F) fs) Finset.univ))
      ∗ ((vCh 1).view.loc (c : Thread nD τ) ↦[(vCh 1).view.set]{fullShare} fs)) ⊢ (sched m).payload (cpCell c 1) 0 0 := by
  rw [payload_cp]; simp only [cpPay]
  exact BIClass.sep_mono (Entails.of_eq (pointsTo_congr (Views.och_copy_val_1 m c fd fs h))) (Entails.of_eq (pointsTo_congr h))
theorem pay_2 (c : Dev nD) (fd : Buf (Elt F) ((c : Thread nD τ).loc main_v1)) (fs : Buf (Elt F) ((c : Thread nD τ).loc cc0_scratch0))
    (h : ∀ j ∈ (vCh 2).view.set, fs j = outv m c j) :
    iprop(((oCh 2).view.loc (c : Thread nD τ) ↦[(oCh 2).view.set]{fullShare} ((oCh 2).view.write (Elt F) fd ((vCh 2).view.read (Elt F) fs) Finset.univ))
      ∗ ((vCh 2).view.loc (c : Thread nD τ) ↦[(vCh 2).view.set]{fullShare} fs)) ⊢ (sched m).payload (cpCell c 2) 0 0 := by
  rw [payload_cp]; simp only [cpPay]
  exact BIClass.sep_mono (Entails.of_eq (pointsTo_congr (Views.och_copy_val_2 m c fd fs h))) (Entails.of_eq (pointsTo_congr h))
theorem pay_3 (c : Dev nD) (fd : Buf (Elt F) ((c : Thread nD τ).loc main_v1)) (fs : Buf (Elt F) ((c : Thread nD τ).loc cc0_scratch0))
    (h : ∀ j ∈ (vCh 3).view.set, fs j = outv m c j) :
    iprop(((oCh 3).view.loc (c : Thread nD τ) ↦[(oCh 3).view.set]{fullShare} ((oCh 3).view.write (Elt F) fd ((vCh 3).view.read (Elt F) fs) Finset.univ))
      ∗ ((vCh 3).view.loc (c : Thread nD τ) ↦[(vCh 3).view.set]{fullShare} fs)) ⊢ (sched m).payload (cpCell c 3) 0 0 := by
  rw [payload_cp]; simp only [cpPay]
  exact BIClass.sep_mono (Entails.of_eq (pointsTo_congr (Views.och_copy_val_3 m c fd fs h))) (Entails.of_eq (pointsTo_congr h))

omit [FloatOps F] in
/-- Products over the seven peers and over the kernel's eighteen own semaphores, written out. -/
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [(0 : Fin 7), 1, 2, 3, 4, 5, 6] (by decide) (by decide)]; rfl
omit [FloatOps F] in
theorem bigSep_fin18 (Φ : Fin 18 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [bigSep_univ_eq_bigSepL [(0 : Fin 18), 1, 2, 3, 4, 5, 6, 7, 8, 9, 10, 11, 12, 13, 14, 15, 16, 17] (by decide) (by decide)]; rfl

omit [FloatOps F] in
/-- The kernel's own semaphores at zero are the seven send, the seven receive and the four copy semaphores at zero. -/
theorem ownSems0_intro (c : Dev nD) :
    iprop((bigSep Finset.univ fun k : Fin 7 => semVal (sendCell c k) 0) ∗ (bigSep Finset.univ fun k : Fin 7 => semVal (recvCell c k) 0)
        ∗ (bigSep Finset.univ fun i : Fin 4 => semVal (cpCell c i) 0))
      ⊢ (Pipeline.ownSems0 (Ix := Unit) (Name := ℕ) (U := UU) (Lvl := ℕ) (Val := Elt F) (τ := τ) osem c : sProp 𝕄) := by
  unfold Pipeline.ownSems0
  rw [bigSep_fin18, bigSep_fin7, bigSep_fin7, bigSep_fin4]
  iintro ⟨⟨S0, S1, S2, S3, S4, S5, S6⟩, ⟨R0, R1, R2, R3, R4, R5, R6⟩, C0, C1, C2, C3⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [C0]; · iexact C0
  isplitl [C1]; · iexact C1
  isplitl [C2]; · iexact C2
  iexact C3

/-- A chunk's payload, spelt out. -/
theorem cpPay_0 (c : Dev nD) : cpPay m c 0 = iprop(((oCh 0).view.loc (c : Thread nD τ) ↦[(oCh 0).view.set]{fullShare} outv m c)
    ∗ ((vCh 0).view.loc (c : Thread nD τ) ↦[(vCh 0).view.set]{fullShare} outv m c)) := rfl
theorem cpPay_1 (c : Dev nD) : cpPay m c 1 = iprop(((oCh 1).view.loc (c : Thread nD τ) ↦[(oCh 1).view.set]{fullShare} outv m c)
    ∗ ((vCh 1).view.loc (c : Thread nD τ) ↦[(vCh 1).view.set]{fullShare} outv m c)) := rfl
theorem cpPay_2 (c : Dev nD) : cpPay m c 2 = iprop(((oCh 2).view.loc (c : Thread nD τ) ↦[(oCh 2).view.set]{fullShare} outv m c)
    ∗ ((vCh 2).view.loc (c : Thread nD τ) ↦[(vCh 2).view.set]{fullShare} outv m c)) := rfl
theorem cpPay_3 (c : Dev nD) : cpPay m c 3 = iprop(((oCh 3).view.loc (c : Thread nD τ) ↦[(oCh 3).view.set]{fullShare} outv m c)
    ∗ ((vCh 3).view.loc (c : Thread nD τ) ↦[(vCh 3).view.set]{fullShare} outv m c)) := rfl

attribute [local sl_rounds] duties_cp amount_cp expect_cp payload_cp rest_cp duties_later

set_option maxHeartbeats 1600000 in
/-- The second half, stepped one effect at a time from `mid` to the body's post. -/
theorem half2 (K : Dev nD × CK → ℕ) (c : Dev nD) (Kt : PUnit → sProp 𝕄) :
    iprop(mid m K c ∗ (bodyPost m c -∗ Kt ⟨⟩))
      ⊢ wp frame (wpE (defs₀ (F := F)) 𝒱₀ c none) Set.univ (prog2At (k0_pay1 (xstg m c)) (gath m)) Kt := by
  unfold mid
  rw [bigSep_fin4, bigSep_fin4]
  iintro ⟨⟨#Hrec, ⟨Hat0, Hat1, Hat2, Hat3⟩, ⟨Ht0, Ht1, Ht2, Ht3⟩, ⟨%f0, Hv⟩, Ha, Ho, HzS, HzR, ⟨%W, HO⟩, ⟨%gx, %hgx, Hx⟩, ⟨%gg, %hgg, Hg⟩⟩, Hk⟩
  subst hgx; subst hgg
  ihave #HI0 := (inv_at m K (c, .cp 0)) $$ Hrec
  ihave #HI1 := (inv_at m K (c, .cp 1)) $$ Hrec
  ihave #HI2 := (inv_at m K (c, .cp 2)) $$ Hrec
  ihave #HI3 := (inv_at m K (c, .cp 3)) $$ Hrec
  ihave #Hr0 := (reached_at m K (c, .cp 0)) $$ Hrec
  ihave #Hr1 := (reached_at m K (c, .cp 1)) $$ Hrec
  ihave #Hr2 := (reached_at m K (c, .cp 2)) $$ Hrec
  ihave #Hr3 := (reached_at m K (c, .cp 3)) $$ Hrec
  ihave Hvs := (Views.vchunks_split c f0).1 $$ Hv
  icases Hvs with ⟨Hv0, Hv1, Hv2, Hv3⟩
  ihave Hos := (Views.ochunks_split c _).1 $$ Ho
  icases Hos with ⟨Ho0, Ho1, Ho2, Ho3⟩
  ihave Hg := (Entails.of_eq (show ((c : Thread nD τ).loc cc0_stg1_0 ↦{fullShare} gstg m c : sProp 𝕄)
      = (((win0_1.stage (cfg0.slots t₀ 1)).view.loc (c : Thread nD τ)) ↦{fullShare} gstg m c) from rfl)) $$ Hg
  sl_unfold [prog2At, prog2]
  sl_exec
  have hv205 : half2.sl.v205 m c = gstg m c := by
    unfold half2.sl.v205
    exact Memref.readAt_unit_zero (Elt F) cc0_stg1_0 (funext fun a => by fin_cases a; rfl) _ _
  have hv0 : ∀ j ∈ (vCh 0).view.set, half2.sl.Hv0_w1 m c f0 j = outv m c j := by
    unfold half2.sl.Hv0_w1; rw [hv205]; exact Views.vch_store_val_0 m c f0
  iapply (Rounds.wp_copy_pointsTo 𝒱₀ ER (sched m) (c : Thread nD τ) none (src := vCh 0) (dst := oCh 0) (sem := .dma (cpS 0)) (q := fullShare)
      (fs := half2.sl.Hv0_w1 m c f0) (fd := m ((c : Thread nD τ).loc main_v1)) (r := 0) (d := 0) (κ := K (c, .cp 0))
      (by rw [duties_cp]; exact Finset.mem_singleton_self _) () Nch (amount_ch 0 _) (amount_cp m c 0 0) (pay_0 m c _ _ hv0)) $$ [Hv0 Ho0 Ht0]
  · isplitr; · iexact HI0
    isplitl [Hv0]; · iexact Hv0
    isplitl [Ho0]; · iexact Ho0
    isplitl [Ht0]; · iexact Ht0
    iexact Hr0
  iintro Hc0
  sl_exec
  have hv1 : ∀ j ∈ (vCh 1).view.set, half2.sl.Hv1_w1 m c f0 j = outv m c j := by
    unfold half2.sl.Hv1_w1; rw [hv205]; exact Views.vch_store_val_1 m c f0
  iapply (Rounds.wp_copy_pointsTo 𝒱₀ ER (sched m) (c : Thread nD τ) none (src := vCh 1) (dst := oCh 1) (sem := .dma (cpS 1)) (q := fullShare)
      (fs := half2.sl.Hv1_w1 m c f0) (fd := m ((c : Thread nD τ).loc main_v1)) (r := 0) (d := 0) (κ := K (c, .cp 1))
      (by rw [duties_cp]; exact Finset.mem_singleton_self _) () Nch (amount_ch 1 _) (amount_cp m c 1 0) (pay_1 m c _ _ hv1)) $$ [Hv1 Ho1 Ht1]
  · isplitr; · iexact HI1
    isplitl [Hv1]; · iexact Hv1
    isplitl [Ho1]; · iexact Ho1
    isplitl [Ht1]; · iexact Ht1
    iexact Hr1
  iintro Hc1
  sl_exec
  have hv2 : ∀ j ∈ (vCh 2).view.set, half2.sl.Hv2_w1 m c f0 j = outv m c j := by
    unfold half2.sl.Hv2_w1 half2.sl.r half2.sl.r_1; rw [hv205]; exact Views.vch_store_val_2 m c f0
  iapply (Rounds.wp_copy_pointsTo 𝒱₀ ER (sched m) (c : Thread nD τ) none (src := vCh 2) (dst := oCh 2) (sem := .dma (cpS 2)) (q := fullShare)
      (fs := half2.sl.Hv2_w1 m c f0) (fd := m ((c : Thread nD τ).loc main_v1)) (r := 0) (d := 0) (κ := K (c, .cp 2))
      (by rw [duties_cp]; exact Finset.mem_singleton_self _) () Nch (amount_ch 2 _) (amount_cp m c 2 0) (pay_2 m c _ _ hv2)) $$ [Hv2 Ho2 Ht2]
  · isplitr; · iexact HI2
    isplitl [Hv2]; · iexact Hv2
    isplitl [Ho2]; · iexact Ho2
    isplitl [Ht2]; · iexact Ht2
    iexact Hr2
  iintro Hc2
  sl_exec
  have hv3 : ∀ j ∈ (vCh 3).view.set, half2.sl.Hv3_w1 m c f0 j = outv m c j := by
    unfold half2.sl.Hv3_w1 half2.sl.r half2.sl.r_1; rw [hv205]; exact Views.vch_store_val_3 m c f0
  iapply (Rounds.wp_copy_pointsTo 𝒱₀ ER (sched m) (c : Thread nD τ) none (src := vCh 3) (dst := oCh 3) (sem := .dma (cpS 3)) (q := fullShare)
      (fs := half2.sl.Hv3_w1 m c f0) (fd := m ((c : Thread nD τ).loc main_v1)) (r := 0) (d := 0) (κ := K (c, .cp 3))
      (by rw [duties_cp]; exact Finset.mem_singleton_self _) () Nch (amount_ch 3 _) (amount_cp m c 3 0) (pay_3 m c _ _ hv3)) $$ [Hv3 Ho3 Ht3]
  · isplitr; · iexact HI3
    isplitl [Hv3]; · iexact Hv3
    isplitl [Ho3]; · iexact Ho3
    isplitl [Ht3]; · iexact Ht3
    iexact Hr3
  iintro Hc3
  simp only [Prog.lift, Prog.bind_op, Prog.bind_ret, Prog.pure_eq_ret]
  iapply (Rounds.wp_wait_rest_token 𝒱₀ ER (sched m) (c : Thread nD τ) none (κ := K (c, .cp 0)) (sm := .dma (cpS 0)) (k' := (oCh 0).view.dmaCredit)
      (wpE_waitDma2_eq 𝒱₀ (c : Thread nD τ) none Set.univ) (Set.mem_univ _) () (O := 0) (W := W) (R := 0) (m := 0) (T := ∅)
      (by rw [Nat.zero_add, expect_cp])) $$ [Hc0 HO Hat0]
  · isplitr; · iexact HI0
    isplitl [Hc0]; · iexact Hc0
    isplitl [HO]; · iexact HO
    isplitr; · rw [MayWait_zero]; iempintro
    iexact Hat0
  iintro ⟨HO, Hat0, -, Hpay0⟩
  rw [wp_ret]; imodintro
  iapply (Rounds.wp_wait_rest_token 𝒱₀ ER (sched m) (c : Thread nD τ) none (κ := K (c, .cp 1)) (sm := .dma (cpS 1)) (k' := (oCh 1).view.dmaCredit)
      (wpE_waitDma2_eq 𝒱₀ (c : Thread nD τ) none Set.univ) (Set.mem_univ _) () (O := 0) (W := insert (SemLoc.dma (cpS 0), ()) W) (R := 0) (m := 0) (T := ∅)
      (by rw [Nat.zero_add, expect_cp])) $$ [Hc1 HO Hat1]
  · isplitr; · iexact HI1
    isplitl [Hc1]; · iexact Hc1
    isplitl [HO]; · iexact HO
    isplitr; · rw [MayWait_zero]; iempintro
    iexact Hat1
  iintro ⟨HO, Hat1, -, Hpay1⟩
  iapply (Rounds.wp_wait_rest_token 𝒱₀ ER (sched m) (c : Thread nD τ) none (κ := K (c, .cp 2)) (sm := .dma (cpS 2)) (k' := (oCh 2).view.dmaCredit)
      (wpE_waitDma2_eq 𝒱₀ (c : Thread nD τ) none Set.univ) (Set.mem_univ _) () (O := 0) (W := insert (SemLoc.dma (cpS 1), ()) (insert (SemLoc.dma (cpS 0), ()) W)) (R := 0) (m := 0) (T := ∅)
      (by rw [Nat.zero_add, expect_cp])) $$ [Hc2 HO Hat2]
  · isplitr; · iexact HI2
    isplitl [Hc2]; · iexact Hc2
    isplitl [HO]; · iexact HO
    isplitr; · rw [MayWait_zero]; iempintro
    iexact Hat2
  iintro ⟨HO, Hat2, -, Hpay2⟩
  iapply (Rounds.wp_wait_rest_token 𝒱₀ ER (sched m) (c : Thread nD τ) none (κ := K (c, .cp 3)) (sm := .dma (cpS 3)) (k' := (oCh 3).view.dmaCredit)
      (wpE_waitDma2_eq 𝒱₀ (c : Thread nD τ) none Set.univ) (Set.mem_univ _) () (O := 0) (W := insert (SemLoc.dma (cpS 2), ()) (insert (SemLoc.dma (cpS 1), ()) (insert (SemLoc.dma (cpS 0), ()) W))) (R := 0) (m := 0) (T := ∅)
      (by rw [Nat.zero_add, expect_cp])) $$ [Hc3 HO Hat3]
  · isplitr; · iexact HI3
    isplitl [Hc3]; · iexact Hc3
    isplitl [HO]; · iexact HO
    isplitr; · rw [MayWait_zero]; iempintro
    iexact Hat3
  iintro ⟨HO, Hat3, -, Hpay3⟩
  ihave Hp0 := (Entails.of_eq ((rest_cp m c 0).trans (cpPay_0 m c))) $$ Hpay0
  icases Hp0 with ⟨Ho0, Hv0⟩
  ihave Hp1 := (Entails.of_eq ((rest_cp m c 1).trans (cpPay_1 m c))) $$ Hpay1
  icases Hp1 with ⟨Ho1, Hv1⟩
  ihave Hp2 := (Entails.of_eq ((rest_cp m c 2).trans (cpPay_2 m c))) $$ Hpay2
  icases Hp2 with ⟨Ho2, Hv2⟩
  ihave Hp3 := (Entails.of_eq ((rest_cp m c 3).trans (cpPay_3 m c))) $$ Hpay3
  icases Hp3 with ⟨Ho3, Hv3⟩
  imod (Rounds.cell_close ER (sched m) (Set.mem_univ (K (c, .cp 0))) (fun h => h) (R := 0 + 1) (duties_later m (cpCell c 0))) $$ [Hat0] with Hz0
  · isplitr; · iexact HI0
    iexact Hat0
  imod (Rounds.cell_close ER (sched m) (Set.mem_univ (K (c, .cp 1))) (fun h => h) (R := 0 + 1) (duties_later m (cpCell c 1))) $$ [Hat1] with Hz1
  · isplitr; · iexact HI1
    iexact Hat1
  imod (Rounds.cell_close ER (sched m) (Set.mem_univ (K (c, .cp 2))) (fun h => h) (R := 0 + 1) (duties_later m (cpCell c 2))) $$ [Hat2] with Hz2
  · isplitr; · iexact HI2
    iexact Hat2
  imod (Rounds.cell_close ER (sched m) (Set.mem_univ (K (c, .cp 3))) (fun h => h) (R := 0 + 1) (duties_later m (cpCell c 3))) $$ [Hat3] with Hz3
  · isplitr; · iexact HI3
    iexact Hat3
  rw [wp_ret]; imodintro
  iapply Hk
  unfold bodyPost Φ₁ Dat.owesAt Pipeline.owesWithin
  rw [show (dats m 0 c).owed t₀.succ = 0 from rfl]
  isplitl [Hv0 Hv1 Hv2 Hv3 Ha Ho0 Ho1 Ho2 Ho3 HzS HzR Hz0 Hz1 Hz2 Hz3]
  · isplitl [Hv0 Hv1 Hv2 Hv3]
    · iexists (outv m c)
      iapply (Views.vchunks_split c (outv m c)).2
      isplitl [Hv0]; · iexact Hv0
      isplitl [Hv1]; · iexact Hv1
      isplitl [Hv2]; · iexact Hv2
      iexact Hv3
    isplitl [Ha]; · iexists _; iexact Ha
    isplitl [Ho0 Ho1 Ho2 Ho3]
    · iapply (Views.ochunks_split c (outv m c)).2
      isplitl [Ho0]; · iexact Ho0
      isplitl [Ho1]; · iexact Ho1
      isplitl [Ho2]; · iexact Ho2
      iexact Ho3
    iapply (ownSems0_intro c)
    isplitl [HzS]; · iexact HzS
    isplitl [HzR]; · iexact HzR
    rw [bigSep_fin4]
    isplitl [Hz0]; · iexact Hz0
    isplitl [Hz1]; · iexact Hz1
    isplitl [Hz2]; · iexact Hz2
    iexact Hz3
  isplitl [HO]
  · iexists (insert (SemLoc.dma (cpS 3), ()) (insert (SemLoc.dma (cpS 2), ()) (insert (SemLoc.dma (cpS 1), ()) (insert (SemLoc.dma (cpS 0), ()) W))))
    isplitr; · ipureintro; exact fun _ _ => Or.inl trivial
    iexact HO
  isplitl [Hx]
  · iexists _; isplitr; · (ipureintro; rfl)
    iexact Hx
  iexists _; isplitr; · (ipureintro; rfl)
  iexact Hg

/-- info: 'Cert.KernelIdeal.Body2.half2' depends on axioms: [propext, Classical.choice, Quot.sound] -/
#guard_msgs in #print axioms half2

end Cert.KernelIdeal.Body2

end
-- ==== Proof.BodyOb.lean ====
/-
  From one device's stepped body to the pipeline library's body obligation at the one grid point.

  The obligation hands the body the state before the point (the ghost state at SOME names of the invariants, the credit, the level
  facts, the two scratch buffers and the result array), what the device owes, and each of the two input windows' staging buffers
  held whole at what the pipeline fetched into it; it asks for the state after the point, nothing owed, and the two staging
  buffers still holding the device's blocks of x and of gamma. The stepped body is stated at fixed names: the names are chosen
  here, and the pieces are handed over.
-/
import proofs.«901005_g7700000000001006_dist_rmsnorm_colshard_i_m4096_n1024_v7x_i8_bf16_1_alg».proof.Proof.BodyDefs
import Idealize.ShloMosaic.Lib.Pipeline.Kit
import Idealize.ShloMosaic.Lib.Tactic

noncomputable section

namespace Cert.KernelIdeal.BodyOb

open Cert.KernelIdeal Cert.KernelIdeal.Gen Cert.KernelIdeal.Proto Cert.KernelIdeal.BodyDefs
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A whole buffer held at named contents is its points-to at contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one point, the two windows written out. -/
def obPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device c, from the body stepped at every choice of the invariants' names. -/
theorem body_obligation_of
    (hsound : ∀ (K : Dev nD × CK → ℕ) (c : Dev nD) (Kt : PUnit → sProp 𝕄),
      iprop(bodyPre m K c ∗ (bodyPost m c -∗ Kt ⟨⟩))
        ⊢ wp frame (wpE (defs₀ (F := F)) 𝒱₀ c none) Set.univ
            (cc0_body (Memref.whole cc0_stg0_0) (Memref.isWhole_whole _) (Memref.whole cc0_stg1_0) (Memref.isWhole_whole _)
              (Memref.whole main_v1) (Memref.isWhole_whole _) (Memref.whole cc0_scratch0) (Memref.isWhole_whole _) (Memref.whole cc0_scratch1) (Memref.isWhole_whole _)
              cc0_scratch2 cc0_scratch3 cc0_scratch4) Kt)
    (c : Dev nD) : BodyObligation (dats (F := F) m 0 c) (defs₀ (F := F)) 𝒱₀ () Set.univ := fun t => by
  rw [fin_N t]
  rw [bigSep_W0, bigSep_W0]
  simp only [owns_whole_eq]
  show obPre m c ⊢ wp frame (wpE (defs₀ (F := F)) 𝒱₀ c none) Set.univ
    (cc0_body (Memref.whole cc0_stg0_0) (Memref.isWhole_whole _) (Memref.whole cc0_stg1_0) (Memref.isWhole_whole _)
      (Memref.whole main_v1) (Memref.isWhole_whole _) (Memref.whole cc0_scratch0) (Memref.isWhole_whole _) (Memref.whole cc0_scratch1) (Memref.isWhole_whole _)
      cc0_scratch2 cc0_scratch3 cc0_scratch4) (fun _ => bodyPost m c)
  unfold obPre Φ₀ start
  iintro ⟨⟨⟨⟨%K, Hg⟩, Hc, Hl⟩, Hv, Ha, Ho⟩, Hw, Hx, Hgm⟩
  iapply (hsound K c fun _ => bodyPost m c)
  unfold bodyPre
  isplitr []
  · isplitl [Hg Hc Hl Hv Ha Ho]
    · isplitl [Hg]; · iexact Hg
      isplitl [Hc]; · iexact Hc
      isplitl [Hl]; · iexact Hl
      isplitl [Hv]; · iexact Hv
      isplitl [Ha]; · iexact Ha
      iexact Ho
    isplitl [Hw]; · iexact Hw
    isplitl [Hx] <;> iassumption
  · iintro H; iexact H

/-- info: 'Cert.KernelIdeal.BodyOb.body_obligation_of' depends on axioms: [propext, Classical.choice, Quot.sound] -/
#guard_msgs in #print axioms body_obligation_of

end Cert.KernelIdeal.BodyOb

end
-- ==== Proof.Body.lean ====
/-
  One device's body against the protocol, assembled from its seven parts and the second half: the ghost state the launch hands the
  device is laid out as the first part's precondition, each part's postcondition is the next part's precondition, and the seventh
  part ends where the second half begins.
-/
import proofs.«901005_g7700000000001006_dist_rmsnorm_colshard_i_m4096_n1024_v7x_i8_bf16_1_alg».proof.Proof.PartsDefs
import proofs.«901005_g7700000000001006_dist_rmsnorm_colshard_i_m4096_n1024_v7x_i8_bf16_1_alg».proof.Proof.Part1
import proofs.«901005_g7700000000001006_dist_rmsnorm_colshard_i_m4096_n1024_v7x_i8_bf16_1_alg».proof.Proof.Part2
import proofs.«901005_g7700000000001006_dist_rmsnorm_colshard_i_m4096_n1024_v7x_i8_bf16_1_alg».proof.Proof.Part3
import proofs.«901005_g7700000000001006_dist_rmsnorm_colshard_i_m4096_n1024_v7x_i8_bf16_1_alg».proof.Proof.Part4
import proofs.«901005_g7700000000001006_dist_rmsnorm_colshard_i_m4096_n1024_v7x_i8_bf16_1_alg».proof.Proof.Part5
import proofs.«901005_g7700000000001006_dist_rmsnorm_colshard_i_m4096_n1024_v7x_i8_bf16_1_alg».proof.Proof.Part6
import proofs.«901005_g7700000000001006_dist_rmsnorm_colshard_i_m4096_n1024_v7x_i8_bf16_1_alg».proof.Proof.Part7
import proofs.«901005_g7700000000001006_dist_rmsnorm_colshard_i_m4096_n1024_v7x_i8_bf16_1_alg».proof.Proof.Body2
import proofs.«901005_g7700000000001006_dist_rmsnorm_colshard_i_m4096_n1024_v7x_i8_bf16_1_alg».proof.Proof.BodyOb

noncomputable section

namespace Cert.KernelIdeal.Body

open Cert.KernelIdeal Cert.KernelIdeal.Gen Cert.KernelIdeal.Proto Cert.KernelIdeal.BodyDefs Cert.KernelIdeal.Parts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxHeartbeats 4000000 in
/-- The body, from `bodyPre` to `bodyPost`: the seven parts of the first half, then the second half. -/
theorem sound_body (K : Dev nD × CK → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) cc0_scratch2 cc0_scratch3 cc0_scratch4) Kt := by
  unfold bodyPre ghost
  iintro ⟨⟨⟨⟨#Hrec, Hpos, Htoks⟩, Hcr, #Hlev, Hv, ⟨%fa, Ha⟩, Ho⟩, HO, ⟨%d0, %g0, %hg0, Hx⟩, ⟨%d1, %g1, %hg1, Hg⟩⟩, Hk⟩
  have hx : g0 = xstg m c := by rw [hg0]; unfold Dat.before; rw [if_pos (fetch0_0 t₀)]; rfl
  have hgm : g1 = gstg m c := by rw [hg1]; unfold Dat.before; rw [if_pos (fetch0_1 t₀)]; rfl
  subst hx hgm
  unfold Dat.owesAt Pipeline.owesWithin
  icases HO with ⟨%W, %hW, HO⟩
  rw [show (dats m 0 c).owed t₀.castSucc = O₀ c from rfl]
  -- the positions, the tokens, the credits, one by one
  ihave Hpos' := (Entails.of_eq (positions_eq c)) $$ Hpos
  icases Hpos' with ⟨HaB, HaS0, HaS1, HaS2, HaS3, HaS4, HaS5, HaS6, HaV0, HaV1, HaV2, HaV3, HaV4, HaV5, HaV6, HaC0, HaC1, HaC2, HaC3⟩
  unfold payToks
  icases Htoks with ⟨HtB, HtV, HtS, HtC⟩
  ihave HtB' := (Entails.of_eq (bigSep_fin7 _)) $$ HtB
  icases HtB' with ⟨HtB0, HtB1, HtB2, HtB3, HtB4, HtB5, HtB6⟩
  ihave HtV' := (Entails.of_eq (bigSep_fin7 _)) $$ HtV
  icases HtV' with ⟨HtV0, HtV1, HtV2, HtV3, HtV4, HtV5, HtV6⟩
  ihave HtS' := (Entails.of_eq (bigSep_fin7 _)) $$ HtS
  icases HtS' with ⟨HtS0, HtS1, HtS2, HtS3, HtS4, HtS5, HtS6⟩
  unfold creds
  icases Hcr with ⟨HcB, HcV⟩
  ihave HcV' := (Entails.of_eq (bigSep_fin7 _)) $$ HcV
  icases HcV' with ⟨HcV0, HcV1, HcV2, HcV3, HcV4, HcV5, HcV6⟩
  -- the gather buffer by rows: the device's own, and one for each peer
  ihave Hrows := (Views.rows_split c fa).1 $$ Ha
  ihave Hrows' := (Entails.of_eq (bigSep_devs c _)) $$ Hrows
  icases Hrows' with ⟨Hown, Hprs⟩
  ihave Hprs' := (Entails.of_eq (bigSep_fin7 _)) $$ Hprs
  icases Hprs' with ⟨Hrow0, Hrow1, Hrow2, Hrow3, Hrow4, Hrow5, Hrow6⟩
  ihave Hx := (Entails.of_eq (whole_pts c cc0_stg0_0 _)) $$ Hx
  ihave Hg := (Entails.of_eq (whole_pts c cc0_stg1_0 _)) $$ Hg
  -- the body is its nine parts in sequence
  rw [cc0_body_eq_skeleton]; unfold cc0_body_skel
  rw [wp_bind]
  iapply (Part1.part1_run m K c _)
  isplitl [Hv Ho Hx Hg HaC0 HaC1 HaC2 HaC3 HtC HaB HcB HaS0 HaS1 HaS2 HaS3 HaS4 HaS5 HaS6 HaV0 HaV1 HaV2 HaV3 HaV4 HaV5 HaV6 HtB0 Hrow0 HtB1 Hrow1 HtB2 Hrow2 HtB3 Hrow3 HtB4 Hrow4 HtB5 Hrow5 HtB6 Hrow6 HtV0 HtS0 HtV1 HtS1 HtV2 HtS2 HtV3 HtS3 HtV4 HtS4 HtV5 HtS5 HtV6 HtS6 HcV0 HcV1 HcV2 HcV3 HcV4 HcV5 HcV6 Hown HO]
  · unfold St0
    isplitr; · iexact Hrec
    isplitr; · iexact Hlev
    isplitl [Hv]; · iexact Hv
    isplitl [Ho]; · iexact Ho
    isplitl [Hx]; · iexact Hx
    isplitl [Hg]; · iexact Hg
    isplitl [HaC0 HaC1 HaC2 HaC3]
    · rw [bigSep_fin4]
      isplitl [HaC0]; · iexact HaC0
      isplitl [HaC1]; · iexact HaC1
      isplitl [HaC2]; · iexact HaC2
      iexact HaC3
    isplitl [HtC]; · iexact HtC
    isplitl [HaB]; · iexact HaB
    isplitl [HcB]; · iexact HcB
    isplitl [HaS0]; · iexact HaS0
    isplitl [HaS1]; · iexact HaS1
    isplitl [HaS2]; · iexact HaS2
    isplitl [HaS3]; · iexact HaS3
    isplitl [HaS4]; · iexact HaS4
    isplitl [HaS5]; · iexact HaS5
    isplitl [HaS6]; · iexact HaS6
    isplitl [HaV0]; · iexact HaV0
    isplitl [HaV1]; · iexact HaV1
    isplitl [HaV2]; · iexact HaV2
    isplitl [HaV3]; · iexact HaV3
    isplitl [HaV4]; · iexact HaV4
    isplitl [HaV5]; · iexact HaV5
    isplitl [HaV6]; · iexact HaV6
    isplitl [HtB0]; · iexact HtB0
    isplitl [Hrow0]; · iexists _; iexact Hrow0
    isplitl [HtB1]; · iexact HtB1
    isplitl [Hrow1]; · iexists _; iexact Hrow1
    isplitl [HtB2]; · iexact HtB2
    isplitl [Hrow2]; · iexists _; iexact Hrow2
    isplitl [HtB3]; · iexact HtB3
    isplitl [Hrow3]; · iexists _; iexact Hrow3
    isplitl [HtB4]; · iexact HtB4
    isplitl [Hrow4]; · iexists _; iexact Hrow4
    isplitl [HtB5]; · iexact HtB5
    isplitl [Hrow5]; · iexists _; iexact Hrow5
    isplitl [HtB6]; · iexact HtB6
    isplitl [Hrow6]; · iexists _; iexact Hrow6
    isplitl [HtV0]; · iexact HtV0
    isplitl [HtS0]; · iexact HtS0
    isplitl [HtV1]; · iexact HtV1
    isplitl [HtS1]; · iexact HtS1
    isplitl [HtV2]; · iexact HtV2
    isplitl [HtS2]; · iexact HtS2
    isplitl [HtV3]; · iexact HtV3
    isplitl [HtS3]; · iexact HtS3
    isplitl [HtV4]; · iexact HtV4
    isplitl [HtS4]; · iexact HtS4
    isplitl [HtV5]; · iexact HtV5
    isplitl [HtS5]; · iexact HtS5
    isplitl [HtV6]; · iexact HtV6
    isplitl [HtS6]; · iexact HtS6
    isplitl [HcV0]; · iexact HcV0
    isplitl [HcV1]; · iexact HcV1
    isplitl [HcV2]; · iexact HcV2
    isplitl [HcV3]; · iexact HcV3
    isplitl [HcV4]; · iexact HcV4
    isplitl [HcV5]; · iexact HcV5
    isplitl [HcV6]; · iexact HcV6
    isplitl [Hown]; · iexists _; iexact Hown
    iexists _; iexact HO
  iintro HS
  dsimp only
  rw [wp_bind]
  iapply (Part2.part2_run m K c _ _ _ _)
  isplitl [HS]; · iexact HS
  iintro HS
  dsimp only
  rw [wp_bind]
  iapply (Part3.part3_run m K c _ _ _)
  isplitl [HS]; · iexact HS
  iintro HS
  dsimp only
  rw [wp_bind]
  iapply (Part4.part4_run m K c _ _ _ _)
  isplitl [HS]; · iexact HS
  iintro HS
  rw [wp_bind]
  iapply (Part5.part5_run m K c _ _)
  isplitl [HS]; · iexact HS
  iintro HS
  rw [wp_bind]
  iapply (Part6.part6_run m K c _ _)
  isplitl [HS]; · iexact HS
  iintro HS
  rw [wp_bind]
  iapply (Part7.part7_run m K c _ _)
  isplitl [HS]; · iexact HS
  iintro HS
  rw [xld_eq, gld_eq]
  iapply (Body2.half2 m K c Kt)
  isplitl [HS]; · iexact HS
  iexact Hk

/-- The library's body obligation on device c. -/
theorem body_obligation (c : Dev nD) : BodyObligation (dats (F := F) m 0 c) (defs₀ (F := F)) 𝒱₀ () Set.univ :=
  BodyOb.body_obligation_of m (sound_body m) c

/-- info: 'Cert.KernelIdeal.Body.body_obligation' depends on axioms: [propext, Classical.choice, Quot.sound] -/
#guard_msgs in #print axioms body_obligation

end Cert.KernelIdeal.Body

end
-- ==== Proof.Launch.lean ====
/-
  The launch of the column-sharded RMS norm on eight devices: the one application of the pipeline library's launch theorem
  for a kernel whose devices owe one another units at launch and whose barrier cell is not scoped to the kernel.

  What the launch has to supply beside the body obligation: the ghost element (the pipeline library's cells, and the
  protocol's nineteen cells per device with their twenty-five duty tokens); the step that allocates every cell's invariant
  for all devices at once and routes each duty token to the device that pays it (device c pays duty k.rev of the barrier
  cell of c + k + 1 and the duty of receive cell k of c + k + 1: for fixed k the map c ↦ c + k + 1 is a permutation of the
  devices, and k ↦ k.rev one of the seven copies); the credit tokens a device is dealt for the fourteen units the others owe
  its cells (seven barrier units, seven rows); that the two staging waits lie below everything owed; and the reading of the
  result array against the final memory.
-/
import proofs.«901005_g7700000000001006_dist_rmsnorm_colshard_i_m4096_n1024_v7x_i8_bf16_1_alg».proof.Proof.Body
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Proto Cert.KernelIdeal.BodyDefs
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens as minted -/

theorem ownSemFacts : Pipeline.OwnSemFacts cfg0.spec osem := by decide

theorem share_eq (c : Dev nD) (w : Fin cfg0.W) : (dats (F := F) m 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- All the protocol's cells: nineteen per device. -/
def cells : Finset (GSem nD τ sig) := Finset.univ.map ⟨kcell, kcell_injective⟩

/-- The duties of one device's cells: the barrier cell's seven, then one per send, receive and copy cell. -/
abbrev TI : Type := Fin 7 ⊕ (Fin 7 ⊕ (Fin 7 ⊕ Fin 4))

def tkind : TI → CK × Fin 7
  | .inl j => (.bar, j)
  | .inr (.inl k) => (.send k, 0)
  | .inr (.inr (.inl k)) => (.recv k, 0)
  | .inr (.inr (.inr i)) => (.cp i, 0)

theorem tkind_injective : Function.Injective tkind := by decide

abbrev tokOf (cj : Dev nD × TI) : GSem nD τ sig × ℕ × Fin 7 := (kcell (cj.1, (tkind cj.2).1), 0, (tkind cj.2).2)

theorem tokOf_injective : Function.Injective (tokOf : Dev nD × TI → GSem nD τ sig × ℕ × Fin 7) := by
  rintro ⟨c, j⟩ ⟨c', j'⟩ h
  have h1 : (c, (tkind j).1) = (c', (tkind j').1) := kcell_injective (congrArg (fun x : GSem nD τ sig × ℕ × Fin 7 => x.1) h)
  have h2 : (tkind j).2 = (tkind j').2 := congrArg (fun x : GSem nD τ sig × ℕ × Fin 7 => x.2.2) h
  have hc : c = c' := congrArg Prod.fst h1
  have hj : j = j' := tkind_injective (Prod.ext (congrArg Prod.snd h1) h2)
  rw [hc, hj]

def mintToks : Finset (GSem nD τ sig × ℕ × Fin 7) := Finset.univ.map ⟨tokOf, tokOf_injective⟩

/-- The launch element: the pipeline library's cells and the protocol's. -/
def u₀ : UU :=
  (initOf (Pipeline.cells cfgs cellOf_inj) (Pipeline.launchToks cfgs cellOf_inj), initOf cells mintToks)

/-- The duty tokens of device c's own cells. -/
def toks (c : Dev nD) : sProp 𝕄 :=
  iprop((bigSep Finset.univ fun j : Fin 7 => dutyTok ER (barCell c) 0 j)
    ∗ (bigSep Finset.univ fun k : Fin 7 => dutyTok ER (sendCell c k) 0 0)
    ∗ (bigSep Finset.univ fun k : Fin 7 => dutyTok ER (recvCell c k) 0 0)
    ∗ (bigSep Finset.univ fun i : Fin 4 => dutyTok ER (cpCell c i) 0 0))

/-- What the launch element deals device c: its cells' round states, its positions in them with the mark that their first
    round is reached, and its cells' duty tokens. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem toks_minted : bigSep mintToks (fun x => (dutyTok ER x.1 x.2.1 x.2.2 : sProp 𝕄)) = bigSep Finset.univ fun c : Dev nD => toks c := by
  unfold mintToks; rw [bigSep_map, bigSep_univ_prod]
  exact bigSep_congr fun c _ => by
    unfold toks
    rw [bigSep_univ_sum, bigSep_univ_sum, bigSep_univ_sum]; rfl

theorem fund_cells : BI.own (ER (initOf cells mintToks)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  iintro HX
  imod (Rounds.fund ER (sched m) cells mintToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_minted (F := F))) $$ Htok
  unfold G; simp only [bigSep_sep']
  isplitl [Hst']; · iexact Hst'
  isplitl [Hat' Hr']
  · isplitl [Hat'] <;> iassumption
  iexact Htok'

/-! ## The semaphores at zero, cell by cell -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kinds of cell, listed: the barrier cell, then the eighteen of the kernel's own semaphores in their order. -/
theorem bigSep_CK (Φ : CK → sProp 𝕄) : bigSep Finset.univ Φ
    = iprop(Φ .bar ∗ Φ (.send 0) ∗ Φ (.send 1) ∗ Φ (.send 2) ∗ Φ (.send 3) ∗ Φ (.send 4) ∗ Φ (.send 5) ∗ Φ (.send 6)
        ∗ Φ (.recv 0) ∗ Φ (.recv 1) ∗ Φ (.recv 2) ∗ Φ (.recv 3) ∗ Φ (.recv 4) ∗ Φ (.recv 5) ∗ Φ (.recv 6)
        ∗ Φ (.cp 0) ∗ Φ (.cp 1) ∗ Φ (.cp 2) ∗ Φ (.cp 3)) :=
  bigSep_univ_eq_bigSepL ([CK.bar, CK.send 0, CK.send 1, CK.send 2, CK.send 3, CK.send 4, CK.send 5, CK.send 6,
    CK.recv 0, CK.recv 1, CK.recv 2, CK.recv 3, CK.recv 4, CK.recv 5, CK.recv 6, CK.cp 0, CK.cp 1, CK.cp 2, CK.cp 3] : List CK) (by decide) (by decide) Φ

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
        ∗ semVal (sendCell c 5) 0 ∗ semVal (sendCell c 6) 0
        ∗ semVal (recvCell c 0) 0 ∗ semVal (recvCell c 1) 0 ∗ semVal (recvCell c 2) 0 ∗ semVal (recvCell c 3) 0 ∗ semVal (recvCell c 4) 0
        ∗ semVal (recvCell c 5) 0 ∗ semVal (recvCell c 6) 0
        ∗ semVal (cpCell c 0) 0 ∗ semVal (cpCell c 1) 0 ∗ semVal (cpCell c 2) 0 ∗ semVal (cpCell c 3) 0) := by
  rw [Pipeline.ownSems0_eq_of_list c osem [0, 1, 2, 3, 4, 5, 6, 7, 8, 9, 10, 11, 12, 13, 14, 15, 16, 17] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨H, HB⟩
  isplitl [HB]; · iexact HB
  iexact H

/-! ## The global step: every cell's invariant allocated, every token routed to its payer -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A double conjunction may be taken in either order. -/
theorem bigSep_swap {A B : Type} [Fintype A] [Fintype B] (Φ : A → B → sProp 𝕄) :
    (bigSep Finset.univ fun a : A => bigSep Finset.univ fun b : B => Φ a b) = bigSep Finset.univ fun b : B => bigSep Finset.univ fun a : A => Φ a b := by
  rw [← bigSep_univ_prod (fun ab : A × B => Φ ab.1 ab.2), ← bigSep_univ_prod (fun ba : B × A => Φ ba.2 ba.1),
    bigSep_univ_equiv (Equiv.prodComm B A) (fun ab : A × B => Φ ab.1 ab.2)]
  rfl

omit [FloatOps F] in
/-- The barrier tokens dealt to their payers: duty j of device c's barrier cell goes to device c + j + 1; seen from the payer c,
    that is duty k.rev of the barrier cell of c + k + 1, for each k. -/
theorem bar_around : (bigSep Finset.univ fun c : Dev nD => bigSep Finset.univ fun j : Fin 7 => (dutyTok ER (barCell c) 0 j : sProp 𝕄))
    = bigSep Finset.univ fun c : Dev nD => bigSep Finset.univ fun k : Fin 7 => dutyTok ER (barCell (peer c k)) 0 k.rev := by
  rw [bigSep_swap, bigSep_univ_equiv Fin.revPerm (fun j : Fin 7 => bigSep Finset.univ fun c : Dev nD => (dutyTok ER (barCell c) 0 j : sProp 𝕄)),
    bigSep_swap (fun (c : Dev nD) (k : Fin 7) => (dutyTok ER (barCell (peer c k)) 0 k.rev : sProp 𝕄))]
  exact bigSep_congr fun k _ => bigSep_univ_equiv (shift k) (fun c : Dev nD => (dutyTok ER (barCell c) 0 k.rev : sProp 𝕄))

omit [FloatOps F] in
/-- The receive tokens: the duty of receive cell k of device c goes to the device whose copy k lands there. -/
theorem recv_around : (bigSep Finset.univ fun c : Dev nD => bigSep Finset.univ fun k : Fin 7 => (dutyTok ER (recvCell c k) 0 0 : sProp 𝕄))
    = bigSep Finset.univ fun c : Dev nD => bigSep Finset.univ fun k : Fin 7 => dutyTok ER (recvCell (peer c k) k) 0 0 := by
  rw [bigSep_swap, bigSep_swap (fun (c : Dev nD) (k : Fin 7) => (dutyTok ER (recvCell (peer c k) k) 0 0 : sProp 𝕄))]
  exact bigSep_congr fun k _ => bigSep_univ_equiv (shift k) (fun c : Dev nD => (dutyTok ER (recvCell c k) 0 0 : sProp 𝕄))

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bar_around, recv_around]
  iintro ⟨H1, H2, H3, H4⟩
  isplitl [H1]; · iexact H1
  isplitl [H3]; · iexact H3
  isplitl [H2]; · iexact H2
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with_persistent (R := records m K) fun c _ => show iprop(records m K ∗ (positions c ∗ payToks c)) ⊢ G' m c from by
    unfold G' ghost; iintro H; iexists K; iexact H)
  isplitr
  · unfold records; isplitl; · iexact HI
    iexact HR
  · iapply (Entails.of_eq (bigSep_sep' Finset.univ (fun c : Dev nD => positions (F := F) c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- Every device d owes the barrier cell of d + k + 1 one unit: device c is dealt one unit's credit on its own barrier cell, -/
theorem cred_bar (c : Dev nD) (k : Fin 7) :
    (Pipeline.launchCred (fun d => bT d k) c : sProp 𝕄) ⊢ cred (tallyAt (barCell c) () 1) :=
  Pipeline.launchCred_tallyAt (.reg barS) (fun d => peer d k) (fun d => peer d k.rev) (fun c => peer_rev_peer c k) (fun d => peer_peer_rev d k) () 1 c

omit [FloatOps F] in
/-- and every device d owes receive cell k of d + k + 1 a row: device c is dealt a row's credit on its own receive cell k. -/
theorem cred_recv (c : Dev nD) (k : Fin 7) :
    (Pipeline.launchCred (fun d => rT d k) c : sProp 𝕄) ⊢ cred (tallyAt (recvCell c k) () Nrow) :=
  Pipeline.launchCred_tallyAt (.dma (recvS k)) (fun d => peer d k) (fun d => peer d k.rev) (fun c => peer_rev_peer c k) (fun d => peer_peer_rev d k) () Nrow c

omit [FloatOps F] in
theorem cred_bar_add (c : Dev nD) (a b : ℕ) :
    iprop(cred (tallyAt (barCell c) () a) ∗ cred (tallyAt (barCell c) () b)) ⊢ (cred (tallyAt (barCell c) () (a + b)) : sProp 𝕄) := by
  rw [← tallyAt_add]; exact (cred_add _ _).2

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL ([0, 1, 2, 3, 4, 5, 6] : List (Fin 7)) (by decide) (by decide) Φ

omit [FloatOps F] in
/-- The fourteen summands of what the devices owe, each turned into device c's credit on the cell it is owed to. -/
theorem creds_intro (c : Dev nD) : (Pipeline.launchCred O₀ c : sProp 𝕄) ⊢ creds c := by
  have e0 : (Pipeline.launchCred O₀ c : sProp 𝕄) = iprop(Pipeline.launchCred B1 c ∗ Pipeline.launchCred (fun d => bT d 0) c) :=
    Pipeline.launchCred_add B1 (fun d => bT d 0) c
  have e1 : (Pipeline.launchCred B1 c : sProp 𝕄) = iprop(Pipeline.launchCred B2 c ∗ Pipeline.launchCred (fun d => bT d 1) c) :=
    Pipeline.launchCred_add B2 (fun d => bT d 1) c
  have e2 : (Pipeline.launchCred B2 c : sProp 𝕄) = iprop(Pipeline.launchCred B3 c ∗ Pipeline.launchCred (fun d => bT d 2) c) :=
    Pipeline.launchCred_add B3 (fun d => bT d 2) c
  have e3 : (Pipeline.launchCred B3 c : sProp 𝕄) = iprop(Pipeline.launchCred B4 c ∗ Pipeline.launchCred (fun d => bT d 3) c) :=
    Pipeline.launchCred_add B4 (fun d => bT d 3) c
  have e4 : (Pipeline.launchCred B4 c : sProp 𝕄) = iprop(Pipeline.launchCred B5 c ∗ Pipeline.launchCred (fun d => bT d 4) c) :=
    Pipeline.launchCred_add B5 (fun d => bT d 4) c
  have e5 : (Pipeline.launchCred B5 c : sProp 𝕄) = iprop(Pipeline.launchCred B6 c ∗ Pipeline.launchCred (fun d => bT d 5) c) :=
    Pipeline.launchCred_add B6 (fun d => bT d 5) c
  have e6 : (Pipeline.launchCred B6 c : sProp 𝕄) = iprop(Pipeline.launchCred R0 c ∗ Pipeline.launchCred (fun d => bT d 6) c) :=
    Pipeline.launchCred_add R0 (fun d => bT d 6) c
  have f0 : (Pipeline.launchCred R0 c : sProp 𝕄) = iprop(Pipeline.launchCred R1 c ∗ Pipeline.launchCred (fun d => rT d 0) c) :=
    Pipeline.launchCred_add R1 (fun d => rT d 0) c
  have f1 : (Pipeline.launchCred R1 c : sProp 𝕄) = iprop(Pipeline.launchCred R2 c ∗ Pipeline.launchCred (fun d => rT d 1) c) :=
    Pipeline.launchCred_add R2 (fun d => rT d 1) c
  have f2 : (Pipeline.launchCred R2 c : sProp 𝕄) = iprop(Pipeline.launchCred R3 c ∗ Pipeline.launchCred (fun d => rT d 2) c) :=
    Pipeline.launchCred_add R3 (fun d => rT d 2) c
  have f3 : (Pipeline.launchCred R3 c : sProp 𝕄) = iprop(Pipeline.launchCred R4 c ∗ Pipeline.launchCred (fun d => rT d 3) c) :=
    Pipeline.launchCred_add R4 (fun d => rT d 3) c
  have f4 : (Pipeline.launchCred R4 c : sProp 𝕄) = iprop(Pipeline.launchCred R5 c ∗ Pipeline.launchCred (fun d => rT d 4) c) :=
    Pipeline.launchCred_add R5 (fun d => rT d 4) c
  have f5 : (Pipeline.launchCred R5 c : sProp 𝕄) = iprop(Pipeline.launchCred R6 c ∗ Pipeline.launchCred (fun d => rT d 5) c) :=
    Pipeline.launchCred_add R6 (fun d => rT d 5) c
  have f6 : (Pipeline.launchCred R6 c : sProp 𝕄) = iprop(Pipeline.launchCred R7 c ∗ Pipeline.launchCred (fun d => rT d 6) c) :=
    Pipeline.launchCred_add R7 (fun d => rT d 6) c
  rw [e0, e1, e2, e3, e4, e5, e6, f0, f1, f2, f3, f4, f5, f6]
  unfold creds
  rw [bigSep_fin7]
  iintro ⟨⟨⟨⟨⟨⟨⟨⟨⟨⟨⟨⟨⟨⟨-, r6⟩, r5⟩, r4⟩, r3⟩, r2⟩, r1⟩, r0⟩, b6⟩, b5⟩, b4⟩, b3⟩, b2⟩, b1⟩, b0⟩
  ihave c0 := (cred_bar (F := F) c 0) $$ b0
  ihave c1 := (cred_bar (F := F) c 1) $$ b1
  ihave c2 := (cred_bar (F := F) c 2) $$ b2
  ihave c3 := (cred_bar (F := F) c 3) $$ b3
  ihave c4 := (cred_bar (F := F) c 4) $$ b4
  ihave c5 := (cred_bar (F := F) c 5) $$ b5
  ihave c6 := (cred_bar (F := F) c 6) $$ b6
  ihave d1 := (cred_bar_add (F := F) c 1 1) $$ [c0 c1]
  · isplitl [c0] <;> iassumption
  ihave d2 := (cred_bar_add (F := F) c 2 1) $$ [d1 c2]
  · isplitl [d1] <;> iassumption
  ihave d3 := (cred_bar_add (F := F) c 3 1) $$ [d2 c3]
  · isplitl [d2] <;> iassumption
  ihave d4 := (cred_bar_add (F := F) c 4 1) $$ [d3 c4]
  · isplitl [d3] <;> iassumption
  ihave d5 := (cred_bar_add (F := F) c 5 1) $$ [d4 c5]
  · isplitl [d4] <;> iassumption
  ihave d6 := (cred_bar_add (F := F) c 6 1) $$ [d5 c6]
  · isplitl [d5] <;> iassumption
  isplitl [d6]; · iexact d6
  isplitl [r0]; · iapply (cred_recv (F := F) c 0); iexact r0
  isplitl [r1]; · iapply (cred_recv (F := F) c 1); iexact r1
  isplitl [r2]; · iapply (cred_recv (F := F) c 2); iexact r2
  isplitl [r3]; · iapply (cred_recv (F := F) c 3); iexact r3
  isplitl [r4]; · iapply (cred_recv (F := F) c 4); iexact r4
  isplitl [r5]; · iapply (cred_recv (F := F) c 5); iexact r5
  iapply (cred_recv (F := F) c 6); iexact r6

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ oPts c (m ((c : Thread nD τ).loc main_v1))) ∗ emp) := by
  rw [Pipeline.unscopedRestP_none, unscopedRest0_eq]
  iintro ⟨Ho, Hlev, Hcr, -, HG⟩
  ihave Hc := (creds_intro (F := F) c) $$ Hcr
  imodintro
  unfold start G'
  isplitl
  · isplitr [Ho]
    · isplitl [HG]; · iexact HG
      isplitl [Hc]; · iexact Hc
      iexact Hlev
    · iexact Ho
  · iempintro

theorem phi0_intro (c : Dev nD) :
    iprop((start m c ∗ oPts c (m ((c : Thread nD τ).loc main_v1)))
        ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀
  iintro ⟨⟨Hs, Ho⟩, -, ⟨%f, Hv⟩, ⟨%g, Ha⟩⟩
  isplitl [Hs]; · iexact Hs
  isplitl [Hv]; · iexists f; iexact Hv
  isplitl [Ha]; · iexists g; iexact Ha
  iexact Ho

theorem phi1_exit (c : Dev nD) :
    (dats (F := F) m 0 c).Φ (Fin.last cfg0.N) ⊢ iprop(oPts c (outv m c) ∗ Pipeline.ownSems0 osem c ∗ Pipeline.scopedRest cfg0.spec c) := by
  rw [show (dats (F := F) m 0 c).Φ (Fin.last cfg0.N) = Φ₁ m c from rfl, scopedRest0_eq]
  unfold Φ₁
  iintro ⟨⟨%f, Hv⟩, ⟨%g, Ha⟩, Ho, Hz⟩
  isplitl [Ho]; · iexact Ho
  isplitl [Hz]; · iexact Hz
  isplitl [Hv]
  · iexists f; iexact Hv
  · iexists g; iexact Ha

omit [FloatOps F] in
/-- A staging semaphore's cell lies at level 0, below every cell a device owes at launch (receive cells at 2, barrier cells at 1). -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · have hlv : lv ((c : Thread nD τ), SemLoc.dma q) () = 0 := by
      show (match kindOf (.dma q) with | some .bar => 1 | some (.recv _) => 2 | _ => 0) = 0; rw [hq]
    exact Pipeline.mayWait_of_levAts (by rw [L_tc]; exact Finset.mem_singleton_self _) fun g i hg => by
      rcases O₀_pos hg with ⟨k, rfl⟩ | ⟨k, rfl⟩
      · exact ⟨by rw [L_tc]; exact Finset.mem_singleton_self _, by rw [hlv, lv_recv]; decide⟩
      · exact ⟨by rw [L_tc]; exact Finset.mem_singleton_self _, by rw [hlv, lv_bar]; decide⟩
  · rw [MayWait_zero]; iintro -; iempintro

theorem waits (c : Dev nD) : (levAts L lv : sProp 𝕄) ⊢ Pipeline.cellsWaits cfgs (dats (F := F) m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- The launch, from one device's body obligation. -/
theorem run_main_of (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Cert.KernelIdeal.Proto.outv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => iprop(start m c ∗ oPts c (m ((c : Thread nD τ).loc main_v1)))) (Y := fun c => oPts c (outv m c)) (Z := fun _ => iprop(emp))
    (hX := start_intro m ρ) (hin := phi0_intro m) (hout := phi1_exit m)
    (QY := fun c s => s.mem ((c : Thread nD τ).loc main_v1) = outv m c)
    (hY := fun c s' => by
      iintro ⟨Ho, -, HSI⟩
      icombine HSI Ho gives %ho
      imodintro
      isplitr; · ipureintro; exact Buf.eq_of_forall_mem_univ ho
      iexact HSI)
    (hQ := fun s h c => ⟨(h c).2.2, ((h c).1 0).trans ((dats (F := F) m 0 c).arrAt_in 0 rfl _),
      ((h c).1 1).trans ((dats (F := F) m 0 c).arrAt_in 1 rfl _)⟩)

/-- info: 'Cert.KernelIdeal.Launch.run_main_of' depends on axioms: [propext, Classical.choice, Quot.sound] -/
#guard_msgs in #print axioms run_main_of

/-- At the compiled mesh of eight devices, for any float values, from any memory with zero counters: every weakly fair execution
    of @main terminates, and every final state has each device's result array at its block of the normalised product and both
    argument arrays holding what they held. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = Cert.KernelIdeal.Proto.outv m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main_of m ρ (Body.body_obligation m)

/-- info: 'Cert.KernelIdeal.Launch.run_main' depends on axioms: [propext, Classical.choice, Quot.sound] -/
#guard_msgs in #print axioms run_main

end Cert.KernelIdeal.Launch

end
-- ==== Proof.lean ====
/- The proof of `Cert.Claim`: the column-sharded RMS norm on eight devices equals its one-device reference.

   The array X (4096 x 8192) and the vector gamma (8192) are cut along the columns into eight blocks of 1024; device c
   holds block c of each. The reference computes, at row r and column k,
       (gamma k * X r k) / sqrt ((sum over all 8192 columns k' of X r k' ^ 2) / 8192 + eps).
   On device c the kernel sums the squares of its own 1024 columns of every row (4096 partial sums), puts that row of
   partial sums in row c of an 8 x 4096 gather buffer and copies it to row c of every other device's gather buffer. Before
   it sends, it signals each of the seven other devices once on a barrier semaphore and waits for seven units: a unit
   from device p says that p has entered the kernel, so its gather buffer may be written. After the seven arrivals and
   the seven departures are waited for, every device holds all eight rows; their column sums are the row sums of squares
   over all 8192 columns, and the device writes x * rsqrt (sum / 8192 + eps) * gamma for its block.

   The frames: both instances of the kernel (at machine words and at the extended reals) run, terminate and leave their
   arguments unchanged, from the launch theorem of the cross-device protocol, whose post also gives each device's
   result; the reference's run is its seventeen host operations composed.
   The law that joins kernel and reference, at the extended reals: the sum over the eight devices of the sums over a
   block's 1024 columns is the sum over all 8192 columns ((q, j) -> 1024 q + j is a bijection); and when every entry is
   a real number (the precondition), y = s / 8192 + eps is a positive real, so x * rsqrt y * g = (g * x) / sqrt y.
   Hence device c's result at (r, j) is the reference's result at (r, 1024 c + j): block c of it. -/
import proofs.«901005_g7700000000001006_dist_rmsnorm_colshard_i_m4096_n1024_v7x_i8_bf16_1_alg».proof.Defs
import proofs.«901005_g7700000000001006_dist_rmsnorm_colshard_i_m4096_n1024_v7x_i8_bf16_1_alg».proof.Proof.Gen.Kernel
import proofs.«901005_g7700000000001006_dist_rmsnorm_colshard_i_m4096_n1024_v7x_i8_bf16_1_alg».proof.Proof.Gen.Kernel.Skeleton
import proofs.«901005_g7700000000001006_dist_rmsnorm_colshard_i_m4096_n1024_v7x_i8_bf16_1_alg».proof.Proof.Gen.Kernel.Launch
import proofs.«901005_g7700000000001006_dist_rmsnorm_colshard_i_m4096_n1024_v7x_i8_bf16_1_alg».proof.Proof.Gen.Kernel.Points
import proofs.«901005_g7700000000001006_dist_rmsnorm_colshard_i_m4096_n1024_v7x_i8_bf16_1_alg».proof.Proof.Gen.Kernel.Frame
import proofs.«901005_g7700000000001006_dist_rmsnorm_colshard_i_m4096_n1024_v7x_i8_bf16_1_alg».proof.Proof.Gen.KernelIdeal
import proofs.«901005_g7700000000001006_dist_rmsnorm_colshard_i_m4096_n1024_v7x_i8_bf16_1_alg».proof.Proof.Gen.KernelIdeal.Skeleton
import proofs.«901005_g7700000000001006_dist_rmsnorm_colshard_i_m4096_n1024_v7x_i8_bf16_1_alg».proof.Proof.Gen.KernelIdeal.Launch
import proofs.«901005_g7700000000001006_dist_rmsnorm_colshard_i_m4096_n1024_v7x_i8_bf16_1_alg».proof.Proof.Gen.KernelIdeal.Points
import proofs.«901005_g7700000000001006_dist_rmsnorm_colshard_i_m4096_n1024_v7x_i8_bf16_1_alg».proof.Proof.Gen.KernelIdeal.Frame
import proofs.«901005_g7700000000001006_dist_rmsnorm_colshard_i_m4096_n1024_v7x_i8_bf16_1_alg».proof.Proof.Gen.ReferenceIdeal
import proofs.«901005_g7700000000001006_dist_rmsnorm_colshard_i_m4096_n1024_v7x_i8_bf16_1_alg».proof.Proof.Gen.Pre_finite_inputs_Kernel
import proofs.«901005_g7700000000001006_dist_rmsnorm_colshard_i_m4096_n1024_v7x_i8_bf16_1_alg».proof.Proof.Gen.Pre_finite_inputs_ReferenceIdeal
import Idealize.ShloMosaic.Adequacy
import Idealize.ShloMosaic.Init
import proofs.«901005_g7700000000001006_dist_rmsnorm_colshard_i_m4096_n1024_v7x_i8_bf16_1_alg».proof.Proof.Claims
import proofs.«901005_g7700000000001006_dist_rmsnorm_colshard_i_m4096_n1024_v7x_i8_bf16_1_alg».proof.Proof.Launch
import proofs.«901005_g7700000000001006_dist_rmsnorm_colshard_i_m4096_n1024_v7x_i8_bf16_1_alg».proof.Proof.KLaunch

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Claims.frame_p_of (Cert.Kernel.Launch.run_main (F := Bits)),
    Cert.Claims.frame_pi_of (Cert.KernelIdeal.Launch.run_main (F := Ideal)),
    Cert.Claims.frame_ri,
    Cert.Claims.preserves,
    Cert.Claims.algebraic_of (Cert.KernelIdeal.Launch.run_main (F := Ideal))⟩

end Cert.Proof

end

/-- info: 'Cert.Proof.claim' depends on axioms: [propext, Classical.choice, Quot.sound] -/
#guard_msgs in #print axioms Cert.Proof.claim
